-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S64x32 : Shape := ⟨2, ![64, 32]⟩
abbrev S64x64 : Shape := ⟨2, ![64, 64]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S64x32 : S_.BroadcastsInDim S64x32 (![] : Fin 0 → Fin S64x32.rank)
  reducesTo_S64x32_S_d0_1 : S64x32.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S8192x8192 .f32) (main_arg1 : FVec F S8192x64 .f32) (main_arg2 : FVec F S64x32 .f32) (main_arg3 : FVec F S64x64 .f32) (main_arg4 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64x32 .f32 := Host.absf main_arg2
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S8192x8192 : Shape := ⟨2, ![8192, 8192]⟩
abbrev S8192x64 : Shape := ⟨2, ![8192, 64]⟩
abbrev S64x32 : Shape := ⟨2, ![64, 32]⟩
abbrev S64x64 : Shape := ⟨2, ![64, 64]⟩
abbrev S8192 : Shape := ⟨1, ![8192]⟩
abbrev S8192x32 : Shape := ⟨2, ![8192, 32]⟩
abbrev S2048x1024 : Shape := ⟨2, ![2048, 1024]⟩
abbrev S1024x64 : Shape := ⟨2, ![1024, 64]⟩
abbrev S2048x32 : Shape := ⟨2, ![2048, 32]⟩
abbrev S2048x64 : Shape := ⟨2, ![2048, 64]⟩
abbrev S1024x32 : Shape := ⟨2, ![1024, 32]⟩
abbrev S2048 : Shape := ⟨1, ![2048]⟩
abbrev S2048x1 : Shape := ⟨2, ![2048, 1]⟩
abbrev S32x32x32 : Shape := ⟨3, ![32, 32, 32]⟩
abbrev S256x32 : Shape := ⟨2, ![256, 32]⟩
abbrev S256x64 : Shape := ⟨2, ![256, 64]⟩
abbrev S256x256 : Shape := ⟨2, ![256, 256]⟩
abbrev S32x64 : Shape := ⟨2, ![32, 64]⟩
abbrev S1x32x32 : Shape := ⟨3, ![1, 32, 32]⟩
abbrev S32x32 : Shape := ⟨2, ![32, 32]⟩
abbrev S32 : Shape := ⟨1, ![32]⟩
abbrev S_ : Shape := ⟨0, ![]⟩
abbrev S32x32x32x32 : Shape := ⟨4, ![32, 32, 32, 32]⟩
abbrev S32x1 : Shape := ⟨2, ![32, 1]⟩
abbrev S32x2 : Shape := ⟨2, ![32, 2]⟩
abbrev S1024x1024 : Shape := ⟨2, ![1024, 1024]⟩
abbrev S1024 : Shape := ⟨1, ![1024]⟩

abbrev nBuf : Space → Nat
  | .hbm => 34
  | .vmem => 22
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S64x32, .f32⟩
  | .hbm, ⟨3, _⟩ => ⟨S64x64, .f32⟩
  | .hbm, ⟨4, _⟩ => ⟨S8192, .i32⟩
  | .hbm, ⟨5, _⟩ => ⟨S8192x32, .f32⟩
  | .hbm, ⟨6, _⟩ => ⟨S8192x64, .f32⟩
  | .hbm, ⟨7, _⟩ => ⟨S1024x64, .f32⟩
  | .hbm, ⟨8, _⟩ => ⟨S32x32x32, .f32⟩
  | .hbm, ⟨9, _⟩ => ⟨S32, .i32⟩
  | .hbm, ⟨10, _⟩ => ⟨S_, .f32⟩
  | .hbm, ⟨11, _⟩ => ⟨S32x32x32x32, .f32⟩
  | .hbm, ⟨12, _⟩ => ⟨S_, .i32⟩
  | .hbm, ⟨13, _⟩ => ⟨S32, .i32⟩
  | .hbm, ⟨14, _⟩ => ⟨S32, .i1⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S32x1, .i32⟩
  | .hbm, ⟨27, _⟩ => ⟨S32x1, .i32⟩
  | .hbm, ⟨28, _⟩ => ⟨S32x2, .i32⟩
  | .hbm, ⟨29, _⟩ => ⟨S32x32x32x32, .f32⟩
  | .hbm, ⟨30, _⟩ => ⟨S1024x1024, .f32⟩
  | .hbm, ⟨31, _⟩ => ⟨S32, .i32⟩
  | .hbm, ⟨32, _⟩ => ⟨S32x32, .i32⟩
  | .hbm, ⟨33, _⟩ => ⟨S1024, .i32⟩
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S1024x64, .f32⟩
  | .local _ .vmem, ⟨4, _⟩ => ⟨S64x32, .f32⟩
  | .local _ .vmem, ⟨5, _⟩ => ⟨S64x64, .f32⟩
  | .local _ .vmem, ⟨6, _⟩ => ⟨S2048x32, .f32⟩
  | .local _ .vmem, ⟨7, _⟩ => ⟨S2048x32, .f32⟩
  | .local _ .vmem, ⟨8, _⟩ => ⟨S2048x64, .f32⟩
  | .local _ .vmem, ⟨9, _⟩ => ⟨S2048x64, .f32⟩
  | .local _ .vmem, ⟨10, _⟩ => ⟨S2048x32, .f32⟩
  | .local _ .vmem, ⟨11, _⟩ => ⟨S2048x64, .f32⟩
  | .local _ .vmem, ⟨12, _⟩ => ⟨S256x32, .f32⟩
  | .local _ .vmem, ⟨13, _⟩ => ⟨S256x32, .f32⟩
  | .local _ .vmem, ⟨14, _⟩ => ⟨S256x64, .f32⟩
  | .local _ .vmem, ⟨15, _⟩ => ⟨S256x64, .f32⟩
  | .local _ .vmem, ⟨16, _⟩ => ⟨S256x256, .f32⟩
  | .local _ .vmem, ⟨17, _⟩ => ⟨S256x256, .f32⟩
  | .local _ .vmem, ⟨18, _⟩ => ⟨S32x64, .f32⟩
  | .local _ .vmem, ⟨19, _⟩ => ⟨S32x64, .f32⟩
  | .local _ .vmem, ⟨20, _⟩ => ⟨S1x32x32, .f32⟩
  | .local _ .vmem, ⟨21, _⟩ => ⟨S1x32x32, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_19 : BitVec 32 := 0#32
  let v29 : BitVec 1 := Scalar.cmpi .ne v28 c0_i32_19
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  ![arg0.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x32x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S64x64_S64x64_0_0 : ∀ a, (![0, 0] : Fin 2 → Nat) a + S64x64.size a ≤ S64x64.size a
  h_S64x64 : 0 < S64x64.numel
  inb_S2048x1024_S2048x1024_0_0 : ∀ a, (![0, 0] : Fin 2 → Nat) a + S2048x1024.size a ≤ S2048x1024.size a
  h_S2048x1024 : 0 < S2048x1024.numel
  reduces_S2048x32_S2048 : S2048x32.Reduces [1] S2048
  shapeCasts_S2048_S2048x1 : S2048.ShapeCasts S2048x1
  broadcasts_S2048x1_S2048x32 : S2048x1.Broadcasts S2048x32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x256_S256x256_0_0 : ∀ a, (![0, 0] : Fin 2 → Nat) a + S256x256.size a ≤ S256x256.size a
  h_S256x256 : 0 < S256x256.numel
  inb_S32x64_S32x64_0_0 : ∀ a, (![0, 0] : Fin 2 → Nat) a + S32x64.size a ≤ S32x64.size a
  h_S32x64 : 0 < S32x64.numel
  shapeCasts_S32x32_S1x32x32 : S32x32.ShapeCasts S1x32x32
  inb_S1x32x32_S1x32x32_0_0_0 : ∀ a, (![0, 0, 0] : Fin 3 → Nat) a + S1x32x32.size a ≤ S1x32x32.size a
  h_S1x32x32 : 0 < S1x32x32.numel
  bcast_S_S32x32x32x32 : S_.BroadcastsInDim S32x32x32x32 (![] : Fin 0 → Fin S32x32x32x32.rank)
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  shapeCasts_S32x32x32x32_S1024x1024 : S32x32x32x32.ShapeCasts S1024x1024
  bcast_S32_S32x32_0 : S32.BroadcastsInDim S32x32 (![0] : Fin 1 → Fin S32x32.rank)
  shapeCasts_S32x32_S1024 : S32x32.ShapeCasts S1024
  dot_S1024x64_S64x32_S1024x32_1_0_0_1_n_n_wf : DotDims.WF S1024x64 S64x32 S1024x32 [1] [0] [0] [1] [] []
  dot_S1024x64_S64x64_S1024x64_1_0_0_1_n_n_wf : DotDims.WF S1024x64 S64x64 S1024x64 [1] [0] [0] [1] [] []
  dot_S2048x1024_S1024x32_S2048x32_1_0_0_1_n_n_wf : DotDims.WF S2048x1024 S1024x32 S2048x32 [1] [0] [0] [1] [] []
  dot_S2048x1024_S1024x64_S2048x64_1_0_0_1_n_n_wf : DotDims.WF S2048x1024 S1024x64 S2048x64 [1] [0] [0] [1] [] []
  dot_S256x32_S256x64_S32x64_0_0_1_1_n_n_wf : DotDims.WF S256x32 S256x64 S32x64 [0] [0] [1] [1] [] []
  dot_S256x256_S256x32_S256x32_1_0_0_1_n_n_wf : DotDims.WF S256x256 S256x32 S256x32 [1] [0] [0] [1] [] []
  dot_S256x32_S256x32_S32x32_0_0_1_1_n_n_wf : DotDims.WF S256x32 S256x32 S32x32 [0] [0] [1] [1] [] []
  scatter_S32x32x32x32_S32x2_S32x32x32_12_02_02_1_wf : ScatterDims.WF S32x32x32x32 S32x2 S32x32x32 [1, 2] [0, 2] [0, 2] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x32.size a ≤ S8192x32.size a
  hwx0_4 : ∀ i : grid0.Coords, EltTy.bits .f32 = 32 ∨ (Rect.block (s := S8192x32) S2048x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S8192x64.size a
  hwx0_5 : ∀ i : grid0.Coords, EltTy.bits .f32 = 32 ∨ (Rect.block (s := S8192x64) S2048x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x32.size a ≤ S8192x32.size a
  hwx1_0 : ∀ i : grid1.Coords, EltTy.bits .f32 = 32 ∨ (Rect.block (s := S8192x32) S256x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S8192x64.size a
  hwx1_1 : ∀ i : grid1.Coords, EltTy.bits .f32 = 32 ∨ (Rect.block (s := S8192x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S8192x8192.size a
  hwx1_2 : ∀ i : grid1.Coords, EltTy.bits .f32 = 32 ∨ (Rect.block (s := S8192x8192) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S1024x64.size a
  hwx1_3 : ∀ i : grid1.Coords, EltTy.bits .f32 = 32 ∨ (Rect.block (s := S1024x64) S32x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x32x32.size a ≤ S32x32x32.size a
  hwx1_4 : ∀ i : grid1.Coords, EltTy.bits .f32 = 32 ∨ (Rect.block (s := S32x32x32) S1x32x32.size (cc1_transform_4 i) (hinb1_4 i)).WholeWords (EltTy.packing .f32)

variable [Facts₀]

def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S2048x1024_S1024x32_S2048x32_1_0_0_1_n_n : DotDims S2048x1024 S1024x32 S2048x32 where
  lhsContracting := [1]
  rhsContracting := [0]
  lhsNonContracting := [0]
  rhsNonContracting := [1]
  lhsBatch := []
  rhsBatch := []
  wf := dot_S2048x1024_S1024x32_S2048x32_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S256x32_S256x64_S32x64_0_0_1_1_n_n : DotDims S256x32 S256x64 S32x64 where
  lhsContracting := [0]
  rhsContracting := [0]
  lhsNonContracting := [1]
  rhsNonContracting := [1]
  lhsBatch := []
  rhsBatch := []
  wf := dot_S256x32_S256x64_S32x64_0_0_1_1_n_n_wf
def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf
def dot_S256x32_S256x32_S32x32_0_0_1_1_n_n : DotDims S256x32 S256x32 S32x32 where
  lhsContracting := [0]
  rhsContracting := [0]
  lhsNonContracting := [1]
  rhsNonContracting := [1]
  lhsBatch := []
  rhsBatch := []
  wf := dot_S256x32_S256x32_S32x32_0_0_1_1_n_n_wf
def scatter_S32x32x32x32_S32x2_S32x32x32_12_02_02_1 : ScatterDims S32x32x32x32 S32x2 S32x32x32 where
  updateWindowDims := [1, 2]
  insertedWindowDims := [0, 2]
  scatterDimsToOperandDims := [0, 2]
  indexVectorDim := 1
  wf := scatter_S32x32x32x32_S32x2_S32x32x32_12_02_02_1_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2048x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0_0) S256x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S32x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1x32x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S8192x64 : Shape := ⟨2, ![8192, 64]⟩
abbrev S64x32 : Shape := ⟨2, ![64, 32]⟩
abbrev S64x64 : Shape := ⟨2, ![64, 64]⟩
abbrev S8192 : Shape := ⟨1, ![8192]⟩
abbrev S8192x32 : Shape := ⟨2, ![8192, 32]⟩
abbrev S_ : Shape := ⟨0, ![]⟩
abbrev S8192x1 : Shape := ⟨2, ![8192, 1]⟩
abbrev S32x256x32 : Shape := ⟨3, ![32, 256, 32]⟩
abbrev S32x256x64 : Shape := ⟨3, ![32, 256, 64]⟩
abbrev S32 : Shape := ⟨1, ![32]⟩
abbrev S32x256x32x256 : Shape := ⟨4, ![32, 256, 32, 256]⟩
abbrev S32x1 : Shape := ⟨2, ![32, 1]⟩
abbrev S32x2 : Shape := ⟨2, ![32, 2]⟩
abbrev S32x256x256 : Shape := ⟨3, ![32, 256, 256]⟩
abbrev S32x32x64 : Shape := ⟨3, ![32, 32, 64]⟩
abbrev S1024x64 : Shape := ⟨2, ![1024, 64]⟩
abbrev S32x32x32 : Shape := ⟨3, ![32, 32, 32]⟩
abbrev S32x32x32x32 : Shape := ⟨4, ![32, 32, 32, 32]⟩
abbrev S1024x1024 : Shape := ⟨2, ![1024, 1024]⟩
abbrev S32x32 : Shape := ⟨2, ![32, 32]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S64x32, .f32⟩
  | .hbm, ⟨3, _⟩ => ⟨S64x64, .f32⟩
  | .hbm, ⟨4, _⟩ => ⟨S8192, .i32⟩
  | .hbm, ⟨5, _⟩ => ⟨S8192x32, .f32⟩
  | .hbm, ⟨6, _⟩ => ⟨S8192x32, .f32⟩
  | .hbm, ⟨7, _⟩ => ⟨S_, .f32⟩
  | .hbm, ⟨8, _⟩ => ⟨S8192x32, .f32⟩
  | .hbm, ⟨9, _⟩ => ⟨S8192x32, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192x64, .f32⟩
  | .hbm, ⟨14, _⟩ => ⟨S8192x64, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x32, .f32⟩
  | .hbm, ⟨28, _⟩ => ⟨S8192x32, .f32⟩
  | .hbm, ⟨29, _⟩ => ⟨S32x256x32, .f32⟩
  | .hbm, ⟨30, _⟩ => ⟨S32x256x64, .f32⟩
  | .hbm, ⟨31, _⟩ => ⟨S32, .i32⟩
  | .hbm, ⟨32, _⟩ => ⟨S32x256x32x256, .f32⟩
  | .hbm, ⟨33, _⟩ => ⟨S_, .i32⟩
  | .hbm, ⟨34, _⟩ => ⟨S32, .i32⟩
  | .hbm, ⟨35, _⟩ => ⟨S32, .i1⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S_, .i32⟩
  | .hbm, ⟨41, _⟩ => ⟨S32, .i32⟩
  | .hbm, ⟨42, _⟩ => ⟨S32, .i1⟩
  | .hbm, ⟨43, _⟩ => ⟨S_, .i32⟩
  | .hbm, ⟨44, _⟩ => ⟨S32, .i32⟩
  | .hbm, ⟨45, _⟩ => ⟨S32, .i32⟩
  | .hbm, ⟨46, _⟩ => ⟨S32, .i32⟩
  | .hbm, ⟨47, _⟩ => ⟨S32x1, .i32⟩
  | .hbm, ⟨48, _⟩ => ⟨S32x1, .i32⟩
  | .hbm, ⟨49, _⟩ => ⟨S32x2, .i32⟩
  | .hbm, ⟨50, _⟩ => ⟨S32x256x256, .f32⟩
  | .hbm, ⟨51, _⟩ => ⟨S32x32x64, .f32⟩
  | .hbm, ⟨52, _⟩ => ⟨S1024x64, .f32⟩
  | .hbm, ⟨53, _⟩ => ⟨S32x256x32, .f32⟩
  | .hbm, ⟨54, _⟩ => ⟨S32x32x32, .f32⟩
  | .hbm, ⟨55, _⟩ => ⟨S_, .f32⟩
  | .hbm, ⟨56, _⟩ => ⟨S32x32x32x32, .f32⟩
  | .hbm, ⟨57, _⟩ => ⟨S_, .i32⟩
  | .hbm, ⟨58, _⟩ => ⟨S32, .i32⟩
  | .hbm, ⟨59, _⟩ => ⟨S32, .i1⟩
  | .hbm, ⟨60, _⟩ => ⟨S_, .i32⟩
  | .hbm, ⟨61, _⟩ => ⟨S32, .i32⟩
  | .hbm, ⟨62, _⟩ => ⟨S32, .i32⟩
  | .hbm, ⟨63, _⟩ => ⟨S32, .i32⟩
  | .hbm, ⟨64, _⟩ => ⟨S_, .i32⟩
  | .hbm, ⟨65, _⟩ => ⟨S32, .i32⟩
  | .hbm, ⟨66, _⟩ => ⟨S32, .i1⟩
  | .hbm, ⟨67, _⟩ => ⟨S_, .i32⟩
  | .hbm, ⟨68, _⟩ => ⟨S32, .i32⟩
  | .hbm, ⟨69, _⟩ => ⟨S32, .i32⟩
  | .hbm, ⟨70, _⟩ => ⟨S32, .i32⟩
  | .hbm, ⟨71, _⟩ => ⟨S32x1, .i32⟩
  | .hbm, ⟨72, _⟩ => ⟨S32x1, .i32⟩
  | .hbm, ⟨73, _⟩ => ⟨S32x2, .i32⟩
  | .hbm, ⟨74, _⟩ => ⟨S32x32x32x32, .f32⟩
  | .hbm, ⟨75, _⟩ => ⟨S1024x1024, .f32⟩
  | .hbm, ⟨76, _⟩ => ⟨S32, .i32⟩
  | .hbm, ⟨77, _⟩ => ⟨S32x32, .i32⟩
  | .hbm, ⟨78, _⟩ => ⟨S1024, .i32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  bcast_S_S8192x32 : S_.BroadcastsInDim S8192x32 (![] : Fin 0 → Fin S8192x32.rank)
  bcast_S_S8192x64 : S_.BroadcastsInDim S8192x64 (![] : Fin 0 → Fin S8192x64.rank)
  reducesTo_S8192x32_S8192_d1 : S8192x32.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  shapeCasts_S8192x32_S32x256x32 : S8192x32.ShapeCasts S32x256x32
  shapeCasts_S8192x64_S32x256x64 : S8192x64.ShapeCasts S32x256x64
  shapeCasts_S8192x8192_S32x256x32x256 : S8192x8192.ShapeCasts S32x256x32x256
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  shapeCasts_S32x32x64_S1024x64 : S32x32x64.ShapeCasts S1024x64
  bcast_S_S32x32x32x32 : S_.BroadcastsInDim S32x32x32x32 (![] : Fin 0 → Fin S32x32x32x32.rank)
  shapeCasts_S32x32x32x32_S1024x1024 : S32x32x32x32.ShapeCasts S1024x1024
  bcast_S32_S32x32_0 : S32.BroadcastsInDim S32x32 (![0] : Fin 1 → Fin S32x32.rank)
  shapeCasts_S32x32_S1024 : S32x32.ShapeCasts S1024
  dot_S8192x64_S64x32_S8192x32_1_0_0_1_n_n_wf : DotDims.WF S8192x64 S64x32 S8192x32 [1] [0] [0] [1] [] []
  dot_S8192x8192_S8192x32_S8192x32_1_0_0_1_n_n_wf : DotDims.WF S8192x8192 S8192x32 S8192x32 [1] [0] [0] [1] [] []
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []
  gather_S32x256x32x256_S32x2_S32x256x256_12_02_n_n_02_1_12561256_wf : GatherDims.WF S32x256x32x256 S32x2 S32x256x256 [1, 2] [0, 2] [] [0, 2] [] 1 ![1, 256, 1, 256]
  dot_S32x256x32_S32x256x64_S32x32x64_1_1_2_2_0_0_wf : DotDims.WF S32x256x32 S32x256x64 S32x32x64 [1] [1] [2] [2] [0] [0]
  dot_S32x256x256_S32x256x32_S32x256x32_1_1_2_2_0_0_wf : DotDims.WF S32x256x256 S32x256x32 S32x256x32 [1] [1] [2] [2] [0] [0]
  dot_S32x256x32_S32x256x32_S32x32x32_1_1_2_2_0_0_wf : DotDims.WF S32x256x32 S32x256x32 S32x32x32 [1] [1] [2] [2] [0] [0]
  scatter_S32x32x32x32_S32x2_S32x32x32_12_02_02_1_wf : ScatterDims.WF S32x32x32x32 S32x2 S32x32x32 [1, 2] [0, 2] [0, 2] 1

variable [Facts₀]

def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def gather_S32x256x32x256_S32x2_S32x256x256_12_02_n_n_02_1_12561256 : GatherDims S32x256x32x256 S32x2 S32x256x256 where
  offsetDims := [1, 2]
  collapsedSliceDims := [0, 2]
  operandBatchingDims := []
  startIndicesBatchingDims := []
  startIndexMap := [0, 2]
  indexVectorDim := 1
  sliceSizes := ![1, 256, 1, 256]
  wf := gather_S32x256x32x256_S32x2_S32x256x256_12_02_n_n_02_1_12561256_wf
def dot_S32x256x32_S32x256x64_S32x32x64_1_1_2_2_0_0 : DotDims S32x256x32 S32x256x64 S32x32x64 where
  lhsContracting := [1]
  rhsContracting := [1]
  lhsNonContracting := [2]
  rhsNonContracting := [2]
  lhsBatch := [0]
  rhsBatch := [0]
  wf := dot_S32x256x32_S32x256x64_S32x32x64_1_1_2_2_0_0_wf
def dot_S32x256x256_S32x256x32_S32x256x32_1_1_2_2_0_0 : DotDims S32x256x256 S32x256x32 S32x256x32 where
  lhsContracting := [1]
  rhsContracting := [1]
  lhsNonContracting := [2]
  rhsNonContracting := [2]
  lhsBatch := [0]
  rhsBatch := [0]
  wf := dot_S32x256x256_S32x256x32_S32x256x32_1_1_2_2_0_0_wf
def dot_S32x256x32_S32x256x32_S32x32x32_1_1_2_2_0_0 : DotDims S32x256x32 S32x256x32 S32x32x32 where
  lhsContracting := [1]
  rhsContracting := [1]
  lhsNonContracting := [2]
  rhsNonContracting := [2]
  lhsBatch := [0]
  rhsBatch := [0]
  wf := dot_S32x256x32_S32x256x32_S32x32x32_1_1_2_2_0_0_wf
def scatter_S32x32x32x32_S32x2_S32x32x32_12_02_02_1 : ScatterDims S32x32x32x32 S32x2 S32x32x32 where
  updateWindowDims := [1, 2]
  insertedWindowDims := [0, 2]
  scatterDimsToOperandDims := [0, 2]
  indexVectorDim := 1
  wf := scatter_S32x32x32x32_S32x2_S32x32x32_12_02_02_1_wf

class Facts : Prop extends Facts₀ where

variable [Facts]
-- ==== Proof.KKit.lean ====
/-
  What the two pallas_calls' frame proofs share. The first call runs on a 4 × 8 grid (row tile i, column tile k):
  at k = 0 it zeroes two accumulators kept in scratch memory, at every k it adds one tile product to each, and at
  k = 7 it stores softmax(relu(·)) of the one and relu(·) of the other into its two output blocks; elsewhere the
  output windows are idle. Here: each window's block at a grid point read off the array as the call finds it; the
  two branch conditions as functions of the grid point, decided over the 32 points (k = 0 is "t mod 8 = 0", k = 7 is
  "t mod 8 = 7"); at which points the output windows are idle and not written back; the staging and scratch buffers
  by name; and the class invariant spelled with the two scratch buffers owned at some contents.
  The second call runs on a grid of 32 points, one per graph, and has no branch and no scratch.
-/
import proofs.«121435_j89764816486779_1_alg».proof.Proof.Gen.Kernel.Launch
import proofs.«121435_j89764816486779_1_alg».proof.Proof.Gen.Kernel.Skeleton
import proofs.«121435_j89764816486779_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

-- the TensorCore's buffer contents when a call is entered
variable (V : (c : Dev nD) → (b : Ref sig .tc) → Buf (Elt F) ((c : Thread nD τ).loc b))

/-! ## The first call's blocks -/

/-- Window `w`'s block at point `t`, read off its array as the first call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or not (an unfetched
    window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The second call's blocks -/

/-- Window `w`'s block at point `t`, read off its array as the second call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The first call's branch conditions -/

/-- "k = 0", as the body computes it from the grid point. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "k = 7". -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the first call's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from k = 7 the output windows are idle and their blocks are not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At k = 7 they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The staging and scratch buffers by name -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x64 .f32 := win0_5.stage (cfg0.slots t 5)
abbrev hs0_5 (t : Fin cfg0.N) : (ms0_5 t).IsWhole := hstage0_5 ((cfg0.slots t 5).cast nbuf0_5)
/-- The two accumulators: whole scoped buffers of the first call's own. -/
abbrev scM0_0 : Memref sig .tc .vmem S2048x32 .f32 := Memref.whole cc0_scratch0
abbrev scM0_1 : Memref sig .tc .vmem S2048x64 .f32 := Memref.whole cc0_scratch1
/-- Views through which buffer contents are stated (the choice of buffer does not matter). -/
abbrev VS0_0 : View sig .tc .vmem S2048x32 .f32 := scM0_0.view
abbrev VS0_1 : View sig .tc .vmem S2048x64 .f32 := scM0_1.view
abbrev VO0_4 : View sig .tc .vmem S2048x32 .f32 := (Memref.whole cc0_stg4_0 : Memref sig .tc .vmem S2048x32 .f32).view
abbrev VO0_5 : View sig .tc .vmem S2048x64 .f32 := (Memref.whole cc0_stg5_0 : Memref sig .tc .vmem S2048x64 .f32).view

abbrev ms1_0 (t : Fin cfg1.N) : Memref sig .tc .vmem S256x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32x32 .f32 := win1_4.stage (cfg1.slots t 4)
abbrev hs1_4 (t : Fin cfg1.N) : (ms1_4 t).IsWhole := hstage1_4 ((cfg1.slots t 4).cast nbuf1_4)

/-- The class invariant of the first call with its two scratch buffers named: each owned at some contents, the
    other scoped buffers at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f)) ∗ (∃ r, prngReg c r)) := by
  unfold Pipeline.ΦA; rw [scopedRest0_eq]; simp only [scM0_0, scM0_1, owns_whole]; try rfl

end Cert.Kernel.Hand

end
-- ==== Proof.KRun0.lean ====
/-
  The first call's body run whole, once per control case: k = 0 (the accumulators are zeroed, then a tile product
  is added to each), 0 < k < 7 (a tile product is added to each), k = 7 (a tile product is added to each, then
  softmax(relu(·)) and relu(·) of the accumulators are stored into the two output blocks). Each run is stated over
  whole staging buffers — the four inputs at their contents, an accumulator at what the point before left or at
  anything — and ends with the inputs as they were and each written buffer holding its stores as a list of pieces;
  the lists are found by the run, not written.
-/
import proofs.«121435_j89764816486779_1_alg».proof.Proof.KKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- k = 0: both accumulators, found at anything, end with two stores each (the zero fill, then the sum). -/
noncomputable def kernelRun0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : cond0_0 i) (hc1 : ¬cond0_1 i)
    (x0 : Vec F S2048x1024 .f32) (x1 : Vec F S1024x64 .f32) (x2 : Vec F S64x32 .f32) (x3 : Vec F S64x64 .f32) :
    Σ' (LS0 : List (View.Piece (Elt F) S2048x32 .f32)), { LS1 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, fun E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d8, %f8, -, HS0⟩, ⟨%d9, %f9, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- 0 < k < 7: both accumulators, found at what the point before left, end with one store each (the sum). -/
noncomputable def kernelRun0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : ¬cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) :
    Σ' (LS0 : List (View.Piece (Elt F) S2048x32 .f32)), { LS1 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, fun E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f8, %hf8, HS0⟩, ⟨%f9, %hf9, HS1⟩, Hk⟩
    obtain rfl := harg2.eq_unread hf0; obtain rfl := harg3.eq_unread hf1; obtain rfl := harg4.eq_unread hf2; obtain rfl := harg5.eq_unread hf3
    obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- k = 7: the accumulators as in the middle case, and each output block, found at anything, ends with one store. -/
noncomputable def kernelRun0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) :
    Σ' (L4 : List (View.Piece (Elt F) S2048x32 .f32)) (L5 : List (View.Piece (Elt F) S2048x64 .f32)) (LS0 : List (View.Piece (Elt F) S2048x32 .f32)), { LS1 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, ?_, ?_, fun E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H4⟩, ⟨%d7, %f7, -, H5⟩, ⟨%f8, %hf8, HS0⟩, ⟨%f9, %hf9, HS1⟩, Hk⟩
    obtain rfl := harg2.eq_unread hf0; obtain rfl := harg3.eq_unread hf1; obtain rfl := harg4.eq_unread hf2; obtain rfl := harg5.eq_unread hf3
    obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Hand

end
-- ==== Proof.KDat0.lean ====
/-
  The first call's proof data and body obligation. The two accumulators after each grid point are defined by
  recursion on the point: at k = 0 what the zeroing case leaves, otherwise what the adding case leaves over what the
  point before left. At k = 7 the output blocks hold what the closing case stores, a function of the accumulators
  the point before left and of this point's input blocks; at every other point the output windows are idle, their
  buffers handed back untouched and not written back. The region invariant carries the two accumulators at the
  recursion's value between points (at anything before the first point).
-/
import proofs.«121435_j89764816486779_1_alg».proof.Proof.KRun0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks at their literal types -/

abbrev fblk (c : Dev nD) (t : Fin cfg0.N) : Vec F S2048x1024 .f32 := iblk0 V c 0 t
abbrev xblk (c : Dev nD) (t : Fin cfg0.N) : Vec F S1024x64 .f32 := iblk0 V c 1 t
abbrev wpblk (c : Dev nD) (t : Fin cfg0.N) : Vec F S64x32 .f32 := iblk0 V c 2 t
abbrev weblk (c : Dev nD) (t : Fin cfg0.N) : Vec F S64x64 .f32 := iblk0 V c 3 t

/-! ## What each case leaves, read back from its stores -/

theorem scover0_A_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : cond0_0 i) (hc1 : ¬cond0_1 i)
    (x0 : Vec F S2048x1024 .f32) (x1 : Vec F S1024x64 .f32) (x2 : Vec F S64x32 .f32) (x3 : Vec F S64x64 .f32) (y : S2048x32.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S2048x32.size (by sl_kernel_rfl) y

theorem scover0_A_1 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : cond0_0 i) (hc1 : ¬cond0_1 i)
    (x0 : Vec F S2048x1024 .f32) (x1 : Vec F S1024x64 .f32) (x2 : Vec F S64x32 .f32) (x3 : Vec F S64x64 .f32) (y : S2048x64.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S2048x64.size (by sl_kernel_rfl) y

/-- What case A leaves in the first accumulator: its stores read back. -/
def sout0_A_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : cond0_0 i) (hc1 : ¬cond0_1 i)
    (x0 : Vec F S2048x1024 .f32) (x1 : Vec F S1024x64 .f32) (x2 : Vec F S64x32 .f32) (x3 : Vec F S64x64 .f32) : Vec F S2048x32 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).1)

/-- What case A leaves in the second accumulator. -/
def sout0_A_1 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : cond0_0 i) (hc1 : ¬cond0_1 i)
    (x0 : Vec F S2048x1024 .f32) (x1 : Vec F S1024x64 .f32) (x2 : Vec F S64x32 .f32) (x3 : Vec F S64x64 .f32) : Vec F S2048x64 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.1)

theorem scover0_B_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : ¬cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) (y : S2048x32.Idx) :
    ∃ pc ∈ (kernelRun0_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).1 S2048x32.size (by sl_kernel_rfl) y

theorem scover0_B_1 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : ¬cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) (y : S2048x64.Idx) :
    ∃ pc ∈ (kernelRun0_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.1 S2048x64.size (by sl_kernel_rfl) y

/-- What case B leaves in the first accumulator: its stores read back. -/
def sout0_B_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : ¬cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) : Vec F S2048x32 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1).1)

/-- What case B leaves in the second accumulator. -/
def sout0_B_1 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : ¬cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) : Vec F S2048x64 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1).2.1)

theorem scover0_C_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) (y : S2048x32.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S2048x32.size (by sl_kernel_rfl) y

theorem scover0_C_1 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) (y : S2048x64.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S2048x64.size (by sl_kernel_rfl) y

/-- What case C leaves in the first accumulator: its stores read back. -/
def sout0_C_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) : Vec F S2048x32 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1).2.2.1)

/-- What case C leaves in the second accumulator. -/
def sout0_C_1 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) : Vec F S2048x64 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1).2.2.2.1)

theorem cover0_C_4 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) (y : S2048x32.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S2048x32.size (by sl_kernel_rfl) y

theorem cover0_C_5 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) (y : S2048x64.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S2048x64.size (by sl_kernel_rfl) y

/-- What the closing case leaves in the assignment block. -/
def out0_C_4 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) : Vec F S2048x32 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1).1)

/-- What the closing case leaves in the embedding block. -/
def out0_C_5 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) : Vec F S2048x64 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 xs0 xs1).2.1)

/-! ## The accumulators after each point -/

/-- The accumulators after a point with k = 0. -/
def scA (c : Dev nD) (t : Fin cfg0.N) (h0 : t.val % 8 = 0) (h1 : ¬t.val % 8 = 7) : Vec F S2048x32 .f32 × Vec F S2048x64 .f32 :=
  (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (fblk V c t) (xblk V c t) (wpblk V c t) (weblk V c t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (fblk V c t) (xblk V c t) (wpblk V c t) (weblk V c t))

/-- The accumulators after a point with 0 < k < 7, over what the point before left (`p`). -/
def scB (c : Dev nD) (t : Fin cfg0.N) (h0 : ¬t.val % 8 = 0) (h1 : ¬t.val % 8 = 7) (p : Vec F S2048x32 .f32 × Vec F S2048x64 .f32) :
    Vec F S2048x32 .f32 × Vec F S2048x64 .f32 :=
  (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (fblk V c t) (xblk V c t) (wpblk V c t) (weblk V c t) p.1 p.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (fblk V c t) (xblk V c t) (wpblk V c t) (weblk V c t) p.1 p.2)

/-- The accumulators after a point with k = 7, over what the point before left. -/
def scC (c : Dev nD) (t : Fin cfg0.N) (h0 : ¬t.val % 8 = 0) (h1 : t.val % 8 = 7) (p : Vec F S2048x32 .f32 × Vec F S2048x64 .f32) :
    Vec F S2048x32 .f32 × Vec F S2048x64 .f32 :=
  (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fblk V c t) (xblk V c t) (wpblk V c t) (weblk V c t) p.1 p.2,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fblk V c t) (xblk V c t) (wpblk V c t) (weblk V c t) p.1 p.2)

/-- The two output blocks after a point with k = 7. -/
def outC (c : Dev nD) (t : Fin cfg0.N) (h0 : ¬t.val % 8 = 0) (h1 : t.val % 8 = 7) (p : Vec F S2048x32 .f32 × Vec F S2048x64 .f32) :
    Vec F S2048x32 .f32 × Vec F S2048x64 .f32 :=
  (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fblk V c t) (xblk V c t) (wpblk V c t) (weblk V c t) p.1 p.2,
   out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fblk V c t) (xblk V c t) (wpblk V c t) (weblk V c t) p.1 p.2)

/-- THE ACCUMULATION: the two accumulators after the body at position `n`. -/
def scAt0 (c : Dev nD) : (n : ℕ) → n < cfg0.N → Vec F S2048x32 .f32 × Vec F S2048x64 .f32
  | 0, hn => scA V c ⟨0, hn⟩ (Nat.zero_mod _) (by show ¬ (0 % 8 = 7); decide)
  | n + 1, hn =>
    if h0 : (n + 1) % 8 = 0 then scA V c ⟨n + 1, hn⟩ h0 (by show ¬ (n + 1) % 8 = 7; omega)
    else if h1 : (n + 1) % 8 = 7 then scC V c ⟨n + 1, hn⟩ h0 h1 (scAt0 c n (Nat.lt_of_succ_lt hn))
    else scB V c ⟨n + 1, hn⟩ h0 h1 (scAt0 c n (Nat.lt_of_succ_lt hn))

theorem scAt0_A (c : Dev nD) (t : Fin cfg0.N) (h0 : t.val % 8 = 0) (h1 : ¬t.val % 8 = 7) :
    scAt0 V c t.val t.isLt = scA V c t h0 h1 := by
  obtain ⟨n, hn⟩ := t
  cases n with
  | zero => rfl
  | succ n => exact (dif_pos h0).trans rfl

theorem scAt0_B (c : Dev nD) (t : Fin cfg0.N) (h0 : ¬t.val % 8 = 0) (h1 : ¬t.val % 8 = 7) :
    scAt0 V c t.val t.isLt = scB V c t h0 h1 (scAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem scAt0_C (c : Dev nD) (t : Fin cfg0.N) (h0 : ¬t.val % 8 = 0) (h1 : t.val % 8 = 7) :
    scAt0 V c t.val t.isLt = scC V c t h0 h1 (scAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output blocks after point `t`: at k = 7 what the closing case stores; elsewhere a placeholder nothing reads
    (the windows are idle there and not written back). -/
def outAt0 (c : Dev nD) (t : Fin cfg0.N) : Vec F S2048x32 .f32 × Vec F S2048x64 .f32 :=
  if h1 : t.val % 8 = 7 then
    outC V c t (by omega) h1 (scAt0 V c (t.val - 1) (Nat.lt_of_le_of_lt (Nat.sub_le _ _) t.isLt))
  else (VO0_4.read (Elt F) VO0_4.junk, VO0_5.read (Elt F) VO0_5.junk)

theorem outAt0_C (c : Dev nD) (t : Fin cfg0.N) (h0 : ¬t.val % 8 = 0) (h1 : t.val % 8 = 7) :
    outAt0 V c t = outC V c t h0 h1 (scAt0 V c (t.val - 1) (Nat.lt_of_le_of_lt (Nat.sub_le _ _) t.isLt)) := by
  unfold outAt0; rw [dif_pos h1]

/-! ## The region invariant -/

/-- The scoped buffers of the core that are neither a staging buffer of the first call nor one of its accumulators,
    each whole at some contents. -/
abbrev restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem PhiA0_eq' (c : Dev nD) :
    (Pipeline.ΦA spec0 c : sProp 𝕄)
      = iprop(iprop((∃ d, owns (c : Thread nD τ) scM0_0 fullShare d) ∗ (∃ d, owns (c : Thread nD τ) scM0_1 fullShare d) ∗ restS c) ∗ (∃ r, prngReg c r)) :=
  PhiA0_eq c

/-- The region invariant before position `n`: before the first point the class's (every scratch at anything);
    afterwards the two accumulators at what the point before left, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((scAt0 V c n hn).1) ∗ owns (c : Thread nD τ) scM0_1 fullShare ((scAt0 V c n hn).2) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((scAt0 V c n hn).1) ∗ owns (c : Thread nD τ) scM0_1 fullShare ((scAt0 V c n hn).2) ∗ restS c) ∗ (∃ r, prngReg c r)) := rfl

theorem PhiS_pos (c : Dev nD) (n : ℕ) (h : n ≤ cfg0.N) (hz : n ≠ 0) :
    PhiS V c n h = iprop(iprop(owns (c : Thread nD τ) scM0_0 fullShare ((scAt0 V c (n - 1) (by omega)).1) ∗ owns (c : Thread nD τ) scM0_1 fullShare ((scAt0 V c (n - 1) (by omega)).2) ∗ restS c) ∗ (∃ r, prngReg c r)) := by
  cases n with
  | zero => exact absurd rfl hz
  | succ n => rfl

/-! ## The proof data -/

/-- The first call's proof data on core `c`: the arrays as the call finds them; after the body at point `t` each
    input's buffer at its block and the outputs' at `outAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outAt0 V c t).1
    | ⟨5, _⟩ => (outAt0 V c t).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outAt0 V c t).1 := by dsimp only [dat0]
theorem after0_5 (c : Dev nD) (t : Fin cfg0.N) : (dat0 V c).after 5 t = (outAt0 V c t).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point. The inputs' buffers hold their blocks; the point's residue mod 8 says which case it is
    in; the invariant hands the body the accumulators at what the point before left (at anything at the first
    point) and takes them back at this point's value; at k = 7 the output buffers come back at the closing case's
    stores, elsewhere untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h1 : t.val % 8 = 7
  · have h0 : ¬t.val % 8 = 0 := by omega
    have hz : t.val ≠ 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    rw [show (dat0 V c).leavesExact 5 t = owns (c : Thread nD τ) (ms0_5 t) fullShare ((dat0 V c).after 5 t) from by
      unfold Dat.leavesExact; rw [liveAt0_5 t ((hcond0_1 t).mpr h1)], after0_5]
    rw [scAt0_C V c t h0 h1, outAt0_C V c t h0 h1]
    unfold scC outC sout0_C_0 sout0_C_1 out0_C_4 out0_C_5; (try dsimp only)
    rw [PhiS_castSucc V c t, PhiS_pos V c _ _ hz]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ _ _ (fun h => h0 ((hcond0_0 t).mp h)) ((hcond0_1 t).mpr h1) (fblk V c t) (xblk V c t) (wpblk V c t) (weblk V c t) _ _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_C_4 c _ _ _ _ _ _ _ _ _ _ _ _ _ _ _ _ _ _ _ _ _ _ _ _ _)
    unfold owns; iexists _; isplitr
    swap; · iexact H5
    ipureintro; exact View.read_writes_of_cover _ _ _ _ _ (cover0_C_5 c _ _ _ _ _ _ _ _ _ _ _ _ _ _ _ _ _ _ _ _ _ _ _ _ _)
  · rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    by_cases h0 : t.val % 8 = 0
    · rw [scAt0_A V c t h0 h1]
      unfold scA sout0_A_0 sout0_A_1; (try dsimp only)
      by_cases hz : t.val = 0
      · rw [PhiS_castSucc V c t, PhiS_zero V c _ _ hz, PhiA0_eq']
        iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (fblk V c t) (xblk V c t) (wpblk V c t) (weblk V c t)).2.2 Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc V c t, PhiS_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (fblk V c t) (xblk V c t) (wpblk V c t) (weblk V c t)).2.2 Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
    · have hz : t.val ≠ 0 := fun e => h0 (by rw [e])
      rw [scAt0_B V c t h0 h1]
      unfold scB sout0_B_0 sout0_B_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h1 ((hcond0_1 t).mp h)) (fblk V c t) (xblk V c t) (wpblk V c t) (weblk V c t) _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call (the class invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl,
    PhiS_pos V c _ _ hne, PhiA0_eq']
  iintro ⟨⟨HS0, HS1, Hr⟩, Hg⟩
  isplitl [HS0 HS1 Hr]
  · isplitl [HS0]; · iexists _; iexact HS0
    isplitl [HS1]; · iexists _; iexact HS1
    iexact Hr
  iexact Hg

end Cert.Kernel.Hand

end
-- ==== Proof.KReg1.lean ====
/-
  The second call, one grid point per graph g: from the graph's 256 rows of S and Z and its diagonal 256 × 256
  block of the propagation matrix, the body stores S_gᵀ Z_g into the coarse-feature block and S_gᵀ (A_g S_g) into the
  coarse-adjacency block. The body has no branch and keeps nothing between points: each output block after the
  body is one store, a function of the point's three input blocks.
-/
import proofs.«121435_j89764816486779_1_alg».proof.Proof.KKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses: every load and store is of a whole block -/

abbrev r1_s : Rect S256x32 := Rect.unit (s := S256x32) ![0, 0] S256x32.size inb_S256x32_S256x32_0_0
abbrev r1_z : Rect S256x64 := Rect.unit (s := S256x64) ![0, 0] S256x64.size inb_S256x64_S256x64_0_0
abbrev r1_a : Rect S256x256 := Rect.unit (s := S256x256) ![0, 0] S256x256.size inb_S256x256_S256x256_0_0
abbrev r1_cx : Rect S32x64 := Rect.unit (s := S32x64) ![0, 0] S32x64.size inb_S32x64_S32x64_0_0
abbrev r1_blk : Rect S1x32x32 := Rect.unit (s := S1x32x32) ![0, 0, 0] S1x32x32.size inb_S1x32x32_S1x32x32_0_0_0

/-! ## What the body leaves in each output block -/

/-- The coarse-feature block after the body: its one store, of the S and Z blocks. -/
def out1_3 (x0 : Vec F S256x32 .f32) (x1 : Vec F S256x64 .f32) : Vec F S32x64 .f32 :=
  View.canon [⟨r1_cx, k1_pay2 (View.ld x0 r1_s) (View.ld x1 r1_z)⟩]

/-- The coarse-adjacency block after the body: its one store, of the S block and the diagonal block. -/
def out1_4 (x0 : Vec F S256x32 .f32) (x2 : Vec F S256x256 .f32) : Vec F S1x32x32 .f32 :=
  View.canon [⟨r1_blk, k1_pay3 (View.ld x0 r1_s) (View.ld x2 r1_a)⟩]

theorem cover1_3 (p0 : Vec F S32x64 .f32) (y : S32x64.Idx) :
    ∃ pc ∈ ([⟨r1_cx, p0⟩] : List (View.Piece (Elt F) S32x64 .f32)), y ∈ pc.1.set :=
  View.cover_of_tiled [⟨r1_cx, p0⟩] S32x64.size (by rfl) y

theorem cover1_4 (p0 : Vec F S1x32x32 .f32) (y : S1x32x32.Idx) :
    ∃ pc ∈ ([⟨r1_blk, p0⟩] : List (View.Piece (Elt F) S1x32x32 .f32)), y ∈ pc.1.set :=
  View.cover_of_tiled [⟨r1_blk, p0⟩] S1x32x32.size (by rfl) y

/-! ## The body's triple -/

set_option maxHeartbeats 2000000 in
/-- On whole staging buffers, the three inputs at their contents and the two outputs at anything, the body runs to
    the inputs as they were and each output at its store. -/
theorem sound_kernel1 (c : Dev nD) (E : Set ℕ) (i : grid1.Coords) (arg1 : Memref sig .tc .vmem S256x32 .f32) (harg1 : arg1.IsWhole) (arg2 : Memref sig .tc .vmem S256x64 .f32) (harg2 : arg2.IsWhole) (arg3 : Memref sig .tc .vmem S256x256 .f32) (harg3 : arg3.IsWhole) (arg4 : Memref sig .tc .vmem S32x64 .f32) (harg4 : arg4.IsWhole) (arg5 : Memref sig .tc .vmem S1x32x32 .f32) (harg5 : arg5.IsWhole)
    (x0 : Vec F S256x32 .f32) (x1 : Vec F S256x64 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x2)) -∗ K ⟨⟩))
      ⊢ wp frame (wpE (defs₀ (F := F)) Variants.none c none) E (cc1__coarsen_kernel i arg1 harg1 arg2 harg2 arg3 harg3 arg4 harg4 arg5 harg5) K := by
  simp only [cc1__coarsen_kernel_eq_skeleton]; unfold cc1__coarsen_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The proof data -/

/-- The second call's proof data on core `c`: the arrays as the call finds them; after the body at point `t` each
    input's buffer at its block and each output's at its store of the input blocks; nothing kept between points,
    nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KMain.lean ====
/-
  The whole run. @main is the first call, the second call, then a stretch of host operations (the block-diagonal
  scatter and the coarse node indicator). Between two of these items a core's unscoped buffers are held at named
  contents: at launch the memory; after a call, the same with the call's arrays at what its write-backs leave;
  after the host stretch, those operations applied. The run ends with every unscoped buffer at the last of these,
  from which both the frame claim (the arguments are never written) and the results are read.
-/
import proofs.«121435_j89764816486779_1_alg».proof.Proof.KDat0
import proofs.«121435_j89764816486779_1_alg».proof.Proof.KReg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references (what the first call's proof data take). -/
abbrev V0 : (c : Dev nD) → (b : Ref sig .tc) → Buf (Elt F) ((c : Thread nD τ).loc b) := fun c b => W0 m ρ c b
/-- After the first call: its arrays at what its write-backs leave, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second call. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host stretch. -/
abbrev W3 : Dev nD → Valuation τ sig (Elt F) := fun c => StableHlo.after hostOps2 (W2 m ρ c)

/-! ## The proof data family and the thread state -/

abbrev adm : (p : Fin 2) → (pcfgs (F := F) p).Adm := fun p => (cfgs p).toPCfg_adm
/-- Both calls' proof data, each at the contents its call is entered with. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor

/-- The host stretch as a segment over the unscoped references, from the contents after the second call. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m ρ) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the final contents, the generator register at
    some state. -/
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- Call 0 as a segment: entered with every unscoped buffer at `W0`, left with them at `W1`. Its arrays are
    split out of the unscoped buffers and put back at their final contents; the generator register goes into the
    region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W1`, left with them at `W2`. Its arrays are
    split out of the unscoped buffers and put back at their final contents; the generator register goes into the
    region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .host (hseg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and in every final state each unscoped buffer holds the final contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.KFrame.lean ====
/-
  The frame claim from the run: each argument array's buffer, read at the end, holds its launch contents — the host
  stretch writes none of them, and a call only reads them (through input windows) or passes them by.
-/
import proofs.«121435_j89764816486779_1_alg».proof.Proof.KMain
import proofs.«121435_j89764816486779_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer the host stretch does not write holds after it what it held before. -/
theorem W3_of (c : Dev nD) (r : Ref sig .tc) (h : r ∉ hostOps2_W) :
    W3 m ρ c (Proc.devRef .tc r) = W2 m ρ c (Proc.devRef .tc r) :=
  StableHlo.after_of_writes_sub hostOps2 _ hostOps2_writes h

/-- `main_arg0` ends as launched: no host operation writes it and no call writes an input. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of m ρ c main_arg0 (by decide)
    _ = W1 m ρ c (Proc.devRef .tc main_arg0) := (W2_arr m ρ c 2).trans (((dat1 (V1 m ρ) c).arrAt_in 2 rfl _).trans (A_eq1 (V1 m ρ) c 2))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- `main_arg1` ends as launched: no host operation writes it and no call writes an input. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
/-- `main_arg2` ends as launched: no host operation writes it and no call writes an input. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
/-- `main_arg3` ends as launched: no host operation writes it and no call writes an input. -/
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl
/-- `main_arg4` ends as launched: no host operation writes it and no call writes an input. -/
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- THE FRAME: every weakly fair execution of @main terminates, nothing faulting, and every argument array ends
    holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_arg0 m ρ c),
     (h c _ (mem_uc main_arg1 (by decide))).trans (W3_arg1 m ρ c),
     (h c _ (mem_uc main_arg2 (by decide))).trans (W3_arg2 m ρ c),
     (h c _ (mem_uc main_arg3 (by decide))).trans (W3_arg3 m ρ c),
     (h c _ (mem_uc main_arg4 (by decide))).trans (W3_arg4 m ρ c)⟩) (run_all m ρ)

end Cert.Kernel.Hand

end
-- ==== Proof.KIKit.lean ====
/-
  What the two pallas_calls' frame proofs share. The first call runs on a 4 × 8 grid (row tile i, column tile k):
  at k = 0 it zeroes two accumulators kept in scratch memory, at every k it adds one tile product to each, and at
  k = 7 it stores softmax(relu(·)) of the one and relu(·) of the other into its two output blocks; elsewhere the
  output windows are idle. Here: each window's block at a grid point read off the array as the call finds it; the
  two branch conditions as functions of the grid point, decided over the 32 points (k = 0 is "t mod 8 = 0", k = 7 is
  "t mod 8 = 7"); at which points the output windows are idle and not written back; the staging and scratch buffers
  by name; and the class invariant spelled with the two scratch buffers owned at some contents.
  The second call runs on a grid of 32 points, one per graph, and has no branch and no scratch.
-/
import proofs.«121435_j89764816486779_1_alg».proof.Proof.Gen.KernelIdeal.Launch
import proofs.«121435_j89764816486779_1_alg».proof.Proof.Gen.KernelIdeal.Skeleton
import proofs.«121435_j89764816486779_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

-- the TensorCore's buffer contents when a call is entered
variable (V : (c : Dev nD) → (b : Ref sig .tc) → Buf (Elt F) ((c : Thread nD τ).loc b))

/-! ## The first call's blocks -/

/-- Window `w`'s block at point `t`, read off its array as the first call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or not (an unfetched
    window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The second call's blocks -/

/-- Window `w`'s block at point `t`, read off its array as the second call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The first call's branch conditions -/

/-- "k = 0", as the body computes it from the grid point. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "k = 7". -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the first call's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from k = 7 the output windows are idle and their blocks are not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At k = 7 they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The staging and scratch buffers by name -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x64 .f32 := win0_5.stage (cfg0.slots t 5)
abbrev hs0_5 (t : Fin cfg0.N) : (ms0_5 t).IsWhole := hstage0_5 ((cfg0.slots t 5).cast nbuf0_5)
/-- The two accumulators: whole scoped buffers of the first call's own. -/
abbrev scM0_0 : Memref sig .tc .vmem S2048x32 .f32 := Memref.whole cc0_scratch0
abbrev scM0_1 : Memref sig .tc .vmem S2048x64 .f32 := Memref.whole cc0_scratch1
/-- Views through which buffer contents are stated (the choice of buffer does not matter). -/
abbrev VS0_0 : View sig .tc .vmem S2048x32 .f32 := scM0_0.view
abbrev VS0_1 : View sig .tc .vmem S2048x64 .f32 := scM0_1.view
abbrev VO0_4 : View sig .tc .vmem S2048x32 .f32 := (Memref.whole cc0_stg4_0 : Memref sig .tc .vmem S2048x32 .f32).view
abbrev VO0_5 : View sig .tc .vmem S2048x64 .f32 := (Memref.whole cc0_stg5_0 : Memref sig .tc .vmem S2048x64 .f32).view

abbrev ms1_0 (t : Fin cfg1.N) : Memref sig .tc .vmem S256x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32x32 .f32 := win1_4.stage (cfg1.slots t 4)
abbrev hs1_4 (t : Fin cfg1.N) : (ms1_4 t).IsWhole := hstage1_4 ((cfg1.slots t 4).cast nbuf1_4)

/-- The class invariant of the first call with its two scratch buffers named: each owned at some contents, the
    other scoped buffers at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f)) ∗ (∃ r, prngReg c r)) := by
  unfold Pipeline.ΦA; rw [scopedRest0_eq]; simp only [scM0_0, scM0_1, owns_whole]; try rfl

end Cert.KernelIdeal.Hand

end
-- ==== Proof.KIRun0.lean ====
/-
  The first call's body run whole, once per control case: k = 0 (the accumulators are zeroed, then a tile product
  is added to each), 0 < k < 7 (a tile product is added to each), k = 7 (a tile product is added to each, then
  softmax(relu(·)) and relu(·) of the accumulators are stored into the two output blocks). Each run is stated over
  whole staging buffers — the four inputs at their contents, an accumulator at what the point before left or at
  anything — and ends with the inputs as they were and each written buffer holding its stores as a list of pieces;
  the lists are found by the run, not written.
-/
import proofs.«121435_j89764816486779_1_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- k = 0: both accumulators, found at anything, end with two stores each (the zero fill, then the sum). -/
noncomputable def kernelRun0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : cond0_0 i) (hc1 : ¬cond0_1 i)
    (x0 : Vec F S2048x1024 .f32) (x1 : Vec F S1024x64 .f32) (x2 : Vec F S64x32 .f32) (x3 : Vec F S64x64 .f32) :
    Σ' (LS0 : List (View.Piece (Elt F) S2048x32 .f32)), { LS1 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, fun E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d8, %f8, -, HS0⟩, ⟨%d9, %f9, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- 0 < k < 7: both accumulators, found at what the point before left, end with one store each (the sum). -/
noncomputable def kernelRun0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : ¬cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) :
    Σ' (LS0 : List (View.Piece (Elt F) S2048x32 .f32)), { LS1 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, fun E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f8, %hf8, HS0⟩, ⟨%f9, %hf9, HS1⟩, Hk⟩
    obtain rfl := harg2.eq_unread hf0; obtain rfl := harg3.eq_unread hf1; obtain rfl := harg4.eq_unread hf2; obtain rfl := harg5.eq_unread hf3
    obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- k = 7: the accumulators as in the middle case, and each output block, found at anything, ends with one store. -/
noncomputable def kernelRun0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) :
    Σ' (L4 : List (View.Piece (Elt F) S2048x32 .f32)) (L5 : List (View.Piece (Elt F) S2048x64 .f32)) (LS0 : List (View.Piece (Elt F) S2048x32 .f32)), { LS1 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, ?_, ?_, fun E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H4⟩, ⟨%d7, %f7, -, H5⟩, ⟨%f8, %hf8, HS0⟩, ⟨%f9, %hf9, HS1⟩, Hk⟩
    obtain rfl := harg2.eq_unread hf0; obtain rfl := harg3.eq_unread hf1; obtain rfl := harg4.eq_unread hf2; obtain rfl := harg5.eq_unread hf3
    obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Hand

end
-- ==== Proof.KIDat0.lean ====
/-
  The first call's proof data and body obligation. The two accumulators after each grid point are defined by
  recursion on the point: at k = 0 what the zeroing case leaves, otherwise what the adding case leaves over what the
  point before left. At k = 7 the output blocks hold what the closing case stores, a function of the accumulators
  the point before left and of this point's input blocks; at every other point the output windows are idle, their
  buffers handed back untouched and not written back. The region invariant carries the two accumulators at the
  recursion's value between points (at anything before the first point).
-/
import proofs.«121435_j89764816486779_1_alg».proof.Proof.KIRun0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks at their literal types -/

abbrev fblk (c : Dev nD) (t : Fin cfg0.N) : Vec F S2048x1024 .f32 := iblk0 V c 0 t
abbrev xblk (c : Dev nD) (t : Fin cfg0.N) : Vec F S1024x64 .f32 := iblk0 V c 1 t
abbrev wpblk (c : Dev nD) (t : Fin cfg0.N) : Vec F S64x32 .f32 := iblk0 V c 2 t
abbrev weblk (c : Dev nD) (t : Fin cfg0.N) : Vec F S64x64 .f32 := iblk0 V c 3 t

/-! ## What each case leaves, read back from its stores -/

theorem scover0_A_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : cond0_0 i) (hc1 : ¬cond0_1 i)
    (x0 : Vec F S2048x1024 .f32) (x1 : Vec F S1024x64 .f32) (x2 : Vec F S64x32 .f32) (x3 : Vec F S64x64 .f32) (y : S2048x32.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S2048x32.size (by sl_kernel_rfl) y

theorem scover0_A_1 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : cond0_0 i) (hc1 : ¬cond0_1 i)
    (x0 : Vec F S2048x1024 .f32) (x1 : Vec F S1024x64 .f32) (x2 : Vec F S64x32 .f32) (x3 : Vec F S64x64 .f32) (y : S2048x64.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S2048x64.size (by sl_kernel_rfl) y

/-- What case A leaves in the first accumulator: its stores read back. -/
def sout0_A_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : cond0_0 i) (hc1 : ¬cond0_1 i)
    (x0 : Vec F S2048x1024 .f32) (x1 : Vec F S1024x64 .f32) (x2 : Vec F S64x32 .f32) (x3 : Vec F S64x64 .f32) : Vec F S2048x32 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).1)

/-- What case A leaves in the second accumulator. -/
def sout0_A_1 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : cond0_0 i) (hc1 : ¬cond0_1 i)
    (x0 : Vec F S2048x1024 .f32) (x1 : Vec F S1024x64 .f32) (x2 : Vec F S64x32 .f32) (x3 : Vec F S64x64 .f32) : Vec F S2048x64 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.1)

theorem scover0_B_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : ¬cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) (y : S2048x32.Idx) :
    ∃ pc ∈ (kernelRun0_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).1 S2048x32.size (by sl_kernel_rfl) y

theorem scover0_B_1 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : ¬cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) (y : S2048x64.Idx) :
    ∃ pc ∈ (kernelRun0_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.1 S2048x64.size (by sl_kernel_rfl) y

/-- What case B leaves in the first accumulator: its stores read back. -/
def sout0_B_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : ¬cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) : Vec F S2048x32 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1).1)

/-- What case B leaves in the second accumulator. -/
def sout0_B_1 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : ¬cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) : Vec F S2048x64 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1).2.1)

theorem scover0_C_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) (y : S2048x32.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S2048x32.size (by sl_kernel_rfl) y

theorem scover0_C_1 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) (y : S2048x64.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S2048x64.size (by sl_kernel_rfl) y

/-- What case C leaves in the first accumulator: its stores read back. -/
def sout0_C_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) : Vec F S2048x32 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1).2.2.1)

/-- What case C leaves in the second accumulator. -/
def sout0_C_1 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) : Vec F S2048x64 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1).2.2.2.1)

theorem cover0_C_4 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) (y : S2048x32.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S2048x32.size (by sl_kernel_rfl) y

theorem cover0_C_5 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) (y : S2048x64.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S2048x64.size (by sl_kernel_rfl) y

/-- What the closing case leaves in the assignment block. -/
def out0_C_4 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) : Vec F S2048x32 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1).1)

/-- What the closing case leaves in the embedding block. -/
def out0_C_5 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i)
    (x0 : Vec F S2048x1024 .f32) (x1 : Vec F S1024x64 .f32) (x2 : Vec F S64x32 .f32) (x3 : Vec F S64x64 .f32) (xs0 : Vec F S2048x32 .f32) (xs1 : Vec F S2048x64 .f32) : Vec F S2048x64 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 xs0 xs1).2.1)

/-! ## The accumulators after each point -/

/-- The accumulators after a point with k = 0. -/
def scA (c : Dev nD) (t : Fin cfg0.N) (h0 : t.val % 8 = 0) (h1 : ¬t.val % 8 = 7) : Vec F S2048x32 .f32 × Vec F S2048x64 .f32 :=
  (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (fblk V c t) (xblk V c t) (wpblk V c t) (weblk V c t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (fblk V c t) (xblk V c t) (wpblk V c t) (weblk V c t))

/-- The accumulators after a point with 0 < k < 7, over what the point before left (`p`). -/
def scB (c : Dev nD) (t : Fin cfg0.N) (h0 : ¬t.val % 8 = 0) (h1 : ¬t.val % 8 = 7) (p : Vec F S2048x32 .f32 × Vec F S2048x64 .f32) :
    Vec F S2048x32 .f32 × Vec F S2048x64 .f32 :=
  (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (fblk V c t) (xblk V c t) (wpblk V c t) (weblk V c t) p.1 p.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (fblk V c t) (xblk V c t) (wpblk V c t) (weblk V c t) p.1 p.2)

/-- The accumulators after a point with k = 7, over what the point before left. -/
def scC (c : Dev nD) (t : Fin cfg0.N) (h0 : ¬t.val % 8 = 0) (h1 : t.val % 8 = 7) (p : Vec F S2048x32 .f32 × Vec F S2048x64 .f32) :
    Vec F S2048x32 .f32 × Vec F S2048x64 .f32 :=
  (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fblk V c t) (xblk V c t) (wpblk V c t) (weblk V c t) p.1 p.2,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fblk V c t) (xblk V c t) (wpblk V c t) (weblk V c t) p.1 p.2)

/-- The two output blocks after a point with k = 7. -/
def outC (c : Dev nD) (t : Fin cfg0.N) (h0 : ¬t.val % 8 = 0) (h1 : t.val % 8 = 7) (p : Vec F S2048x32 .f32 × Vec F S2048x64 .f32) :
    Vec F S2048x32 .f32 × Vec F S2048x64 .f32 :=
  (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fblk V c t) (xblk V c t) (wpblk V c t) (weblk V c t) p.1 p.2,
   out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fblk V c t) (xblk V c t) (wpblk V c t) (weblk V c t) p.1 p.2)

/-- THE ACCUMULATION: the two accumulators after the body at position `n`. -/
def scAt0 (c : Dev nD) : (n : ℕ) → n < cfg0.N → Vec F S2048x32 .f32 × Vec F S2048x64 .f32
  | 0, hn => scA V c ⟨0, hn⟩ (Nat.zero_mod _) (by show ¬ (0 % 8 = 7); decide)
  | n + 1, hn =>
    if h0 : (n + 1) % 8 = 0 then scA V c ⟨n + 1, hn⟩ h0 (by show ¬ (n + 1) % 8 = 7; omega)
    else if h1 : (n + 1) % 8 = 7 then scC V c ⟨n + 1, hn⟩ h0 h1 (scAt0 c n (Nat.lt_of_succ_lt hn))
    else scB V c ⟨n + 1, hn⟩ h0 h1 (scAt0 c n (Nat.lt_of_succ_lt hn))

theorem scAt0_A (c : Dev nD) (t : Fin cfg0.N) (h0 : t.val % 8 = 0) (h1 : ¬t.val % 8 = 7) :
    scAt0 V c t.val t.isLt = scA V c t h0 h1 := by
  obtain ⟨n, hn⟩ := t
  cases n with
  | zero => rfl
  | succ n => exact (dif_pos h0).trans rfl

theorem scAt0_B (c : Dev nD) (t : Fin cfg0.N) (h0 : ¬t.val % 8 = 0) (h1 : ¬t.val % 8 = 7) :
    scAt0 V c t.val t.isLt = scB V c t h0 h1 (scAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem scAt0_C (c : Dev nD) (t : Fin cfg0.N) (h0 : ¬t.val % 8 = 0) (h1 : t.val % 8 = 7) :
    scAt0 V c t.val t.isLt = scC V c t h0 h1 (scAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output blocks after point `t`: at k = 7 what the closing case stores; elsewhere a placeholder nothing reads
    (the windows are idle there and not written back). -/
def outAt0 (c : Dev nD) (t : Fin cfg0.N) : Vec F S2048x32 .f32 × Vec F S2048x64 .f32 :=
  if h1 : t.val % 8 = 7 then
    outC V c t (by omega) h1 (scAt0 V c (t.val - 1) (Nat.lt_of_le_of_lt (Nat.sub_le _ _) t.isLt))
  else (VO0_4.read (Elt F) VO0_4.junk, VO0_5.read (Elt F) VO0_5.junk)

theorem outAt0_C (c : Dev nD) (t : Fin cfg0.N) (h0 : ¬t.val % 8 = 0) (h1 : t.val % 8 = 7) :
    outAt0 V c t = outC V c t h0 h1 (scAt0 V c (t.val - 1) (Nat.lt_of_le_of_lt (Nat.sub_le _ _) t.isLt)) := by
  unfold outAt0; rw [dif_pos h1]

/-! ## The region invariant -/

/-- The scoped buffers of the core that are neither a staging buffer of the first call nor one of its accumulators,
    each whole at some contents. -/
abbrev restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem PhiA0_eq' (c : Dev nD) :
    (Pipeline.ΦA spec0 c : sProp 𝕄)
      = iprop(iprop((∃ d, owns (c : Thread nD τ) scM0_0 fullShare d) ∗ (∃ d, owns (c : Thread nD τ) scM0_1 fullShare d) ∗ restS c) ∗ (∃ r, prngReg c r)) :=
  PhiA0_eq c

/-- The region invariant before position `n`: before the first point the class's (every scratch at anything);
    afterwards the two accumulators at what the point before left, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((scAt0 V c n hn).1) ∗ owns (c : Thread nD τ) scM0_1 fullShare ((scAt0 V c n hn).2) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((scAt0 V c n hn).1) ∗ owns (c : Thread nD τ) scM0_1 fullShare ((scAt0 V c n hn).2) ∗ restS c) ∗ (∃ r, prngReg c r)) := rfl

theorem PhiS_pos (c : Dev nD) (n : ℕ) (h : n ≤ cfg0.N) (hz : n ≠ 0) :
    PhiS V c n h = iprop(iprop(owns (c : Thread nD τ) scM0_0 fullShare ((scAt0 V c (n - 1) (by omega)).1) ∗ owns (c : Thread nD τ) scM0_1 fullShare ((scAt0 V c (n - 1) (by omega)).2) ∗ restS c) ∗ (∃ r, prngReg c r)) := by
  cases n with
  | zero => exact absurd rfl hz
  | succ n => rfl

/-! ## The proof data -/

/-- The first call's proof data on core `c`: the arrays as the call finds them; after the body at point `t` each
    input's buffer at its block and the outputs' at `outAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outAt0 V c t).1
    | ⟨5, _⟩ => (outAt0 V c t).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outAt0 V c t).1 := by dsimp only [dat0]
theorem after0_5 (c : Dev nD) (t : Fin cfg0.N) : (dat0 V c).after 5 t = (outAt0 V c t).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point. The inputs' buffers hold their blocks; the point's residue mod 8 says which case it is
    in; the invariant hands the body the accumulators at what the point before left (at anything at the first
    point) and takes them back at this point's value; at k = 7 the output buffers come back at the closing case's
    stores, elsewhere untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h1 : t.val % 8 = 7
  · have h0 : ¬t.val % 8 = 0 := by omega
    have hz : t.val ≠ 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    rw [show (dat0 V c).leavesExact 5 t = owns (c : Thread nD τ) (ms0_5 t) fullShare ((dat0 V c).after 5 t) from by
      unfold Dat.leavesExact; rw [liveAt0_5 t ((hcond0_1 t).mpr h1)], after0_5]
    rw [scAt0_C V c t h0 h1, outAt0_C V c t h0 h1]
    unfold scC outC sout0_C_0 sout0_C_1 out0_C_4 out0_C_5; (try dsimp only)
    rw [PhiS_castSucc V c t, PhiS_pos V c _ _ hz]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ _ _ (fun h => h0 ((hcond0_0 t).mp h)) ((hcond0_1 t).mpr h1) (fblk V c t) (xblk V c t) (wpblk V c t) (weblk V c t) _ _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_C_4 c _ _ _ _ _ _ _ _ _ _ _ _ _ _ _ _ _ _ _ _ _ _ _ _ _)
    unfold owns; iexists _; isplitr
    swap; · iexact H5
    ipureintro; exact View.read_writes_of_cover _ _ _ _ _ (cover0_C_5 c _ _ _ _ _ _ _ _ _ _ _ _ _ _ _ _ _ _ _ _ _ _ _ _ _)
  · rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    by_cases h0 : t.val % 8 = 0
    · rw [scAt0_A V c t h0 h1]
      unfold scA sout0_A_0 sout0_A_1; (try dsimp only)
      by_cases hz : t.val = 0
      · rw [PhiS_castSucc V c t, PhiS_zero V c _ _ hz, PhiA0_eq']
        iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (fblk V c t) (xblk V c t) (wpblk V c t) (weblk V c t)).2.2 Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc V c t, PhiS_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (fblk V c t) (xblk V c t) (wpblk V c t) (weblk V c t)).2.2 Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
    · have hz : t.val ≠ 0 := fun e => h0 (by rw [e])
      rw [scAt0_B V c t h0 h1]
      unfold scB sout0_B_0 sout0_B_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h1 ((hcond0_1 t).mp h)) (fblk V c t) (xblk V c t) (wpblk V c t) (weblk V c t) _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call (the class invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl,
    PhiS_pos V c _ _ hne, PhiA0_eq']
  iintro ⟨⟨HS0, HS1, Hr⟩, Hg⟩
  isplitl [HS0 HS1 Hr]
  · isplitl [HS0]; · iexists _; iexact HS0
    isplitl [HS1]; · iexists _; iexact HS1
    iexact Hr
  iexact Hg

end Cert.KernelIdeal.Hand

end
-- ==== Proof.KIReg1.lean ====
/-
  The second call, one grid point per graph g: from the graph's 256 rows of S and Z and its diagonal 256 × 256
  block of the propagation matrix, the body stores S_gᵀ Z_g into the coarse-feature block and S_gᵀ (A_g S_g) into the
  coarse-adjacency block. The body has no branch and keeps nothing between points: each output block after the
  body is one store, a function of the point's three input blocks.
-/
import proofs.«121435_j89764816486779_1_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses: every load and store is of a whole block -/

abbrev r1_s : Rect S256x32 := Rect.unit (s := S256x32) ![0, 0] S256x32.size inb_S256x32_S256x32_0_0
abbrev r1_z : Rect S256x64 := Rect.unit (s := S256x64) ![0, 0] S256x64.size inb_S256x64_S256x64_0_0
abbrev r1_a : Rect S256x256 := Rect.unit (s := S256x256) ![0, 0] S256x256.size inb_S256x256_S256x256_0_0
abbrev r1_cx : Rect S32x64 := Rect.unit (s := S32x64) ![0, 0] S32x64.size inb_S32x64_S32x64_0_0
abbrev r1_blk : Rect S1x32x32 := Rect.unit (s := S1x32x32) ![0, 0, 0] S1x32x32.size inb_S1x32x32_S1x32x32_0_0_0

/-! ## What the body leaves in each output block -/

/-- The coarse-feature block after the body: its one store, of the S and Z blocks. -/
def out1_3 (x0 : Vec F S256x32 .f32) (x1 : Vec F S256x64 .f32) : Vec F S32x64 .f32 :=
  View.canon [⟨r1_cx, k1_pay2 (View.ld x0 r1_s) (View.ld x1 r1_z)⟩]

/-- The coarse-adjacency block after the body: its one store, of the S block and the diagonal block. -/
def out1_4 (x0 : Vec F S256x32 .f32) (x2 : Vec F S256x256 .f32) : Vec F S1x32x32 .f32 :=
  View.canon [⟨r1_blk, k1_pay3 (View.ld x0 r1_s) (View.ld x2 r1_a)⟩]

theorem cover1_3 (p0 : Vec F S32x64 .f32) (y : S32x64.Idx) :
    ∃ pc ∈ ([⟨r1_cx, p0⟩] : List (View.Piece (Elt F) S32x64 .f32)), y ∈ pc.1.set :=
  View.cover_of_tiled [⟨r1_cx, p0⟩] S32x64.size (by rfl) y

theorem cover1_4 (p0 : Vec F S1x32x32 .f32) (y : S1x32x32.Idx) :
    ∃ pc ∈ ([⟨r1_blk, p0⟩] : List (View.Piece (Elt F) S1x32x32 .f32)), y ∈ pc.1.set :=
  View.cover_of_tiled [⟨r1_blk, p0⟩] S1x32x32.size (by rfl) y

/-! ## The body's triple -/

set_option maxHeartbeats 2000000 in
/-- On whole staging buffers, the three inputs at their contents and the two outputs at anything, the body runs to
    the inputs as they were and each output at its store. -/
theorem sound_kernel1 (c : Dev nD) (E : Set ℕ) (i : grid1.Coords) (arg1 : Memref sig .tc .vmem S256x32 .f32) (harg1 : arg1.IsWhole) (arg2 : Memref sig .tc .vmem S256x64 .f32) (harg2 : arg2.IsWhole) (arg3 : Memref sig .tc .vmem S256x256 .f32) (harg3 : arg3.IsWhole) (arg4 : Memref sig .tc .vmem S32x64 .f32) (harg4 : arg4.IsWhole) (arg5 : Memref sig .tc .vmem S1x32x32 .f32) (harg5 : arg5.IsWhole)
    (x0 : Vec F S256x32 .f32) (x1 : Vec F S256x64 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x2)) -∗ K ⟨⟩))
      ⊢ wp frame (wpE (defs₀ (F := F)) Variants.none c none) E (cc1__coarsen_kernel i arg1 harg1 arg2 harg2 arg3 harg3 arg4 harg4 arg5 harg5) K := by
  simp only [cc1__coarsen_kernel_eq_skeleton]; unfold cc1__coarsen_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The proof data -/

/-- The second call's proof data on core `c`: the arrays as the call finds them; after the body at point `t` each
    input's buffer at its block and each output's at its store of the input blocks; nothing kept between points,
    nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIMain.lean ====
/-
  The whole run. @main is the first call, the second call, then a stretch of host operations (the block-diagonal
  scatter and the coarse node indicator). Between two of these items a core's unscoped buffers are held at named
  contents: at launch the memory; after a call, the same with the call's arrays at what its write-backs leave;
  after the host stretch, those operations applied. The run ends with every unscoped buffer at the last of these,
  from which both the frame claim (the arguments are never written) and the results are read.
-/
import proofs.«121435_j89764816486779_1_alg».proof.Proof.KIDat0
import proofs.«121435_j89764816486779_1_alg».proof.Proof.KIReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references (what the first call's proof data take). -/
abbrev V0 : (c : Dev nD) → (b : Ref sig .tc) → Buf (Elt F) ((c : Thread nD τ).loc b) := fun c b => W0 m ρ c b
/-- After the first call: its arrays at what its write-backs leave, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second call. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host stretch. -/
abbrev W3 : Dev nD → Valuation τ sig (Elt F) := fun c => StableHlo.after hostOps2 (W2 m ρ c)

/-! ## The proof data family and the thread state -/

abbrev adm : (p : Fin 2) → (pcfgs (F := F) p).Adm := fun p => (cfgs p).toPCfg_adm
/-- Both calls' proof data, each at the contents its call is entered with. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor

/-- The host stretch as a segment over the unscoped references, from the contents after the second call. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m ρ) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the final contents, the generator register at
    some state. -/
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- Call 0 as a segment: entered with every unscoped buffer at `W0`, left with them at `W1`. Its arrays are
    split out of the unscoped buffers and put back at their final contents; the generator register goes into the
    region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W1`, left with them at `W2`. Its arrays are
    split out of the unscoped buffers and put back at their final contents; the generator register goes into the
    region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .host (hseg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and in every final state each unscoped buffer holds the final contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.KIFrame.lean ====
/-
  The frame claim from the run: each argument array's buffer, read at the end, holds its launch contents — the host
  stretch writes none of them, and a call only reads them (through input windows) or passes them by.
-/
import proofs.«121435_j89764816486779_1_alg».proof.Proof.KIMain
import proofs.«121435_j89764816486779_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer the host stretch does not write holds after it what it held before. -/
theorem W3_of (c : Dev nD) (r : Ref sig .tc) (h : r ∉ hostOps2_W) :
    W3 m ρ c (Proc.devRef .tc r) = W2 m ρ c (Proc.devRef .tc r) :=
  StableHlo.after_of_writes_sub hostOps2 _ hostOps2_writes h

/-- `main_arg0` ends as launched: no host operation writes it and no call writes an input. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of m ρ c main_arg0 (by decide)
    _ = W1 m ρ c (Proc.devRef .tc main_arg0) := (W2_arr m ρ c 2).trans (((dat1 (V1 m ρ) c).arrAt_in 2 rfl _).trans (A_eq1 (V1 m ρ) c 2))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- `main_arg1` ends as launched: no host operation writes it and no call writes an input. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
/-- `main_arg2` ends as launched: no host operation writes it and no call writes an input. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
/-- `main_arg3` ends as launched: no host operation writes it and no call writes an input. -/
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl
/-- `main_arg4` ends as launched: no host operation writes it and no call writes an input. -/
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- THE FRAME: every weakly fair execution of @main terminates, nothing faulting, and every argument array ends
    holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_arg0 m ρ c),
     (h c _ (mem_uc main_arg1 (by decide))).trans (W3_arg1 m ρ c),
     (h c _ (mem_uc main_arg2 (by decide))).trans (W3_arg2 m ρ c),
     (h c _ (mem_uc main_arg3 (by decide))).trans (W3_arg3 m ρ c),
     (h c _ (mem_uc main_arg4 (by decide))).trans (W3_arg4 m ρ c)⟩) (run_all m ρ)

end Cert.KernelIdeal.Hand

end
-- ==== Proof.KITail.lean ====
/-
  The host operations after the two calls, as functions of what they read. The coarse adjacency is the per-graph
  blocks scattered onto the diagonal of a zero [32, 32, 32, 32] array (graph g's block to position (g, ·, g, ·)),
  reshaped to [1024, 1024]; the index array of the scatter is the pair (g, g) for each g, spelled as the program
  spells it (an iota, wrapped around if negative, broadcast to a column, two columns joined). The coarse node
  indicator is an iota over the graphs repeated 32 times.
-/
import proofs.«121435_j89764816486779_1_alg».proof.Proof.Gen.KernelIdeal.Launch

noncomputable section

namespace Cert.KernelIdeal.Hand

open Cert.KernelIdeal Cert.KernelIdeal.Gen Idealize.ShloMosaic Idealize.ShloMosaic.TcCoe Idealize.SL.Sem

variable {F : FTy → Type} [FloatOps F]

/-- The graph index g as the scatter's index column: iota, plus 32 where negative (nowhere), as a [32, 1] column. -/
def diagCol : (⟨S32x1, .i32⟩ : BufTy).Contents (Elt F) :=
  broadcastInDim S32x1 ![0] bcast_S32_S32x1_0
    (select (cmpi .slt (iotaInDim S32 32 0) (broadcastInDim S32 ![] bcast_S_S32 (constantI S_ 32 0#32)))
      (addi (iotaInDim S32 32 0) (broadcastInDim S32 ![] bcast_S_S32 (constantI S_ 32 32#32)))
      (iotaInDim S32 32 0))

/-- The block-diagonal coarse adjacency from the per-graph blocks. -/
def coarseA (b : (⟨S32x32x32, .f32⟩ : BufTy).Contents (Elt F)) : (⟨S1024x1024, .f32⟩ : BufTy).Contents (Elt F) :=
  shapeCast S1024x1024
    (Host.scatter scatter_S32x32x32x32_S32x2_S32x32x32_12_02_02_1 (fun _ u => u)
      (broadcastInDim S32x32x32x32 ![] bcast_S_S32x32x32x32 (constant (F := F) S_ .f32 0x00000000#32))
      (concatenate S32x2 1 [⟨S32x1, diagCol (F := F)⟩, ⟨S32x1, diagCol (F := F)⟩] concatenates_S32x1_S32x1_S32x2_d1)
      b)
    shapeCasts_S32x32x32x32_S1024x1024

/-- The coarse node indicator: entry i is the graph i / 32. -/
def coarseIds : (⟨S1024, .i32⟩ : BufTy).Contents (Elt F) :=
  shapeCast S1024 (broadcastInDim S32x32 ![0] bcast_S32_S32x32_0 (iotaInDim S32 32 0)) shapeCasts_S32x32_S1024

set_option maxHeartbeats 8000000 in
/-- After the host stretch, from any contents `W`: the coarse adjacency's buffer holds `coarseA` of the blocks'
    buffer, and the node indicator's holds `coarseIds`. -/
theorem after_v18 (W : Valuation τ sig (Elt F)) :
    StableHlo.after hostOps2 W (Proc.devRef .tc main_v18) = coarseA (W (Proc.devRef .tc main_v1_1)) := by
  after_results
  rfl

set_option maxHeartbeats 8000000 in
theorem after_v21 (W : Valuation τ sig (Elt F)) :
    StableHlo.after hostOps2 W (Proc.devRef .tc main_v21) = coarseIds (F := F) := by
  after_results
  rfl

end Cert.KernelIdeal.Hand

end
-- ==== Proof.Spec.lean ====
/-
  The mathematics both programs compute, written once over the extended reals.

  With A the [8192, 8192] propagation matrix, X the [8192, 64] features and Wp, We the two weight matrices:
    H_W   = A · (X · W)                      (a product of a product; W one of Wp, We)
    S     = softmax over each row of relu(H_Wp)     (the row's maximum subtracted first)
    Z     = relu(H_We)
  and, with the 8192 rows cut into 32 graphs of 256 nodes (row (g, n) = 256 g + n) and A_g the g-th diagonal
  256 × 256 block of A:
    coarse features   CX g c f = Σ_n S(g,n) c · Z(g,n) f
    coarse adjacency  in the kernel's order   Σ_n S(g,n) c · (Σ_m A_g n m · S(g,m) d)
                      in the reference's      Σ_m (Σ_n A_g n m · S(g,n) c) · S(g,m) d .
  The two orders agree when A and S are real-valued (distributivity and exchanging the two finite sums); on the
  extended reals in general they need not, which is where finiteness of the inputs is used.
-/
import Idealize.ShloMosaic.PureOps.Ideal
import Mathlib.Algebra.BigOperators.Fin

noncomputable section

namespace Cert.Spec

open Idealize.ShloMosaic

/-- The f32 pattern of −∞, the value both row maxima start from. -/
abbrev negInf : EReal := Ideal.ofBits .f32 0xFF800000#32

/-- relu as both programs spell it: the maximum with zero. -/
def relu (v : EReal) : EReal := max v 0

/-- (X · W) j c. -/
def xw {n : Nat} (X : Fin 8192 → Fin 64 → EReal) (W : Fin 64 → Fin n → EReal) (j : Fin 8192) (c : Fin n) : EReal :=
  ∑ f : Fin 64, X j f * W f c

/-- (A · (X · W)) r c. -/
def axw {n : Nat} (A : Fin 8192 → Fin 8192 → EReal) (X : Fin 8192 → Fin 64 → EReal) (W : Fin 64 → Fin n → EReal)
    (r : Fin 8192) (c : Fin n) : EReal :=
  ∑ j : Fin 8192, A r j * xw X W j c

/-- A row's maximum as both programs take it: a fold of max from −∞, and one more max with −∞. -/
def rowMax {n : Nat} (x : Fin n → EReal) : EReal :=
  max negInf ((Finset.univ : Finset (Fin n)).fold max negInf x)

/-- softmax of one row at one column: exp (x c − max) / Σ_k exp (x k − max). -/
def softmaxRow {n : Nat} (x : Fin n → EReal) (c : Fin n) : EReal :=
  Ideal.div (Ideal.exp (x c - rowMax x)) (∑ k : Fin n, Ideal.exp (x k - rowMax x))

/-- The cluster assignment S r c. -/
def S (A : Fin 8192 → Fin 8192 → EReal) (X : Fin 8192 → Fin 64 → EReal) (Wp : Fin 64 → Fin 32 → EReal)
    (r : Fin 8192) (c : Fin 32) : EReal :=
  softmaxRow (fun k => relu (axw A X Wp r k)) c

/-- The embedding Z r f. -/
def Z (A : Fin 8192 → Fin 8192 → EReal) (X : Fin 8192 → Fin 64 → EReal) (We : Fin 64 → Fin 64 → EReal)
    (r : Fin 8192) (f : Fin 64) : EReal :=
  relu (axw A X We r f)

/-- Node n of graph g as a row of the batch. -/
def row (g : Fin 32) (n : Fin 256) : Fin 8192 := ⟨256 * g.val + n.val, by have := g.isLt; have := n.isLt; omega⟩

/-- Coarse features of graph g: (S_gᵀ Z_g) c f, for any assignment S and embedding Z. -/
def cx (S : Fin 8192 → Fin 32 → EReal) (Z : Fin 8192 → Fin 64 → EReal) (g : Fin 32) (c : Fin 32) (f : Fin 64) : EReal :=
  ∑ n : Fin 256, S (row g n) c * Z (row g n) f

/-- Coarse adjacency block of graph g in the kernel's order: S_gᵀ (A_g S_g). -/
def blkK (A : Fin 8192 → Fin 8192 → EReal) (S : Fin 8192 → Fin 32 → EReal) (g : Fin 32) (c d : Fin 32) : EReal :=
  ∑ n : Fin 256, S (row g n) c * (∑ m : Fin 256, A (row g n) (row g m) * S (row g m) d)

/-- The same block in the reference's order: (A_gᵀ S_g)ᵀ S_g. -/
def blkR (A : Fin 8192 → Fin 8192 → EReal) (S : Fin 8192 → Fin 32 → EReal) (g : Fin 32) (c d : Fin 32) : EReal :=
  ∑ m : Fin 256, (∑ n : Fin 256, A (row g n) (row g m) * S (row g n) c) * S (row g m) d

end Cert.Spec

end
-- ==== Proof.SpecMat.lean ====
/-
  Arrays as matrices: a rank-2 array read by its two coordinates, a rank-3 array by its three.
-/
import proofs.«121435_j89764816486779_1_alg».proof.Proof.Spec
import Idealize.ShloMosaic.Lib.ValueIdx

noncomputable section

namespace Cert.Spec

open Idealize.ShloMosaic Idealize.ShloMosaic.ValueIdx

/-- The [a, b] array `x` as the matrix r, j ↦ x (r, j). -/
def mat {a b : Nat} (x : (⟨2, ![a, b]⟩ : Shape).Idx → EReal) : Fin a → Fin b → EReal := fun r j => x (ix2 r j)

theorem mat_apply {a b : Nat} (x : (⟨2, ![a, b]⟩ : Shape).Idx → EReal) (r : Fin a) (j : Fin b) : mat x r j = x (ix2 r j) := rfl

/-- Real-valued matrices: every entry is (the image of) a real number. -/
def IsReal {a b : Nat} (M : Fin a → Fin b → EReal) : Prop := ∀ i j, ∃ r : ℝ, M i j = (r : EReal)

end Cert.Spec

end
-- ==== Proof.Pay.lean ====
/-
  The kernel bodies' arithmetic, read at an index at the ideal values.

  Each stored value of the two kernel bodies is a term over the values loaded before it. Read at one index of the
  extended reals it is plain arithmetic:
    the two accumulators start at 0;
    one grid step adds, to the accumulator at (r, c),  Σ_j F r j · (Σ_e X j e · W e c)   (W one of Wp, We), the
      narrowing of every operand and of the inner product to a shorter format being the identity on the ideal values;
    the embedding is relu of its accumulator, the assignment the row softmax of relu of its accumulator;
    the coarse features are  Σ_n S n c · Z n f  and the coarse adjacency  Σ_n S n c · (Σ_m A n m · S m d).
  A matrix product read at (p, c) is the sum over its one contracted coordinate of the operands' products: the
  contraction's index set is that one coordinate's range, and the operands' indices at it are (p, k) and (k, c) for the
  products that contract the left operand's columns with the right operand's rows, (k, p) and (k, c) for the two that
  contract the rows of both.
-/
import proofs.«121435_j89764816486779_1_alg».proof.Proof.Gen.KernelIdeal.Skeleton
import proofs.«121435_j89764816486779_1_alg».proof.Proof.SpecMat
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Spec

/-! ## X · Wp : the [1024, 64] × [64, 32] product, contracting the features -/

theorem lhs_xwp_0 (i : S1024x32.Idx) (q : dot_S1024x64_S64x32_S1024x32_1_0_0_1_n_n.contr.Idx) :
    (dot_S1024x64_S64x32_S1024x32_1_0_0_1_n_n.lhsIdx i q 0).val = (i 0).val := by
  unfold DotDims.lhsIdx
  rw [dif_neg (show ¬(0 : Fin S1024x64.rank) ∈ dot_S1024x64_S64x32_S1024x32_1_0_0_1_n_n.lhsBatch by decide), dif_pos (show (0 : Fin S1024x64.rank) ∈ dot_S1024x64_S64x32_S1024x32_1_0_0_1_n_n.lhsNonContracting by decide)]
  rfl
theorem lhs_xwp_1 (i : S1024x32.Idx) (q : dot_S1024x64_S64x32_S1024x32_1_0_0_1_n_n.contr.Idx) :
    (dot_S1024x64_S64x32_S1024x32_1_0_0_1_n_n.lhsIdx i q 1).val = (q ⟨0, by decide⟩).val :=
  dot_S1024x64_S64x32_S1024x32_1_0_0_1_n_n.lhsIdx_val_of_single rfl i q
theorem rhs_xwp_0 (i : S1024x32.Idx) (q : dot_S1024x64_S64x32_S1024x32_1_0_0_1_n_n.contr.Idx) :
    (dot_S1024x64_S64x32_S1024x32_1_0_0_1_n_n.rhsIdx i q 0).val = (q ⟨0, by decide⟩).val :=
  dot_S1024x64_S64x32_S1024x32_1_0_0_1_n_n.rhsIdx_val_of_single rfl i q
theorem rhs_xwp_1 (i : S1024x32.Idx) (q : dot_S1024x64_S64x32_S1024x32_1_0_0_1_n_n.contr.Idx) :
    (dot_S1024x64_S64x32_S1024x32_1_0_0_1_n_n.rhsIdx i q 1).val = (i 1).val := by
  unfold DotDims.rhsIdx
  rw [dif_neg (show ¬(1 : Fin S64x32.rank) ∈ dot_S1024x64_S64x32_S1024x32_1_0_0_1_n_n.rhsBatch by decide), dif_pos (show (1 : Fin S64x32.rank) ∈ dot_S1024x64_S64x32_S1024x32_1_0_0_1_n_n.rhsNonContracting by decide)]
  rfl

/-- (X · Wp) j c = Σ_e X j e · Wp e c, into the zero accumulator. -/
theorem mm_xwp_apply {φ₁ φ₂ : FTy} (l : FVec Ideal S1024x64 φ₁) (r : FVec Ideal S64x32 φ₂) (p : Fin 1024) (c : Fin 32) :
    matmul dot_S1024x64_S64x32_S1024x32_1_0_0_1_n_n none l r (constant (F := Ideal) S1024x32 .f32 0x00000000#32) (ix2 p c)
      = ∑ e : Fin 64, l (ix2 p e) * r (ix2 e c) := by
  simp only [matmul]
  rw [Ideal.matmul_constant_zero_apply, ← Equiv.sum_comp (contrEquiv1 dot_S1024x64_S64x32_S1024x32_1_0_0_1_n_n 64 rfl rfl).symm]
  refine Finset.sum_congr rfl fun k _ => ?_
  have hk := contrEquiv1_symm_val dot_S1024x64_S64x32_S1024x32_1_0_0_1_n_n 64 rfl rfl k
  have el : dot_S1024x64_S64x32_S1024x32_1_0_0_1_n_n.lhsIdx (ix2 p c) ((contrEquiv1 dot_S1024x64_S64x32_S1024x32_1_0_0_1_n_n 64 rfl rfl).symm k) = ix2 p k := funext fun a => Fin.ext (by
    match a with
    | ⟨0, _⟩ => exact lhs_xwp_0 _ _
    | ⟨1, _⟩ => exact (lhs_xwp_1 _ _).trans hk)
  have er : dot_S1024x64_S64x32_S1024x32_1_0_0_1_n_n.rhsIdx (ix2 p c) ((contrEquiv1 dot_S1024x64_S64x32_S1024x32_1_0_0_1_n_n 64 rfl rfl).symm k) = ix2 k c := funext fun a => Fin.ext (by
    match a with
    | ⟨0, _⟩ => exact (rhs_xwp_0 _ _).trans hk
    | ⟨1, _⟩ => exact rhs_xwp_1 _ _)
  rw [el, er]

/-! ## F · (X · Wp) : the [2048, 1024] × [1024, 32] product, contracting the block's columns -/

theorem lhs_fxwp_0 (i : S2048x32.Idx) (q : dot_S2048x1024_S1024x32_S2048x32_1_0_0_1_n_n.contr.Idx) :
    (dot_S2048x1024_S1024x32_S2048x32_1_0_0_1_n_n.lhsIdx i q 0).val = (i 0).val := by
  unfold DotDims.lhsIdx
  rw [dif_neg (show ¬(0 : Fin S2048x1024.rank) ∈ dot_S2048x1024_S1024x32_S2048x32_1_0_0_1_n_n.lhsBatch by decide), dif_pos (show (0 : Fin S2048x1024.rank) ∈ dot_S2048x1024_S1024x32_S2048x32_1_0_0_1_n_n.lhsNonContracting by decide)]
  rfl
theorem lhs_fxwp_1 (i : S2048x32.Idx) (q : dot_S2048x1024_S1024x32_S2048x32_1_0_0_1_n_n.contr.Idx) :
    (dot_S2048x1024_S1024x32_S2048x32_1_0_0_1_n_n.lhsIdx i q 1).val = (q ⟨0, by decide⟩).val :=
  dot_S2048x1024_S1024x32_S2048x32_1_0_0_1_n_n.lhsIdx_val_of_single rfl i q
theorem rhs_fxwp_0 (i : S2048x32.Idx) (q : dot_S2048x1024_S1024x32_S2048x32_1_0_0_1_n_n.contr.Idx) :
    (dot_S2048x1024_S1024x32_S2048x32_1_0_0_1_n_n.rhsIdx i q 0).val = (q ⟨0, by decide⟩).val :=
  dot_S2048x1024_S1024x32_S2048x32_1_0_0_1_n_n.rhsIdx_val_of_single rfl i q
theorem rhs_fxwp_1 (i : S2048x32.Idx) (q : dot_S2048x1024_S1024x32_S2048x32_1_0_0_1_n_n.contr.Idx) :
    (dot_S2048x1024_S1024x32_S2048x32_1_0_0_1_n_n.rhsIdx i q 1).val = (i 1).val := by
  unfold DotDims.rhsIdx
  rw [dif_neg (show ¬(1 : Fin S1024x32.rank) ∈ dot_S2048x1024_S1024x32_S2048x32_1_0_0_1_n_n.rhsBatch by decide), dif_pos (show (1 : Fin S1024x32.rank) ∈ dot_S2048x1024_S1024x32_S2048x32_1_0_0_1_n_n.rhsNonContracting by decide)]
  rfl

/-- (F · Y) r c = Σ_j F r j · Y j c, into the zero accumulator. -/
theorem mm_fxwp_apply {φ₁ φ₂ : FTy} (l : FVec Ideal S2048x1024 φ₁) (r : FVec Ideal S1024x32 φ₂) (p : Fin 2048) (c : Fin 32) :
    matmul dot_S2048x1024_S1024x32_S2048x32_1_0_0_1_n_n none l r (constant (F := Ideal) S2048x32 .f32 0x00000000#32) (ix2 p c)
      = ∑ j : Fin 1024, l (ix2 p j) * r (ix2 j c) := by
  simp only [matmul]
  rw [Ideal.matmul_constant_zero_apply, ← Equiv.sum_comp (contrEquiv1 dot_S2048x1024_S1024x32_S2048x32_1_0_0_1_n_n 1024 rfl rfl).symm]
  refine Finset.sum_congr rfl fun k _ => ?_
  have hk := contrEquiv1_symm_val dot_S2048x1024_S1024x32_S2048x32_1_0_0_1_n_n 1024 rfl rfl k
  have el : dot_S2048x1024_S1024x32_S2048x32_1_0_0_1_n_n.lhsIdx (ix2 p c) ((contrEquiv1 dot_S2048x1024_S1024x32_S2048x32_1_0_0_1_n_n 1024 rfl rfl).symm k) = ix2 p k := funext fun a => Fin.ext (by
    match a with
    | ⟨0, _⟩ => exact lhs_fxwp_0 _ _
    | ⟨1, _⟩ => exact (lhs_fxwp_1 _ _).trans hk)
  have er : dot_S2048x1024_S1024x32_S2048x32_1_0_0_1_n_n.rhsIdx (ix2 p c) ((contrEquiv1 dot_S2048x1024_S1024x32_S2048x32_1_0_0_1_n_n 1024 rfl rfl).symm k) = ix2 k c := funext fun a => Fin.ext (by
    match a with
    | ⟨0, _⟩ => exact (rhs_fxwp_0 _ _).trans hk
    | ⟨1, _⟩ => exact rhs_fxwp_1 _ _)
  rw [el, er]

/-! ## X · We : the [1024, 64] × [64, 64] product, contracting the features -/

theorem lhs_xwe_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhs_xwe_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem rhs_xwe_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem rhs_xwe_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- (X · We) j c = Σ_e X j e · We e c, into the zero accumulator. -/
theorem mm_xwe_apply {φ₁ φ₂ : FTy} (l : FVec Ideal S1024x64 φ₁) (r : FVec Ideal S64x64 φ₂) (p : Fin 1024) (c : Fin 64) :
    matmul dot_S1024x64_S64x64_S1024x64_1_0_0_1_n_n none l r (constant (F := Ideal) S1024x64 .f32 0x00000000#32) (ix2 p c)
      = ∑ e : Fin 64, l (ix2 p e) * r (ix2 e c) := by
  simp only [matmul]
  rw [Ideal.matmul_constant_zero_apply, ← Equiv.sum_comp (contrEquiv1 dot_S1024x64_S64x64_S1024x64_1_0_0_1_n_n 64 rfl rfl).symm]
  refine Finset.sum_congr rfl fun k _ => ?_
  have hk := contrEquiv1_symm_val dot_S1024x64_S64x64_S1024x64_1_0_0_1_n_n 64 rfl rfl k
  have el : dot_S1024x64_S64x64_S1024x64_1_0_0_1_n_n.lhsIdx (ix2 p c) ((contrEquiv1 dot_S1024x64_S64x64_S1024x64_1_0_0_1_n_n 64 rfl rfl).symm k) = ix2 p k := funext fun a => Fin.ext (by
    match a with
    | ⟨0, _⟩ => exact lhs_xwe_0 _ _
    | ⟨1, _⟩ => exact (lhs_xwe_1 _ _).trans hk)
  have er : dot_S1024x64_S64x64_S1024x64_1_0_0_1_n_n.rhsIdx (ix2 p c) ((contrEquiv1 dot_S1024x64_S64x64_S1024x64_1_0_0_1_n_n 64 rfl rfl).symm k) = ix2 k c := funext fun a => Fin.ext (by
    match a with
    | ⟨0, _⟩ => exact (rhs_xwe_0 _ _).trans hk
    | ⟨1, _⟩ => exact rhs_xwe_1 _ _)
  rw [el, er]

/-! ## F · (X · We) : the [2048, 1024] × [1024, 64] product, contracting the block's columns -/

theorem lhs_fxwe_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
theorem lhs_fxwe_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
theorem rhs_fxwe_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
theorem rhs_fxwe_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- (F · Y) r c = Σ_j F r j · Y j c, into the zero accumulator. -/
theorem mm_fxwe_apply {φ₁ φ₂ : FTy} (l : FVec Ideal S2048x1024 φ₁) (r : FVec Ideal S1024x64 φ₂) (p : Fin 2048) (c : Fin 64) :
    matmul dot_S2048x1024_S1024x64_S2048x64_1_0_0_1_n_n none l r (constant (F := Ideal) S2048x64 .f32 0x00000000#32) (ix2 p c)
      = ∑ j : Fin 1024, l (ix2 p j) * r (ix2 j c) := by
  simp only [matmul]
  rw [Ideal.matmul_constant_zero_apply, ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 p c) ((contrEquiv1 dot_S2048x1024_S1024x64_S2048x64_1_0_0_1_n_n 1024 rfl rfl).symm k) = ix2 p k := funext fun a => Fin.ext (by
    match a with
    | ⟨0, _⟩ => exact lhs_fxwe_0 _ _
    | ⟨1, _⟩ => exact (lhs_fxwe_1 _ _).trans hk)
  have er : dot_S2048x1024_S1024x64_S2048x64_1_0_0_1_n_n.rhsIdx (ix2 p c) ((contrEquiv1 dot_S2048x1024_S1024x64_S2048x64_1_0_0_1_n_n 1024 rfl rfl).symm k) = ix2 k c := funext fun a => Fin.ext (by
    match a with
    | ⟨0, _⟩ => exact (rhs_fxwe_0 _ _).trans hk
    | ⟨1, _⟩ => exact rhs_fxwe_1 _ _)
  rw [el, er]

/-! ## One grid step of the two accumulators -/

/-- The assignment's accumulator after one step: acc + F · (X · Wp), at (r, c). -/
theorem pay5_apply (x : Vec Ideal S1024x64 .f32) (wp : Vec Ideal S64x32 .f32) (f : Vec Ideal S2048x1024 .f32) (acc : Vec Ideal S2048x32 .f32) (r : Fin 2048) (c : Fin 32) :
    (k0_pay5 (F := Ideal) x wp f acc) (ix2 r c) = acc (ix2 r c) + ∑ j : Fin 1024, f (ix2 r j) * (∑ e : Fin 64, x (ix2 j e) * wp (ix2 e c)) := by
  unfold k0_pay5 k0_pay3 k0_pay4
  rw [shapeCast_self, addf_apply, mm_fxwp_apply]
  refine congrArg (acc (ix2 r c) + ·) (Finset.sum_congr rfl fun j _ => ?_)
  rw [truncf_apply, truncf_apply, mm_xwp_apply]
  refine congrArg (f (ix2 r j) * ·) (Finset.sum_congr rfl fun e _ => ?_)
  rw [truncf_apply, truncf_apply]

/-- The embedding's accumulator after one step: acc + F · (X · We), at (r, c). -/
theorem pay6_apply (x : Vec Ideal S1024x64 .f32) (we : Vec Ideal S64x64 .f32) (f : Vec Ideal S2048x1024 .f32) (acc : Vec Ideal S2048x64 .f32) (r : Fin 2048) (c : Fin 64) :
    (k0_pay6 (F := Ideal) x we f acc) (ix2 r c) = acc (ix2 r c) + ∑ j : Fin 1024, f (ix2 r j) * (∑ e : Fin 64, x (ix2 j e) * we (ix2 e c)) := by
  unfold k0_pay6 k0_pay3 k0_pay4
  rw [shapeCast_self, addf_apply, mm_fxwe_apply]
  refine congrArg (acc (ix2 r c) + ·) (Finset.sum_congr rfl fun j _ => ?_)
  rw [truncf_apply, truncf_apply, mm_xwe_apply]
  refine congrArg (f (ix2 r j) * ·) (Finset.sum_congr rfl fun e _ => ?_)
  rw [truncf_apply, truncf_apply]

/-! ## Sᵀ · Z : the [256, 32] × [256, 64] product, contracting the rows (the graph's nodes) of both -/

theorem lhs_stz_0 (i : S32x64.Idx) (q : dot_S256x32_S256x64_S32x64_0_0_1_1_n_n.contr.Idx) :
    (dot_S256x32_S256x64_S32x64_0_0_1_1_n_n.lhsIdx i q 0).val = (q ⟨0, by decide⟩).val :=
  dot_S256x32_S256x64_S32x64_0_0_1_1_n_n.lhsIdx_val_of_single rfl i q
theorem lhs_stz_1 (i : S32x64.Idx) (q : dot_S256x32_S256x64_S32x64_0_0_1_1_n_n.contr.Idx) :
    (dot_S256x32_S256x64_S32x64_0_0_1_1_n_n.lhsIdx i q 1).val = (i 0).val := by
  unfold DotDims.lhsIdx
  rw [dif_neg (show ¬(1 : Fin S256x32.rank) ∈ dot_S256x32_S256x64_S32x64_0_0_1_1_n_n.lhsBatch by decide), dif_pos (show (1 : Fin S256x32.rank) ∈ dot_S256x32_S256x64_S32x64_0_0_1_1_n_n.lhsNonContracting by decide)]
  rfl
theorem rhs_stz_0 (i : S32x64.Idx) (q : dot_S256x32_S256x64_S32x64_0_0_1_1_n_n.contr.Idx) :
    (dot_S256x32_S256x64_S32x64_0_0_1_1_n_n.rhsIdx i q 0).val = (q ⟨0, by decide⟩).val :=
  dot_S256x32_S256x64_S32x64_0_0_1_1_n_n.rhsIdx_val_of_single rfl i q
theorem rhs_stz_1 (i : S32x64.Idx) (q : dot_S256x32_S256x64_S32x64_0_0_1_1_n_n.contr.Idx) :
    (dot_S256x32_S256x64_S32x64_0_0_1_1_n_n.rhsIdx i q 1).val = (i 1).val := by
  unfold DotDims.rhsIdx
  rw [dif_neg (show ¬(1 : Fin S256x64.rank) ∈ dot_S256x32_S256x64_S32x64_0_0_1_1_n_n.rhsBatch by decide), dif_pos (show (1 : Fin S256x64.rank) ∈ dot_S256x32_S256x64_S32x64_0_0_1_1_n_n.rhsNonContracting by decide)]
  rfl

/-- (Sᵀ · Z) c f = Σ_n S n c · Z n f, into the zero accumulator. -/
theorem mm_stz_apply {φ₁ φ₂ : FTy} (l : FVec Ideal S256x32 φ₁) (r : FVec Ideal S256x64 φ₂) (c : Fin 32) (f : Fin 64) :
    matmul dot_S256x32_S256x64_S32x64_0_0_1_1_n_n none l r (constant (F := Ideal) S32x64 .f32 0x00000000#32) (ix2 c f)
      = ∑ n : Fin 256, l (ix2 n c) * r (ix2 n f) := by
  simp only [matmul]
  rw [Ideal.matmul_constant_zero_apply, ← Equiv.sum_comp (contrEquiv1 dot_S256x32_S256x64_S32x64_0_0_1_1_n_n 256 rfl rfl).symm]
  refine Finset.sum_congr rfl fun k _ => ?_
  have hk := contrEquiv1_symm_val dot_S256x32_S256x64_S32x64_0_0_1_1_n_n 256 rfl rfl k
  have el : dot_S256x32_S256x64_S32x64_0_0_1_1_n_n.lhsIdx (ix2 c f) ((contrEquiv1 dot_S256x32_S256x64_S32x64_0_0_1_1_n_n 256 rfl rfl).symm k) = ix2 k c := funext fun a => Fin.ext (by
    match a with
    | ⟨0, _⟩ => exact (lhs_stz_0 _ _).trans hk
    | ⟨1, _⟩ => exact lhs_stz_1 _ _)
  have er : dot_S256x32_S256x64_S32x64_0_0_1_1_n_n.rhsIdx (ix2 c f) ((contrEquiv1 dot_S256x32_S256x64_S32x64_0_0_1_1_n_n 256 rfl rfl).symm k) = ix2 k f := funext fun a => Fin.ext (by
    match a with
    | ⟨0, _⟩ => exact (rhs_stz_0 _ _).trans hk
    | ⟨1, _⟩ => exact rhs_stz_1 _ _)
  rw [el, er]

/-! ## A · S : the [256, 256] × [256, 32] product, contracting the block's columns -/

theorem lhs_as_0 (i : S256x32.Idx) (q : dot_S256x256_S256x32_S256x32_1_0_0_1_n_n.contr.Idx) :
    (dot_S256x256_S256x32_S256x32_1_0_0_1_n_n.lhsIdx i q 0).val = (i 0).val := by
  unfold DotDims.lhsIdx
  rw [dif_neg (show ¬(0 : Fin S256x256.rank) ∈ dot_S256x256_S256x32_S256x32_1_0_0_1_n_n.lhsBatch by decide), dif_pos (show (0 : Fin S256x256.rank) ∈ dot_S256x256_S256x32_S256x32_1_0_0_1_n_n.lhsNonContracting by decide)]
  rfl
theorem lhs_as_1 (i : S256x32.Idx) (q : dot_S256x256_S256x32_S256x32_1_0_0_1_n_n.contr.Idx) :
    (dot_S256x256_S256x32_S256x32_1_0_0_1_n_n.lhsIdx i q 1).val = (q ⟨0, by decide⟩).val :=
  dot_S256x256_S256x32_S256x32_1_0_0_1_n_n.lhsIdx_val_of_single rfl i q
theorem rhs_as_0 (i : S256x32.Idx) (q : dot_S256x256_S256x32_S256x32_1_0_0_1_n_n.contr.Idx) :
    (dot_S256x256_S256x32_S256x32_1_0_0_1_n_n.rhsIdx i q 0).val = (q ⟨0, by decide⟩).val :=
  dot_S256x256_S256x32_S256x32_1_0_0_1_n_n.rhsIdx_val_of_single rfl i q
theorem rhs_as_1 (i : S256x32.Idx) (q : dot_S256x256_S256x32_S256x32_1_0_0_1_n_n.contr.Idx) :
    (dot_S256x256_S256x32_S256x32_1_0_0_1_n_n.rhsIdx i q 1).val = (i 1).val := by
  unfold DotDims.rhsIdx
  rw [dif_neg (show ¬(1 : Fin S256x32.rank) ∈ dot_S256x256_S256x32_S256x32_1_0_0_1_n_n.rhsBatch by decide), dif_pos (show (1 : Fin S256x32.rank) ∈ dot_S256x256_S256x32_S256x32_1_0_0_1_n_n.rhsNonContracting by decide)]
  rfl

/-- (A · S) n d = Σ_m A n m · S m d, into the zero accumulator. -/
theorem mm_as_apply {φ₁ φ₂ : FTy} (l : FVec Ideal S256x256 φ₁) (r : FVec Ideal S256x32 φ₂) (n : Fin 256) (d : Fin 32) :
    matmul dot_S256x256_S256x32_S256x32_1_0_0_1_n_n none l r (constant (F := Ideal) S256x32 .f32 0x00000000#32) (ix2 n d)
      = ∑ m : Fin 256, l (ix2 n m) * r (ix2 m d) := by
  simp only [matmul]
  rw [Ideal.matmul_constant_zero_apply, ← Equiv.sum_comp (contrEquiv1 dot_S256x256_S256x32_S256x32_1_0_0_1_n_n 256 rfl rfl).symm]
  refine Finset.sum_congr rfl fun k _ => ?_
  have hk := contrEquiv1_symm_val dot_S256x256_S256x32_S256x32_1_0_0_1_n_n 256 rfl rfl k
  have el : dot_S256x256_S256x32_S256x32_1_0_0_1_n_n.lhsIdx (ix2 n d) ((contrEquiv1 dot_S256x256_S256x32_S256x32_1_0_0_1_n_n 256 rfl rfl).symm k) = ix2 n k := funext fun a => Fin.ext (by
    match a with
    | ⟨0, _⟩ => exact lhs_as_0 _ _
    | ⟨1, _⟩ => exact (lhs_as_1 _ _).trans hk)
  have er : dot_S256x256_S256x32_S256x32_1_0_0_1_n_n.rhsIdx (ix2 n d) ((contrEquiv1 dot_S256x256_S256x32_S256x32_1_0_0_1_n_n 256 rfl rfl).symm k) = ix2 k d := funext fun a => Fin.ext (by
    match a with
    | ⟨0, _⟩ => exact (rhs_as_0 _ _).trans hk
    | ⟨1, _⟩ => exact rhs_as_1 _ _)
  rw [el, er]

/-! ## Sᵀ · (A · S) : the [256, 32] × [256, 32] product, contracting the rows (the graph's nodes) of both -/

theorem lhs_stas_0 (i : S32x32.Idx) (q : dot_S256x32_S256x32_S32x32_0_0_1_1_n_n.contr.Idx) :
    (dot_S256x32_S256x32_S32x32_0_0_1_1_n_n.lhsIdx i q 0).val = (q ⟨0, by decide⟩).val :=
  dot_S256x32_S256x32_S32x32_0_0_1_1_n_n.lhsIdx_val_of_single rfl i q
theorem lhs_stas_1 (i : S32x32.Idx) (q : dot_S256x32_S256x32_S32x32_0_0_1_1_n_n.contr.Idx) :
    (dot_S256x32_S256x32_S32x32_0_0_1_1_n_n.lhsIdx i q 1).val = (i 0).val := by
  unfold DotDims.lhsIdx
  rw [dif_neg (show ¬(1 : Fin S256x32.rank) ∈ dot_S256x32_S256x32_S32x32_0_0_1_1_n_n.lhsBatch by decide), dif_pos (show (1 : Fin S256x32.rank) ∈ dot_S256x32_S256x32_S32x32_0_0_1_1_n_n.lhsNonContracting by decide)]
  rfl
theorem rhs_stas_0 (i : S32x32.Idx) (q : dot_S256x32_S256x32_S32x32_0_0_1_1_n_n.contr.Idx) :
    (dot_S256x32_S256x32_S32x32_0_0_1_1_n_n.rhsIdx i q 0).val = (q ⟨0, by decide⟩).val :=
  dot_S256x32_S256x32_S32x32_0_0_1_1_n_n.rhsIdx_val_of_single rfl i q
theorem rhs_stas_1 (i : S32x32.Idx) (q : dot_S256x32_S256x32_S32x32_0_0_1_1_n_n.contr.Idx) :
    (dot_S256x32_S256x32_S32x32_0_0_1_1_n_n.rhsIdx i q 1).val = (i 1).val := by
  unfold DotDims.rhsIdx
  rw [dif_neg (show ¬(1 : Fin S256x32.rank) ∈ dot_S256x32_S256x32_S32x32_0_0_1_1_n_n.rhsBatch by decide), dif_pos (show (1 : Fin S256x32.rank) ∈ dot_S256x32_S256x32_S32x32_0_0_1_1_n_n.rhsNonContracting by decide)]
  rfl

/-- (Sᵀ · Y) c d = Σ_n S n c · Y n d, into the zero accumulator. -/
theorem mm_stas_apply {φ₁ φ₂ : FTy} (l : FVec Ideal S256x32 φ₁) (r : FVec Ideal S256x32 φ₂) (c d : Fin 32) :
    matmul dot_S256x32_S256x32_S32x32_0_0_1_1_n_n none l r (constant (F := Ideal) S32x32 .f32 0x00000000#32) (ix2 c d)
      = ∑ n : Fin 256, l (ix2 n c) * r (ix2 n d) := by
  simp only [matmul]
  rw [Ideal.matmul_constant_zero_apply, ← Equiv.sum_comp (contrEquiv1 dot_S256x32_S256x32_S32x32_0_0_1_1_n_n 256 rfl rfl).symm]
  refine Finset.sum_congr rfl fun k _ => ?_
  have hk := contrEquiv1_symm_val dot_S256x32_S256x32_S32x32_0_0_1_1_n_n 256 rfl rfl k
  have el : dot_S256x32_S256x32_S32x32_0_0_1_1_n_n.lhsIdx (ix2 c d) ((contrEquiv1 dot_S256x32_S256x32_S32x32_0_0_1_1_n_n 256 rfl rfl).symm k) = ix2 k c := funext fun a => Fin.ext (by
    match a with
    | ⟨0, _⟩ => exact (lhs_stas_0 _ _).trans hk
    | ⟨1, _⟩ => exact lhs_stas_1 _ _)
  have er : dot_S256x32_S256x32_S32x32_0_0_1_1_n_n.rhsIdx (ix2 c d) ((contrEquiv1 dot_S256x32_S256x32_S32x32_0_0_1_1_n_n 256 rfl rfl).symm k) = ix2 k d := funext fun a => Fin.ext (by
    match a with
    | ⟨0, _⟩ => exact (rhs_stas_0 _ _).trans hk
    | ⟨1, _⟩ => exact rhs_stas_1 _ _)
  rw [el, er]

/-! ## The coarsening body's two stored values -/

/-- The coarse features of one graph: (Sᵀ · Z) c f. -/
theorem k1_pay2_apply (s : Vec Ideal S256x32 .f32) (z : Vec Ideal S256x64 .f32) (c : Fin 32) (f : Fin 64) :
    (k1_pay2 (F := Ideal) s z) (ix2 c f) = ∑ n : Fin 256, s (ix2 n c) * z (ix2 n f) := by
  unfold k1_pay2 k1_pay1
  rw [mm_stz_apply]
  refine Finset.sum_congr rfl fun n _ => ?_
  rw [truncf_apply, truncf_apply, shapeCast_self, shapeCast_self]

/-- The coarse adjacency block of one graph: (Sᵀ · (A · S)) c d, stored under a leading unit axis. -/
theorem k1_pay3_apply (s : Vec Ideal S256x32 .f32) (a : Vec Ideal S256x256 .f32) (c d : Fin 32) :
    (k1_pay3 (F := Ideal) s a) (ix3 (0 : Fin 1) c d) = ∑ n : Fin 256, s (ix2 n c) * (∑ m : Fin 256, a (ix2 n m) * s (ix2 m d)) := by
  unfold k1_pay3 k1_pay1
  rw [shapeCast_ab_1ab_apply, mm_stas_apply]
  refine Finset.sum_congr rfl fun n _ => ?_
  rw [truncf_apply, shapeCast_self, truncf_apply, mm_as_apply]
  refine congrArg (s (ix2 n c) * ·) (Finset.sum_congr rfl fun m _ => ?_)
  rw [truncf_apply, truncf_apply]

/-! ## The pointwise stored values: the zeroed accumulators and relu -/

/-- The assignment's accumulator is zeroed at the first grid step. -/
theorem pay1_apply (j : S2048x32.Idx) : (k0_pay1 (F := Ideal)) j = 0 := by
  unfold k0_pay1
  rw [shapeCast_self, broadcast_apply]
  exact Ideal.ofBits_zero_f32

/-- The embedding's accumulator is zeroed at the first grid step. -/
theorem pay2_apply (j : S2048x64.Idx) : (k0_pay2 (F := Ideal)) j = 0 := by
  unfold k0_pay2
  rw [shapeCast_self, broadcast_apply]
  exact Ideal.ofBits_zero_f32

/-- The embedding is relu of its accumulator: the maximum with zero. -/
theorem pay7_apply (v : Vec Ideal S2048x64 .f32) (j : S2048x64.Idx) : (k0_pay7 (F := Ideal) v) j = Cert.Spec.relu (v j) := by
  unfold k0_pay7 Cert.Spec.relu
  rw [maximumf_apply, broadcast_apply]
  exact congrArg (max (v j)) Ideal.ofBits_zero_f32

/-! ## The row softmax of relu of the accumulator -/

/-- Row r with lane k put back on the reduced axis is the index (r, k). -/
theorem lift_row (h : S2048x32.Reduces [1] S2048) (r : Fin 2048) (k : Fin 32) : h.lift (ix1 r) k = ix2 r k :=
  funext fun a => Fin.ext (by
    match a with
    | ⟨0, _⟩ => rfl
    | ⟨1, _⟩ => rfl)

/-- A row's maximum over its 32 lanes: the fold of max from −∞. -/
theorem rowmax_apply (src : FVec Ideal S2048x32 .f32) (h : S2048x32.Reduces [1] S2048)
    (hacc : (0xFF800000#32 : BitVec 32) = 0xFF800000#32) (r : Fin 2048) :
    multiReduction .maximumf [1] S2048 src 0xFF800000#32 h (.inl rfl) hacc (ix1 r)
      = Finset.fold max negInf (fun k : Fin 32 => src (ix2 r k)) Finset.univ :=
  (Ideal.multiReduction_maximumf_single src 0xFF800000#32 h (.inl rfl) hacc (ix1 r)).trans
    (congrArg (fun g => Finset.fold max negInf g (Finset.univ : Finset (Fin 32))) (funext fun k => congrArg src (lift_row h r k)))

/-- A row's sum over its 32 lanes. -/
theorem rowsum_apply (src : FVec Ideal S2048x32 .f32) (h : S2048x32.Reduces [1] S2048)
    (hacc : (0x00000000#32 : BitVec 32) = 0x00000000#32) (r : Fin 2048) :
    multiReduction .add [1] S2048 src 0x00000000#32 h (.inl rfl) hacc (ix1 r) = ∑ k : Fin 32, src (ix2 r k) :=
  (Ideal.multiReduction_add_single src 0x00000000#32 h (.inl rfl) hacc (ix1 r)).trans
    (Finset.sum_congr rfl fun k _ => congrArg src (lift_row h r k))

/-- A per-row value kept as a [2048, 1] column and spread over the 32 lanes reads, at (r, c), the row's value. -/
theorem col_apply (x : FVec Ideal S2048 .f32) (hc : S2048.ShapeCasts S2048x1) (hb : S2048x1.Broadcasts S2048x32) (r : Fin 2048) (c : Fin 32) :
    broadcastTo S2048x32 (shapeCast S2048x1 x hc) hb (ix2 r c) = x (ix1 r) := by
  refine (broadcastTo_apply _ hb (ix2 r c) (ix2 r (0 : Fin 1)) fun a => ?_).trans ?_
  · match a with
    | ⟨0, _⟩ => rfl
    | ⟨1, _⟩ => rfl
  · refine shapeCast_apply x hc (ix2 r (0 : Fin 1)) (ix1 r) ?_
    rw [Shape.rowMajor_val_one, Shape.rowMajor_val_two]
    show r.val = r.val * 1 + 0
    omega

/-- exp of a value less its row's column value, at (r, k). -/
theorem exp_sub_col (y : FVec Ideal S2048x32 .f32) (m : FVec Ideal S2048 .f32) (hc : S2048.ShapeCasts S2048x1) (hb : S2048x1.Broadcasts S2048x32)
    (r : Fin 2048) (k : Fin 32) :
    exp (subf y (broadcastTo S2048x32 (shapeCast S2048x1 m hc) hb)) (ix2 r k) = Ideal.exp (y (ix2 r k) - m (ix1 r)) :=
  congrArg (fun t => Ideal.exp (y (ix2 r k) - t)) (col_apply m hc hb r k)

/-- The assignment: the row softmax of relu of the accumulator, at (r, c). -/
theorem pay8_apply (v : Vec Ideal S2048x32 .f32) (r : Fin 2048) (c : Fin 32) :
    (k0_pay8 (F := Ideal) v) (ix2 r c) = Cert.Spec.softmaxRow (fun k : Fin 32 => Cert.Spec.relu (v (ix2 r k))) c := by
  unfold k0_pay8
  rw [divf_apply, col_apply, rowsum_apply]
  simp only [exp_sub_col, maximumf_apply, broadcast_apply]
  rw [rowmax_apply]
  simp only [maximumf_apply, broadcast_apply, Ideal.ofBits_def, Ideal.ofBits_zero_f32]
  unfold Cert.Spec.softmaxRow Cert.Spec.rowMax Cert.Spec.relu
  rfl

end Cert.KernelIdeal.Pay

end
-- ==== Proof.Algebra.lean ====
/-
  Pure mathematics over the specification.

  * A sum over 8192 columns is the sum over 8 blocks of 1024 columns each.
  * Real-valued A, X and Wp give a real-valued cluster assignment S: sums, products, relu and the maximum of
    finitely many reals are real; exp of a real is a positive real; a nonempty sum of positive reals is a positive
    real, so the softmax quotient is a quotient of reals by a nonzero real.
  * For real-valued A and S the two orders of the coarse adjacency block are the same double sum.
-/
import proofs.«121435_j89764816486779_1_alg».proof.Proof.SpecMat
import Mathlib.Data.EReal.Operations
import Mathlib.Data.Finset.Fold
import Mathlib.Data.Fintype.BigOperators
import Mathlib.Algebra.BigOperators.Ring.Finset
import Mathlib.Algebra.BigOperators.Group.Finset.Sigma
import Mathlib.Analysis.Complex.Exponential
import Mathlib.Tactic.Ring

noncomputable section

namespace Cert.Algebra

open Cert.Spec Idealize.ShloMosaic

/-! ### Eight blocks of 1024 columns -/

/-- Column `J` of 8192 is column `J % 1024` of block `J / 1024`. -/
def blockEquiv : Fin 8 × Fin 1024 ≃ Fin 8192 where
  toFun p := ⟨1024 * p.1.val + p.2.val, by have := p.1.isLt; have := p.2.isLt; omega⟩
  invFun J := (⟨J.val / 1024, by have := J.isLt; omega⟩, ⟨J.val % 1024, by omega⟩)
  left_inv := by
    rintro ⟨⟨a, ha⟩, ⟨b, hb⟩⟩
    simp only [Prod.mk.injEq, Fin.mk.injEq]
    constructor <;> omega
  right_inv := by
    rintro ⟨J, hJ⟩
    simp only [Fin.mk.injEq]
    omega

/-- Summing block by block, then inside each block, visits every column exactly once. -/
theorem sum_blocks (g : Fin 8192 → EReal) :
    ∑ kb : Fin 8, ∑ j : Fin 1024, g ⟨1024 * kb.val + j.val, by have := kb.isLt; have := j.isLt; omega⟩
      = ∑ J : Fin 8192, g J :=
  calc ∑ kb : Fin 8, ∑ j : Fin 1024, g ⟨1024 * kb.val + j.val, by have := kb.isLt; have := j.isLt; omega⟩
      = ∑ p : Fin 8 × Fin 1024, g (blockEquiv p) :=
        (Fintype.sum_prod_type' (fun kb j => g (blockEquiv (kb, j)))).symm
    _ = ∑ J : Fin 8192, g J := Fintype.sum_equiv blockEquiv _ _ (fun _ => rfl)

/-! ### Real values among the extended reals -/

/-- An extended real that is (the image of) a real number. -/
def IsR (x : EReal) : Prop := ∃ r : ℝ, x = (r : EReal)

/-- An extended real that is (the image of) a positive real number. -/
def IsPos (x : EReal) : Prop := ∃ r : ℝ, 0 < r ∧ x = (r : EReal)

theorem IsPos.isR {x : EReal} (h : IsPos x) : IsR x := by
  obtain ⟨r, _, e⟩ := h; exact ⟨r, e⟩

theorem isR_zero : IsR (0 : EReal) := ⟨0, EReal.coe_zero.symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

/-- The larger of two reals is one of them. -/
theorem IsR.max {x y : EReal} (hx : IsR x) (hy : IsR y) : IsR (max x y) := by
  rcases max_choice x y with h | h <;> rw [h] <;> assumption

theorem IsR.relu {v : EReal} (hv : IsR v) : IsR (relu v) := by
  show IsR (Max.max v 0)
  exact hv.max isR_zero

/-- A finite sum of reals is real. -/
theorem IsR.sum {ι : Type*} (s : Finset ι) (f : ι → EReal) : (∀ i ∈ s, IsR (f i)) → IsR (∑ i ∈ s, f i) := by
  induction s using Finset.cons_induction with
  | empty => intro _; rw [Finset.sum_empty]; exact isR_zero
  | cons a s ha ih =>
    intro h
    rw [Finset.sum_cons]
    exact (h a (Finset.mem_cons_self a s)).add (ih fun i hi => h i (Finset.mem_cons.mpr (Or.inr hi)))

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

/-- A nonempty finite sum of positive reals is a positive real. -/
theorem IsPos.sum {ι : Type*} {s : Finset ι} (hs : s.Nonempty) (f : ι → EReal) :
    (∀ i ∈ s, IsPos (f i)) → IsPos (∑ i ∈ s, f i) := by
  induction hs using Finset.Nonempty.cons_induction with
  | singleton a => intro h; rw [Finset.sum_singleton]; exact h a (Finset.mem_singleton_self a)
  | cons a s ha hs ih =>
    intro h
    rw [Finset.sum_cons]
    exact (h a (Finset.mem_cons_self a s)).add (ih fun i hi => h i (Finset.mem_cons.mpr (Or.inr hi)))

/-- The maximum of a nonempty finite family of reals, folded from −∞, is real. -/
theorem isR_fold_max {ι : Type*} (x : ι → EReal) {s : Finset ι} (hs : s.Nonempty) :
    (∀ i ∈ s, IsR (x i)) → IsR (s.fold max ⊥ x) := by
  induction hs using Finset.Nonempty.cons_induction with
  | singleton a =>
    intro h
    rw [Finset.fold_singleton, max_bot_right]
    exact h a (Finset.mem_singleton_self a)
  | cons a s ha hs ih =>
    intro h
    rw [Finset.fold_cons]
    exact (h a (Finset.mem_cons_self a s)).max (ih fun i hi => h i (Finset.mem_cons.mpr (Or.inr hi)))

/-- The value both row maxima start from is −∞. -/
theorem negInf_eq : negInf = (⊥ : EReal) := by simp [Ideal.ofBits, Ideal.ieee]

/-- The maximum of a nonempty row of reals is real. -/
theorem isR_rowMax {n : Nat} [NeZero n] (x : Fin n → EReal) (h : ∀ k, IsR (x k)) : IsR (rowMax x) := by
  unfold rowMax
  rw [negInf_eq, max_bot_left]
  exact isR_fold_max x Finset.univ_nonempty (fun i _ => h i)

/-- exp of a real is a positive real. -/
theorem IsR.exp_pos {x : EReal} (hx : IsR x) : IsPos (Ideal.exp x) := by
  obtain ⟨r, rfl⟩ := hx
  exact ⟨Real.exp r, Real.exp_pos r, Ideal.exp_coe r⟩

/-- A real divided by a positive real is real. -/
theorem isR_div {x y : EReal} (hx : IsR x) (hy : IsPos y) : IsR (Ideal.div x y) := by
  obtain ⟨b, hb, rfl⟩ := hy
  rw [Ideal.div_coe (ne_of_gt hb)]
  exact hx.mul ⟨1 / b, rfl⟩

/-- softmax of a nonempty row of reals is real: the denominator is a sum of positive reals. -/
theorem isR_softmaxRow {n : Nat} [NeZero n] (x : Fin n → EReal) (h : ∀ k, IsR (x k)) (c : Fin n) :
    IsR (softmaxRow x c) := by
  unfold softmaxRow
  have hm := isR_rowMax x h
  exact isR_div ((h c).sub hm).exp_pos.isR
    (IsPos.sum Finset.univ_nonempty _ fun k _ => ((h k).sub hm).exp_pos)

theorem isR_xw {n : Nat} {X : Fin 8192 → Fin 64 → EReal} {W : Fin 64 → Fin n → EReal}
    (hX : IsReal X) (hW : IsReal W) (j : Fin 8192) (c : Fin n) : IsR (xw X W j c) :=
  IsR.sum _ _ fun f _ => IsR.mul (hX j f) (hW f c)

theorem isR_axw {n : Nat} {A : Fin 8192 → Fin 8192 → EReal} {X : Fin 8192 → Fin 64 → EReal}
    {W : Fin 64 → Fin n → EReal} (hA : IsReal A) (hX : IsReal X) (hW : IsReal W) (r : Fin 8192) (c : Fin n) :
    IsR (axw A X W r c) :=
  IsR.sum _ _ fun j _ => IsR.mul (hA r j) (isR_xw hX hW j c)

/-- Real-valued inputs give a real-valued cluster assignment. -/
theorem S_real {A : Fin 8192 → Fin 8192 → EReal} {X : Fin 8192 → Fin 64 → EReal} {Wp : Fin 64 → Fin 32 → EReal}
    (hA : IsReal A) (hX : IsReal X) (hW : IsReal Wp) : IsReal (S A X Wp) := by
  intro r c
  show IsR (softmaxRow (fun k => relu (axw A X Wp r k)) c)
  exact isR_softmaxRow _ (fun k => (isR_axw hA hX hW r k).relu) c

/-! ### The two orders of the coarse adjacency block -/

/-- The image of a finite sum of reals is the sum of the images. -/
theorem coe_sum {ι : Type*} (s : Finset ι) (f : ι → ℝ) :
    ((∑ i ∈ s, f i : ℝ) : EReal) = ∑ i ∈ s, (f i : EReal) := by
  induction s using Finset.cons_induction with
  | empty => rw [Finset.sum_empty, Finset.sum_empty, EReal.coe_zero]
  | cons a s ha ih => rw [Finset.sum_cons, Finset.sum_cons, EReal.coe_add, ih]

/-- With real entries both orders are the double sum Σ_n Σ_m S(g,n) c · A_g n m · S(g,m) d. -/
theorem blk_eq {A : Fin 8192 → Fin 8192 → EReal} {S : Fin 8192 → Fin 32 → EReal} (hA : IsReal A) (hS : IsReal S)
    (g c d : Fin 32) : blkK A S g c d = blkR A S g c d := by
  choose a ha using hA
  choose s hs using hS
  have hK : blkK A S g c d
      = ((∑ n : Fin 256, s (row g n) c * ∑ m : Fin 256, a (row g n) (row g m) * s (row g m) d : ℝ) : EReal) := by
    simp only [blkK, ha, hs, coe_sum, EReal.coe_mul]
  have hR : blkR A S g c d
      = ((∑ m : Fin 256, (∑ n : Fin 256, a (row g n) (row g m) * s (row g n) c) * s (row g m) d : ℝ) : EReal) := by
    simp only [blkR, ha, hs, coe_sum, EReal.coe_mul]
  rw [hK, hR, EReal.coe_eq_coe_iff]
  simp only [Finset.mul_sum, Finset.sum_mul]
  rw [Finset.sum_comm]
  refine Finset.sum_congr rfl fun m _ => Finset.sum_congr rfl fun n _ => ?_
  ring

end Cert.Algebra

end
-- ==== Proof.KIVal0.lean ====
/-
  What the first call leaves in its two output arrays, at the ideal values: the cluster assignment S and the
  embedding Z of the specification, of the argument arrays as the call finds them.

  The grid is 4 row tiles × 8 column tiles, point t being row tile t / 8 and column tile t % 8. At every point the body
  adds to each of two accumulators the product of the A-tile (rows 2048 (t / 8) + r, columns 1024 (t % 8) + j) with the
  product of the X-tile (rows 1024 (t % 8) + j) and a weight matrix, having zeroed them first when t % 8 = 0; when
  t % 8 = 7 it stores the row softmax of relu of the first accumulator and relu of the second into its output blocks.
    1. Each case's stores, read back, are the body's arithmetic over the blocks it loaded.
    2. The blocks are slices of the argument arrays, at the rows and columns above.
    3. So after point t the accumulators of row tile t / 8 hold, at every index, the shares of the column tiles
       0, …, t % 8 of (A · (X · W)), added in that order: by induction on the point. At t % 8 = 7 that is the whole sum
       over the 8192 columns, cut into its eight blocks of 1024.
    4. The points with t % 8 = 7 are the ones that write back; row R is covered by point 8 (R / 2048) + 7; so each
       output array ends holding S, respectively Z, at every index.
-/
import proofs.«121435_j89764816486779_1_alg».proof.Proof.KIDat0
import proofs.«121435_j89764816486779_1_alg».proof.Proof.Pay
import proofs.«121435_j89764816486779_1_alg».proof.Proof.Algebra
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx

variable {F : FTy → Type} [FloatOps F]

/-! ## What each case's stores hold, as the body's arithmetic over the blocks it loaded -/

/-- A load or a store of a whole buffer starts at offset zero on both axes. -/
theorem hz2 : (![0, 0] : Fin 2 → Nat) = fun _ => 0 := funext fun a => by fin_cases a <;> rfl

/-- k = 0, first accumulator: the zero fill, then the tile product added to the zero fill read back. -/
theorem sout0_A_0_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : cond0_0 i) (hc1 : ¬cond0_1 i) (x0 : Vec F S2048x1024 .f32) (x1 : Vec F S1024x64 .f32) (x2 : Vec F S64x32 .f32) (x3 : Vec F S64x64 .f32) :
    sout0_A_0 c i arg2 harg2 arg3 harg3 arg4 harg4 arg5 harg5 arg6 harg6 arg7 harg7 arg8 harg8 arg9 harg9 hc0 hc1 x0 x1 x2 x3 = k0_pay5 x1 x2 x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S2048x32) hz2, View.readCov_unit_zero (S := S2048x32) _ hz2]
  simp only [View.readAt_eq_ld, harg2.read_unread, harg3.read_unread, harg4.read_unread, harg5.read_unread, View.ld_unit_zero (S := S2048x1024) hz2, View.ld_unit_zero (S := S1024x64) hz2, View.ld_unit_zero (S := S64x32) hz2, View.ld_unit_zero (S := S64x64) hz2, View.ld_unit_zero (S := S2048x32) hz2, View.ld_unit_zero (S := S2048x64) hz2]

/-- k = 0, second accumulator. -/
theorem sout0_A_1_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : cond0_0 i) (hc1 : ¬cond0_1 i) (x0 : Vec F S2048x1024 .f32) (x1 : Vec F S1024x64 .f32) (x2 : Vec F S64x32 .f32) (x3 : Vec F S64x64 .f32) :
    sout0_A_1 c i arg2 harg2 arg3 harg3 arg4 harg4 arg5 harg5 arg6 harg6 arg7 harg7 arg8 harg8 arg9 harg9 hc0 hc1 x0 x1 x2 x3 = k0_pay6 x1 x3 x0 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S2048x64) hz2, View.readCov_unit_zero (S := S2048x64) _ hz2]
  simp only [View.readAt_eq_ld, harg2.read_unread, harg3.read_unread, harg4.read_unread, harg5.read_unread, View.ld_unit_zero (S := S2048x1024) hz2, View.ld_unit_zero (S := S1024x64) hz2, View.ld_unit_zero (S := S64x32) hz2, View.ld_unit_zero (S := S64x64) hz2, View.ld_unit_zero (S := S2048x32) hz2, View.ld_unit_zero (S := S2048x64) hz2]

/-- 0 < k < 7, first accumulator: the tile product added to what the point before left. -/
theorem sout0_B_0_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : ¬cond0_1 i) (x0 : Vec F S2048x1024 .f32) (x1 : Vec F S1024x64 .f32) (x2 : Vec F S64x32 .f32) (x3 : Vec F S64x64 .f32) (xs0 : Vec F S2048x32 .f32) (xs1 : Vec F S2048x64 .f32) :
    sout0_B_0 c i arg2 harg2 arg3 harg3 arg4 harg4 arg5 harg5 arg6 harg6 arg7 harg7 arg8 harg8 arg9 harg9 hc0 hc1 x0 x1 x2 x3 xs0 xs1 = k0_pay5 x1 x2 x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg8.read_unread, harg9.read_unread, View.ld_unit_zero (S := S2048x1024) hz2, View.ld_unit_zero (S := S1024x64) hz2, View.ld_unit_zero (S := S64x32) hz2, View.ld_unit_zero (S := S64x64) hz2, View.ld_unit_zero (S := S2048x32) hz2, View.ld_unit_zero (S := S2048x64) hz2]

/-- 0 < k < 7, second accumulator. -/
theorem sout0_B_1_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : ¬cond0_1 i) (x0 : Vec F S2048x1024 .f32) (x1 : Vec F S1024x64 .f32) (x2 : Vec F S64x32 .f32) (x3 : Vec F S64x64 .f32) (xs0 : Vec F S2048x32 .f32) (xs1 : Vec F S2048x64 .f32) :
    sout0_B_1 c i arg2 harg2 arg3 harg3 arg4 harg4 arg5 harg5 arg6 harg6 arg7 harg7 arg8 harg8 arg9 harg9 hc0 hc1 x0 x1 x2 x3 xs0 xs1 = k0_pay6 x1 x3 x0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg8.read_unread, harg9.read_unread, View.ld_unit_zero (S := S2048x1024) hz2, View.ld_unit_zero (S := S1024x64) hz2, View.ld_unit_zero (S := S64x32) hz2, View.ld_unit_zero (S := S64x64) hz2, View.ld_unit_zero (S := S2048x32) hz2, View.ld_unit_zero (S := S2048x64) hz2]

/-- k = 7, first accumulator: as in the middle case. -/
theorem sout0_C_0_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i) (x0 : Vec F S2048x1024 .f32) (x1 : Vec F S1024x64 .f32) (x2 : Vec F S64x32 .f32) (x3 : Vec F S64x64 .f32) (xs0 : Vec F S2048x32 .f32) (xs1 : Vec F S2048x64 .f32) :
    sout0_C_0 c i arg2 harg2 arg3 harg3 arg4 harg4 arg5 harg5 arg6 harg6 arg7 harg7 arg8 harg8 arg9 harg9 hc0 hc1 x0 x1 x2 x3 xs0 xs1 = k0_pay5 x1 x2 x0 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg8.read_unread, harg9.read_unread, View.ld_unit_zero (S := S2048x1024) hz2, View.ld_unit_zero (S := S1024x64) hz2, View.ld_unit_zero (S := S64x32) hz2, View.ld_unit_zero (S := S64x64) hz2, View.ld_unit_zero (S := S2048x32) hz2, View.ld_unit_zero (S := S2048x64) hz2]

/-- k = 7, second accumulator. -/
theorem sout0_C_1_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i) (x0 : Vec F S2048x1024 .f32) (x1 : Vec F S1024x64 .f32) (x2 : Vec F S64x32 .f32) (x3 : Vec F S64x64 .f32) (xs0 : Vec F S2048x32 .f32) (xs1 : Vec F S2048x64 .f32) :
    sout0_C_1 c i arg2 harg2 arg3 harg3 arg4 harg4 arg5 harg5 arg6 harg6 arg7 harg7 arg8 harg8 arg9 harg9 hc0 hc1 x0 x1 x2 x3 xs0 xs1 = k0_pay6 x1 x3 x0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg8.read_unread, harg9.read_unread, View.ld_unit_zero (S := S2048x1024) hz2, View.ld_unit_zero (S := S1024x64) hz2, View.ld_unit_zero (S := S64x32) hz2, View.ld_unit_zero (S := S64x64) hz2, View.ld_unit_zero (S := S2048x32) hz2, View.ld_unit_zero (S := S2048x64) hz2]

/-- k = 7, the assignment block: the row softmax of relu of the first accumulator as just updated. -/
theorem out0_C_4_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i) (x0 : Vec F S2048x1024 .f32) (x1 : Vec F S1024x64 .f32) (x2 : Vec F S64x32 .f32) (x3 : Vec F S64x64 .f32) (xs0 : Vec F S2048x32 .f32) (xs1 : Vec F S2048x64 .f32) :
    out0_C_4 c i arg2 harg2 arg3 harg3 arg4 harg4 arg5 harg5 arg6 harg6 arg7 harg7 arg8 harg8 arg9 harg9 hc0 hc1 x0 x1 x2 x3 xs0 xs1 = k0_pay8 (k0_pay5 x1 x2 x0 xs0) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz2]
  simp only [View.readAt_eq_ld, View.readCov_unit_zero (S := S2048x32) _ hz2, harg2.read_unread, harg3.read_unread, harg4.read_unread, harg5.read_unread, harg8.read_unread, harg9.read_unread, View.ld_unit_zero (S := S2048x1024) hz2, View.ld_unit_zero (S := S1024x64) hz2, View.ld_unit_zero (S := S64x32) hz2, View.ld_unit_zero (S := S64x64) hz2, View.ld_unit_zero (S := S2048x32) hz2, View.ld_unit_zero (S := S2048x64) hz2]

/-- k = 7, the embedding block: relu of the second accumulator as just updated. -/
theorem out0_C_5_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x32 .f32) (harg4 : arg4.IsWhole) (arg5 : Memref sig .tc .vmem S64x64 .f32) (harg5 : arg5.IsWhole) (arg6 : Memref sig .tc .vmem S2048x32 .f32) (harg6 : arg6.IsWhole) (arg7 : Memref sig .tc .vmem S2048x64 .f32) (harg7 : arg7.IsWhole) (arg8 : Memref sig .tc .vmem S2048x32 .f32) (harg8 : arg8.IsWhole) (arg9 : Memref sig .tc .vmem S2048x64 .f32) (harg9 : arg9.IsWhole) (hc0 : ¬cond0_0 i) (hc1 : cond0_1 i) (x0 : Vec F S2048x1024 .f32) (x1 : Vec F S1024x64 .f32) (x2 : Vec F S64x32 .f32) (x3 : Vec F S64x64 .f32) (xs0 : Vec F S2048x32 .f32) (xs1 : Vec F S2048x64 .f32) :
    out0_C_5 c i arg2 harg2 arg3 harg3 arg4 harg4 arg5 harg5 arg6 harg6 arg7 harg7 arg8 harg8 arg9 harg9 hc0 hc1 x0 x1 x2 x3 xs0 xs1 = k0_pay7 (k0_pay6 x1 x3 x0 xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz2]
  simp only [View.readAt_eq_ld, View.readCov_unit_zero (S := S2048x64) _ hz2, harg2.read_unread, harg3.read_unread, harg4.read_unread, harg5.read_unread, harg8.read_unread, harg9.read_unread, View.ld_unit_zero (S := S2048x1024) hz2, View.ld_unit_zero (S := S1024x64) hz2, View.ld_unit_zero (S := S64x32) hz2, View.ld_unit_zero (S := S64x64) hz2, View.ld_unit_zero (S := S2048x32) hz2, View.ld_unit_zero (S := S2048x64) hz2]

section Blocks

/-! ## The blocks as slices of the arrays -/

variable (V : (c : Dev nD) → (b : Ref sig .tc) → Buf (Elt F) ((c : Thread nD τ).loc b))

/-- The four argument arrays as the call finds them, at their literal types. -/
abbrev aArr (c : Dev nD) : Vec F S8192x8192 .f32 := V c main_arg0
abbrev xArr (c : Dev nD) : Vec F S8192x64 .f32 := V c main_arg1
abbrev wpArr (c : Dev nD) : Vec F S64x32 .f32 := V c main_arg2
abbrev weArr (c : Dev nD) : Vec F S64x64 .f32 := V c main_arg3

/-- Point t is row tile t / 8 and column tile t % 8: the windows' block indices, decided over the 32 points. -/
theorem idx_facts0 : ∀ t : Fin cfg0.N,
    (win0_0.index t 0 = t.val / 8 ∧ win0_0.index t 1 = t.val % 8) ∧ (win0_1.index t 0 = t.val % 8 ∧ win0_1.index t 1 = 0)
      ∧ (win0_2.index t 0 = 0 ∧ win0_2.index t 1 = 0) ∧ (win0_3.index t 0 = 0 ∧ win0_3.index t 1 = 0)
      ∧ (win0_4.index t 0 = t.val / 8 ∧ win0_4.index t 1 = 0) ∧ (win0_5.index t 0 = t.val / 8 ∧ win0_5.index t 1 = 0) :=
  (by decide +kernel : ∀ t : Fin grid0.N,
    (win0_0.index t 0 = t.val / 8 ∧ win0_0.index t 1 = t.val % 8) ∧ (win0_1.index t 0 = t.val % 8 ∧ win0_1.index t 1 = 0)
      ∧ (win0_2.index t 0 = 0 ∧ win0_2.index t 1 = 0) ∧ (win0_3.index t 0 = 0 ∧ win0_3.index t 1 = 0)
      ∧ (win0_4.index t 0 = t.val / 8 ∧ win0_4.index t 1 = 0) ∧ (win0_5.index t 0 = t.val / 8 ∧ win0_5.index t 1 = 0))

/-- The A-tile at point t reads A at rows 2048 (t / 8) + r and columns 1024 (t % 8) + j. -/
theorem fblk_apply (c : Dev nD) (t : Fin cfg0.N) (r : Fin 2048) (j : Fin 1024) (R J : Fin 8192)
    (hR : R.val = 2048 * (t.val / 8) + r.val) (hJ : J.val = 1024 * (t.val % 8) + j.val) :
    fblk V c t (ix2 r j) = aArr V c (ix2 R J) := by
  have hi := (idx_facts0 t).1
  unfold fblk iblk0
  rw [View.read_apply]
  show V c main_arg0 _ = V c main_arg0 _
  congr 1
  funext a
  apply Fin.ext
  match a with
  | ⟨0, _⟩ => show win0_0.index t 0 * 2048 + 1 * r.val = R.val; rw [hi.1, hR]; omega
  | ⟨1, _⟩ => show win0_0.index t 1 * 1024 + 1 * j.val = J.val; rw [hi.2, hJ]; omega

/-- The X-tile at point t reads X at rows 1024 (t % 8) + j. -/
theorem xblk_apply (c : Dev nD) (t : Fin cfg0.N) (j : Fin 1024) (e : Fin 64) (J : Fin 8192)
    (hJ : J.val = 1024 * (t.val % 8) + j.val) :
    xblk V c t (ix2 j e) = xArr V c (ix2 J e) := by
  have hi := (idx_facts0 t).2.1
  unfold xblk iblk0
  rw [View.read_apply]
  show V c main_arg1 _ = V c main_arg1 _
  congr 1
  funext a
  apply Fin.ext
  match a with
  | ⟨0, _⟩ => show win0_1.index t 0 * 1024 + 1 * j.val = J.val; rw [hi.1, hJ]; omega
  | ⟨1, _⟩ => show win0_1.index t 1 * 64 + 1 * e.val = e.val; rw [hi.2]; omega

/-- The two weight windows are the whole arrays at every point. -/
theorem wpblk_apply (c : Dev nD) (t : Fin cfg0.N) (e : Fin 64) (k : Fin 32) :
    wpblk V c t (ix2 e k) = wpArr V c (ix2 e k) := by
  have hi := (idx_facts0 t).2.2.1
  unfold wpblk iblk0
  rw [View.read_apply]
  show V c main_arg2 _ = V c main_arg2 _
  congr 1
  funext a
  apply Fin.ext
  match a with
  | ⟨0, _⟩ => show win0_2.index t 0 * 64 + 1 * e.val = e.val; rw [hi.1]; omega
  | ⟨1, _⟩ => show win0_2.index t 1 * 32 + 1 * k.val = k.val; rw [hi.2]; omega

theorem weblk_apply (c : Dev nD) (t : Fin cfg0.N) (e : Fin 64) (k : Fin 64) :
    weblk V c t (ix2 e k) = weArr V c (ix2 e k) := by
  have hi := (idx_facts0 t).2.2.2.1
  unfold weblk iblk0
  rw [View.read_apply]
  show V c main_arg3 _ = V c main_arg3 _
  congr 1
  funext a
  apply Fin.ext
  match a with
  | ⟨0, _⟩ => show win0_3.index t 0 * 64 + 1 * e.val = e.val; rw [hi.1]; omega
  | ⟨1, _⟩ => show win0_3.index t 1 * 64 + 1 * k.val = k.val; rw [hi.2]; omega

end Blocks

/-! ## The accumulation over the column tiles, on the extended reals -/

/-- Column tile k's share of (A · (X · W)) R c: the columns 1024 k ≤ J < 1024 (k + 1). -/
def tileSum {n : Nat} (A : Fin 8192 → Fin 8192 → EReal) (X : Fin 8192 → Fin 64 → EReal) (W : Fin 64 → Fin n → EReal)
    (R : Fin 8192) (cc : Fin n) (k : ℕ) : EReal :=
  if h : k < 8 then
    ∑ j : Fin 1024, A R ⟨1024 * k + j.val, by have := j.isLt; omega⟩ * xw X W ⟨1024 * k + j.val, by have := j.isLt; omega⟩ cc
  else 0

/-- The shares of the column tiles 0, …, k, added in that order. -/
def partSum {n : Nat} (A : Fin 8192 → Fin 8192 → EReal) (X : Fin 8192 → Fin 64 → EReal) (W : Fin 64 → Fin n → EReal)
    (R : Fin 8192) (cc : Fin n) : ℕ → EReal
  | 0 => tileSum A X W R cc 0
  | k + 1 => partSum A X W R cc k + tileSum A X W R cc (k + 1)

theorem partSum_succ {n : Nat} (A : Fin 8192 → Fin 8192 → EReal) (X : Fin 8192 → Fin 64 → EReal) (W : Fin 64 → Fin n → EReal)
    (R : Fin 8192) (cc : Fin n) (k : ℕ) :
    partSum A X W R cc (k + 1) = partSum A X W R cc k + tileSum A X W R cc (k + 1) := rfl

theorem partSum_eq_range {n : Nat} (A : Fin 8192 → Fin 8192 → EReal) (X : Fin 8192 → Fin 64 → EReal) (W : Fin 64 → Fin n → EReal)
    (R : Fin 8192) (cc : Fin n) (k : ℕ) :
    partSum A X W R cc k = ∑ i ∈ Finset.range (k + 1), tileSum A X W R cc i := by
  induction k with
  | zero => rw [Finset.sum_range_one]; rfl
  | succ k ih => rw [Finset.sum_range_succ, ← ih, partSum_succ]

/-- All eight column tiles together are the whole row of the product. -/
theorem partSum_seven {n : Nat} (A : Fin 8192 → Fin 8192 → EReal) (X : Fin 8192 → Fin 64 → EReal) (W : Fin 64 → Fin n → EReal)
    (R : Fin 8192) (cc : Fin n) : partSum A X W R cc 7 = axw A X W R cc := by
  rw [partSum_eq_range]
  show ∑ i ∈ Finset.range 8, tileSum A X W R cc i = _
  rw [← Fin.sum_univ_eq_sum_range (fun i => tileSum A X W R cc i) 8]
  unfold axw
  rw [← Cert.Algebra.sum_blocks (fun J => A R J * xw X W J cc)]
  exact Finset.sum_congr rfl fun kb _ => dif_pos kb.isLt

/-- One grid step of the first accumulator at an index: what it held plus column tile k's share, when the loaded
    blocks are the tiles of A and X at column tile k and the whole of Wp. -/
theorem pay5_tile (x : Vec Ideal S1024x64 .f32) (wp : Vec Ideal S64x32 .f32) (f : Vec Ideal S2048x1024 .f32) (acc : Vec Ideal S2048x32 .f32)
    (A : Fin 8192 → Fin 8192 → EReal) (X : Fin 8192 → Fin 64 → EReal) (Wp : Fin 64 → Fin 32 → EReal)
    (R : Fin 8192) (r : Fin 2048) (cc : Fin 32) (k : ℕ) (hk : k < 8)
    (hf : ∀ j : Fin 1024, f (ix2 r j) = A R ⟨1024 * k + j.val, by have := j.isLt; omega⟩)
    (hx : ∀ (j : Fin 1024) (e : Fin 64), x (ix2 j e) = X ⟨1024 * k + j.val, by have := j.isLt; omega⟩ e)
    (hw : ∀ e : Fin 64, wp (ix2 e cc) = Wp e cc) :
    (k0_pay5 (F := Ideal) x wp f acc) (ix2 r cc) = acc (ix2 r cc) + tileSum A X Wp R cc k := by
  refine (Cert.KernelIdeal.Pay.pay5_apply x wp f acc r cc).trans ?_
  unfold tileSum
  rw [dif_pos hk]
  refine congrArg (fun s => acc (ix2 r cc) + s) (Finset.sum_congr rfl fun j _ => ?_)
  rw [hf j]
  refine congrArg (fun s => A R _ * s) (Finset.sum_congr rfl fun e _ => ?_)
  rw [hx j e, hw e]

/-- The same for the second accumulator, with We. -/
theorem pay6_tile (x : Vec Ideal S1024x64 .f32) (we : Vec Ideal S64x64 .f32) (f : Vec Ideal S2048x1024 .f32) (acc : Vec Ideal S2048x64 .f32)
    (A : Fin 8192 → Fin 8192 → EReal) (X : Fin 8192 → Fin 64 → EReal) (We : Fin 64 → Fin 64 → EReal)
    (R : Fin 8192) (r : Fin 2048) (cc : Fin 64) (k : ℕ) (hk : k < 8)
    (hf : ∀ j : Fin 1024, f (ix2 r j) = A R ⟨1024 * k + j.val, by have := j.isLt; omega⟩)
    (hx : ∀ (j : Fin 1024) (e : Fin 64), x (ix2 j e) = X ⟨1024 * k + j.val, by have := j.isLt; omega⟩ e)
    (hw : ∀ e : Fin 64, we (ix2 e cc) = We e cc) :
    (k0_pay6 (F := Ideal) x we f acc) (ix2 r cc) = acc (ix2 r cc) + tileSum A X We R cc k := by
  refine (Cert.KernelIdeal.Pay.pay6_apply x we f acc r cc).trans ?_
  unfold tileSum
  rw [dif_pos hk]
  refine congrArg (fun s => acc (ix2 r cc) + s) (Finset.sum_congr rfl fun j _ => ?_)
  rw [hf j]
  refine congrArg (fun s => A R _ * s) (Finset.sum_congr rfl fun e _ => ?_)
  rw [hx j e, hw e]

/-! ## The accumulators after each point, at the ideal values -/

variable (V : (c : Dev nD) → (b : Ref sig .tc) → Buf (Elt Ideal) ((c : Thread nD τ).loc b))

/-- The four argument arrays as matrices over the extended reals. -/
abbrev Am (c : Dev nD) : Fin 8192 → Fin 8192 → EReal := mat (aArr V c)
abbrev Xm (c : Dev nD) : Fin 8192 → Fin 64 → EReal := mat (xArr V c)
abbrev Wpm (c : Dev nD) : Fin 64 → Fin 32 → EReal := mat (wpArr V c)
abbrev Wem (c : Dev nD) : Fin 64 → Fin 64 → EReal := mat (weArr V c)

/-- k = 0: each accumulator holds column tile 0's share (zero plus it). -/
theorem scA_fst (c : Dev nD) (t : Fin cfg0.N) (h0 : t.val % 8 = 0) (h1 : ¬t.val % 8 = 7) (r : Fin 2048) (cc : Fin 32) (R : Fin 8192) (hR : R.val = 2048 * (t.val / 8) + r.val) :
    (scA V c t h0 h1).1 (ix2 r cc) = tileSum (Am V c) (Xm V c) (Wpm V c) R cc (t.val % 8) := by
  unfold scA
  dsimp only
  refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (fblk V c t) (xblk V c t) (wpblk V c t) (weblk V c t)) (ix2 r cc)).trans ?_
  refine (pay5_tile (xblk V c t) (wpblk V c t) (fblk V c t) (k0_pay1 (F := Ideal)) (Am V c) (Xm V c) (Wpm V c) R r cc (t.val % 8) (Nat.mod_lt _ (by decide)) (fun j => fblk_apply V c t r j R _ hR rfl) (fun j e => xblk_apply V c t j e _ rfl) (fun e => wpblk_apply V c t e cc)).trans ?_
  rw [Cert.KernelIdeal.Pay.pay1_apply, zero_add]

theorem scA_snd (c : Dev nD) (t : Fin cfg0.N) (h0 : t.val % 8 = 0) (h1 : ¬t.val % 8 = 7) (r : Fin 2048) (cc : Fin 64) (R : Fin 8192) (hR : R.val = 2048 * (t.val / 8) + r.val) :
    (scA V c t h0 h1).2 (ix2 r cc) = tileSum (Am V c) (Xm V c) (Wem V c) R cc (t.val % 8) := by
  unfold scA
  dsimp only
  refine (congrFun (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (fblk V c t) (xblk V c t) (wpblk V c t) (weblk V c t)) (ix2 r cc)).trans ?_
  refine (pay6_tile (xblk V c t) (weblk V c t) (fblk V c t) (k0_pay2 (F := Ideal)) (Am V c) (Xm V c) (Wem V c) R r cc (t.val % 8) (Nat.mod_lt _ (by decide)) (fun j => fblk_apply V c t r j R _ hR rfl) (fun j e => xblk_apply V c t j e _ rfl) (fun e => weblk_apply V c t e cc)).trans ?_
  rw [Cert.KernelIdeal.Pay.pay2_apply, zero_add]

/-- 0 < k < 7: each accumulator gains column tile k's share. -/
theorem scB_fst (c : Dev nD) (t : Fin cfg0.N) (h0 : ¬t.val % 8 = 0) (h1 : ¬t.val % 8 = 7) (p : Vec Ideal S2048x32 .f32 × Vec Ideal S2048x64 .f32) (r : Fin 2048) (cc : Fin 32) (R : Fin 8192) (hR : R.val = 2048 * (t.val / 8) + r.val) :
    (scB V c t h0 h1 p).1 (ix2 r cc) = p.1 (ix2 r cc) + tileSum (Am V c) (Xm V c) (Wpm V c) R cc (t.val % 8) := by
  unfold scB
  dsimp only
  refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (fblk V c t) (xblk V c t) (wpblk V c t) (weblk V c t) p.1 p.2) (ix2 r cc)).trans ?_
  exact (pay5_tile (xblk V c t) (wpblk V c t) (fblk V c t) p.1 (Am V c) (Xm V c) (Wpm V c) R r cc (t.val % 8) (Nat.mod_lt _ (by decide)) (fun j => fblk_apply V c t r j R _ hR rfl) (fun j e => xblk_apply V c t j e _ rfl) (fun e => wpblk_apply V c t e cc))

theorem scB_snd (c : Dev nD) (t : Fin cfg0.N) (h0 : ¬t.val % 8 = 0) (h1 : ¬t.val % 8 = 7) (p : Vec Ideal S2048x32 .f32 × Vec Ideal S2048x64 .f32) (r : Fin 2048) (cc : Fin 64) (R : Fin 8192) (hR : R.val = 2048 * (t.val / 8) + r.val) :
    (scB V c t h0 h1 p).2 (ix2 r cc) = p.2 (ix2 r cc) + tileSum (Am V c) (Xm V c) (Wem V c) R cc (t.val % 8) := by
  unfold scB
  dsimp only
  refine (congrFun (sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (fblk V c t) (xblk V c t) (wpblk V c t) (weblk V c t) p.1 p.2) (ix2 r cc)).trans ?_
  exact (pay6_tile (xblk V c t) (weblk V c t) (fblk V c t) p.2 (Am V c) (Xm V c) (Wem V c) R r cc (t.val % 8) (Nat.mod_lt _ (by decide)) (fun j => fblk_apply V c t r j R _ hR rfl) (fun j e => xblk_apply V c t j e _ rfl) (fun e => weblk_apply V c t e cc))

/-- k = 7: the same for the accumulators, -/
theorem scC_fst (c : Dev nD) (t : Fin cfg0.N) (h0 : ¬t.val % 8 = 0) (h1 : t.val % 8 = 7) (p : Vec Ideal S2048x32 .f32 × Vec Ideal S2048x64 .f32) (r : Fin 2048) (cc : Fin 32) (R : Fin 8192) (hR : R.val = 2048 * (t.val / 8) + r.val) :
    (scC V c t h0 h1 p).1 (ix2 r cc) = p.1 (ix2 r cc) + tileSum (Am V c) (Xm V c) (Wpm V c) R cc (t.val % 8) := by
  unfold scC
  dsimp only
  refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fblk V c t) (xblk V c t) (wpblk V c t) (weblk V c t) p.1 p.2) (ix2 r cc)).trans ?_
  exact (pay5_tile (xblk V c t) (wpblk V c t) (fblk V c t) p.1 (Am V c) (Xm V c) (Wpm V c) R r cc (t.val % 8) (Nat.mod_lt _ (by decide)) (fun j => fblk_apply V c t r j R _ hR rfl) (fun j e => xblk_apply V c t j e _ rfl) (fun e => wpblk_apply V c t e cc))

theorem scC_snd (c : Dev nD) (t : Fin cfg0.N) (h0 : ¬t.val % 8 = 0) (h1 : t.val % 8 = 7) (p : Vec Ideal S2048x32 .f32 × Vec Ideal S2048x64 .f32) (r : Fin 2048) (cc : Fin 64) (R : Fin 8192) (hR : R.val = 2048 * (t.val / 8) + r.val) :
    (scC V c t h0 h1 p).2 (ix2 r cc) = p.2 (ix2 r cc) + tileSum (Am V c) (Xm V c) (Wem V c) R cc (t.val % 8) := by
  unfold scC
  dsimp only
  refine (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fblk V c t) (xblk V c t) (wpblk V c t) (weblk V c t) p.1 p.2) (ix2 r cc)).trans ?_
  exact (pay6_tile (xblk V c t) (weblk V c t) (fblk V c t) p.2 (Am V c) (Xm V c) (Wem V c) R r cc (t.val % 8) (Nat.mod_lt _ (by decide)) (fun j => fblk_apply V c t r j R _ hR rfl) (fun j e => xblk_apply V c t j e _ rfl) (fun e => weblk_apply V c t e cc))

/-- and the assignment block is the row softmax of relu of the first accumulator as just updated, -/
theorem outC_fst (c : Dev nD) (t : Fin cfg0.N) (h0 : ¬t.val % 8 = 0) (h1 : t.val % 8 = 7) (p : Vec Ideal S2048x32 .f32 × Vec Ideal S2048x64 .f32) (r : Fin 2048) (cc : Fin 32) (R : Fin 8192) (hR : R.val = 2048 * (t.val / 8) + r.val) :
    (outC V c t h0 h1 p).1 (ix2 r cc)
      = softmaxRow (fun k : Fin 32 => relu (p.1 (ix2 r k) + tileSum (Am V c) (Xm V c) (Wpm V c) R k (t.val % 8))) cc := by
  unfold outC
  dsimp only
  refine (congrFun (out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fblk V c t) (xblk V c t) (wpblk V c t) (weblk V c t) p.1 p.2) (ix2 r cc)).trans ?_
  refine (Cert.KernelIdeal.Pay.pay8_apply (k0_pay5 (F := Ideal) (xblk V c t) (wpblk V c t) (fblk V c t) p.1) r cc).trans ?_
  refine congrArg (fun g : Fin 32 → EReal => softmaxRow g cc) (funext fun k => congrArg relu ?_)
  exact (pay5_tile (xblk V c t) (wpblk V c t) (fblk V c t) p.1 (Am V c) (Xm V c) (Wpm V c) R r k (t.val % 8) (Nat.mod_lt _ (by decide)) (fun j => fblk_apply V c t r j R _ hR rfl) (fun j e => xblk_apply V c t j e _ rfl) (fun e => wpblk_apply V c t e k))

/-- the embedding block relu of the second. -/
theorem outC_snd (c : Dev nD) (t : Fin cfg0.N) (h0 : ¬t.val % 8 = 0) (h1 : t.val % 8 = 7) (p : Vec Ideal S2048x32 .f32 × Vec Ideal S2048x64 .f32) (r : Fin 2048) (cc : Fin 64) (R : Fin 8192) (hR : R.val = 2048 * (t.val / 8) + r.val) :
    (outC V c t h0 h1 p).2 (ix2 r cc) = relu (p.2 (ix2 r cc) + tileSum (Am V c) (Xm V c) (Wem V c) R cc (t.val % 8)) := by
  unfold outC
  dsimp only
  refine (congrFun (out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fblk V c t) (xblk V c t) (wpblk V c t) (weblk V c t) p.1 p.2) (ix2 r cc)).trans ?_
  refine (Cert.KernelIdeal.Pay.pay7_apply (k0_pay6 (F := Ideal) (xblk V c t) (weblk V c t) (fblk V c t) p.2) (ix2 r cc)).trans ?_
  exact congrArg relu (pay6_tile (xblk V c t) (weblk V c t) (fblk V c t) p.2 (Am V c) (Xm V c) (Wem V c) R r cc (t.val % 8) (Nat.mod_lt _ (by decide)) (fun j => fblk_apply V c t r j R _ hR rfl) (fun j e => xblk_apply V c t j e _ rfl) (fun e => weblk_apply V c t e cc))

/-- After point n the accumulators of row tile n / 8 hold, at every index, the shares of the column tiles 0, …, n % 8. -/
def AccInv (c : Dev nD) (n : ℕ) (p : Vec Ideal S2048x32 .f32 × Vec Ideal S2048x64 .f32) : Prop :=
  (∀ (r : Fin 2048) (cc : Fin 32) (R : Fin 8192), R.val = 2048 * (n / 8) + r.val →
      p.1 (ix2 r cc) = partSum (Am V c) (Xm V c) (Wpm V c) R cc (n % 8))
  ∧ (∀ (r : Fin 2048) (cc : Fin 64) (R : Fin 8192), R.val = 2048 * (n / 8) + r.val →
      p.2 (ix2 r cc) = partSum (Am V c) (Xm V c) (Wem V c) R cc (n % 8))

theorem accInv_A (c : Dev nD) (t : Fin cfg0.N) (h0 : t.val % 8 = 0) (h1 : ¬t.val % 8 = 7) : AccInv V c t.val (scA V c t h0 h1) := by
  constructor
  · intro r cc R hR
    refine (scA_fst V c t h0 h1 r cc R hR).trans ?_
    rw [h0]; rfl
  · intro r cc R hR
    refine (scA_snd V c t h0 h1 r cc R hR).trans ?_
    rw [h0]; rfl

theorem accInv_B (c : Dev nD) (t : Fin cfg0.N) (h0 : ¬t.val % 8 = 0) (h1 : ¬t.val % 8 = 7) (p : Vec Ideal S2048x32 .f32 × Vec Ideal S2048x64 .f32)
    (hp : AccInv V c (t.val - 1) p) : AccInv V c t.val (scB V c t h0 h1 p) := by
  have hk : t.val % 8 = (t.val - 1) % 8 + 1 := by omega
  constructor
  · intro r cc R hR
    refine (scB_fst V c t h0 h1 p r cc R hR).trans ?_
    rw [hp.1 r cc R (by omega), hk, partSum_succ]
  · intro r cc R hR
    refine (scB_snd V c t h0 h1 p r cc R hR).trans ?_
    rw [hp.2 r cc R (by omega), hk, partSum_succ]

theorem accInv_C (c : Dev nD) (t : Fin cfg0.N) (h0 : ¬t.val % 8 = 0) (h1 : t.val % 8 = 7) (p : Vec Ideal S2048x32 .f32 × Vec Ideal S2048x64 .f32)
    (hp : AccInv V c (t.val - 1) p) : AccInv V c t.val (scC V c t h0 h1 p) := by
  have hk : t.val % 8 = (t.val - 1) % 8 + 1 := by omega
  constructor
  · intro r cc R hR
    refine (scC_fst V c t h0 h1 p r cc R hR).trans ?_
    rw [hp.1 r cc R (by omega), hk, partSum_succ]
  · intro r cc R hR
    refine (scC_snd V c t h0 h1 p r cc R hR).trans ?_
    rw [hp.2 r cc R (by omega), hk, partSum_succ]

/-- The invariant holds after every point: by induction on the point, never by listing the grid. -/
theorem accInv_scAt0 (c : Dev nD) : ∀ (n : ℕ) (hn : n < cfg0.N), AccInv V c n (scAt0 V c n hn) := by
  intro n
  induction n with
  | zero =>
    intro hn
    have e : scAt0 V c 0 hn = scA V c ⟨0, hn⟩ (Nat.zero_mod 8) (by show ¬(0 % 8 = 7); decide) := scAt0_A V c ⟨0, hn⟩ (Nat.zero_mod 8) (by show ¬(0 % 8 = 7); decide)
    rw [e]
    exact accInv_A V c ⟨0, hn⟩ (Nat.zero_mod 8) (by show ¬(0 % 8 = 7); decide)
  | succ n ih =>
    intro hn
    have ihn := ih (Nat.lt_of_succ_lt hn)
    by_cases h0 : (n + 1) % 8 = 0
    · have h1 : ¬(n + 1) % 8 = 7 := by omega
      have e : scAt0 V c (n + 1) hn = scA V c ⟨n + 1, hn⟩ h0 h1 := scAt0_A V c ⟨n + 1, hn⟩ h0 h1
      rw [e]
      exact accInv_A V c ⟨n + 1, hn⟩ h0 h1
    · by_cases h1 : (n + 1) % 8 = 7
      · have e : scAt0 V c (n + 1) hn = scC V c ⟨n + 1, hn⟩ h0 h1 (scAt0 V c n (Nat.lt_of_succ_lt hn)) := scAt0_C V c ⟨n + 1, hn⟩ h0 h1
        rw [e]
        exact accInv_C V c ⟨n + 1, hn⟩ h0 h1 _ ihn
      · have e : scAt0 V c (n + 1) hn = scB V c ⟨n + 1, hn⟩ h0 h1 (scAt0 V c n (Nat.lt_of_succ_lt hn)) := scAt0_B V c ⟨n + 1, hn⟩ h0 h1
        rw [e]
        exact accInv_B V c ⟨n + 1, hn⟩ h0 h1 _ ihn

/-! ## The output blocks at k = 7 -/

/-- The assignment block a point with k = 7 leaves is S on the rows of its row tile. -/
theorem outAt0_fst (c : Dev nD) (t : Fin cfg0.N) (h7 : t.val % 8 = 7) (r : Fin 2048) (cc : Fin 32) (R : Fin 8192) (hR : R.val = 2048 * (t.val / 8) + r.val) :
    (outAt0 V c t).1 (ix2 r cc) = Cert.Spec.S (Am V c) (Xm V c) (Wpm V c) R cc := by
  have h0 : ¬t.val % 8 = 0 := by omega
  have hp := accInv_scAt0 V c (t.val - 1) (Nat.lt_of_le_of_lt (Nat.sub_le _ _) t.isLt)
  rw [outAt0_C V c t h0 h7]
  refine (outC_fst V c t h0 h7 _ r cc R hR).trans ?_
  show _ = softmaxRow (fun k : Fin 32 => relu (axw (Am V c) (Xm V c) (Wpm V c) R k)) cc
  refine congrArg (fun g : Fin 32 → EReal => softmaxRow g cc) (funext fun k => congrArg relu ?_)
  rw [hp.1 r k R (by omega), h7, show (t.val - 1) % 8 = 6 by omega]
  exact (partSum_succ (Am V c) (Xm V c) (Wpm V c) R k 6).symm.trans (partSum_seven (Am V c) (Xm V c) (Wpm V c) R k)

/-- The embedding block it leaves is Z there. -/
theorem outAt0_snd (c : Dev nD) (t : Fin cfg0.N) (h7 : t.val % 8 = 7) (r : Fin 2048) (cc : Fin 64) (R : Fin 8192) (hR : R.val = 2048 * (t.val / 8) + r.val) :
    (outAt0 V c t).2 (ix2 r cc) = Cert.Spec.Z (Am V c) (Xm V c) (Wem V c) R cc := by
  have h0 : ¬t.val % 8 = 0 := by omega
  have hp := accInv_scAt0 V c (t.val - 1) (Nat.lt_of_le_of_lt (Nat.sub_le _ _) t.isLt)
  rw [outAt0_C V c t h0 h7]
  refine (outC_snd V c t h0 h7 _ r cc R hR).trans ?_
  show _ = relu (axw (Am V c) (Xm V c) (Wem V c) R cc)
  refine congrArg relu ?_
  rw [hp.2 r cc R (by omega), h7, show (t.val - 1) % 8 = 6 by omega]
  exact (partSum_succ (Am V c) (Xm V c) (Wem V c) R cc 6).symm.trans (partSum_seven (Am V c) (Xm V c) (Wem V c) R cc)

/-! ## From the blocks to the arrays -/

/-- The assignment and the embedding of the argument arrays, as contents of the two output arrays. -/
abbrev SArr (c : Dev nD) : S8192x32.Idx → EReal := fun i =>
  Cert.Spec.S (mat (V c main_arg0)) (mat (V c main_arg1)) (mat (V c main_arg2)) ⟨(i 0).val, (i 0).isLt⟩ ⟨(i 1).val, (i 1).isLt⟩
abbrev ZArr (c : Dev nD) : S8192x64.Idx → EReal := fun i =>
  Cert.Spec.Z (mat (V c main_arg0)) (mat (V c main_arg1)) (mat (V c main_arg3)) ⟨(i 0).val, (i 0).isLt⟩ ⟨(i 1).val, (i 1).isLt⟩

theorem outAt0_fst_idx (c : Dev nD) (t : Fin cfg0.N) (h7 : t.val % 8 = 7) (r : Fin 2048) (cc : Fin 32) (i : S8192x32.Idx)
    (hi0 : (i 0).val = 2048 * (t.val / 8) + r.val) (hi1 : (i 1).val = cc.val) :
    (outAt0 V c t).1 (ix2 r cc) = SArr V c i := by
  refine (outAt0_fst V c t h7 r cc ⟨(i 0).val, (i 0).isLt⟩ hi0).trans ?_
  show Cert.Spec.S (Am V c) (Xm V c) (Wpm V c) ⟨(i 0).val, (i 0).isLt⟩ cc
      = Cert.Spec.S (Am V c) (Xm V c) (Wpm V c) ⟨(i 0).val, (i 0).isLt⟩ ⟨(i 1).val, (i 1).isLt⟩
  exact congrArg (Cert.Spec.S (Am V c) (Xm V c) (Wpm V c) ⟨(i 0).val, (i 0).isLt⟩) (Fin.ext hi1.symm)

theorem outAt0_snd_idx (c : Dev nD) (t : Fin cfg0.N) (h7 : t.val % 8 = 7) (r : Fin 2048) (cc : Fin 64) (i : S8192x64.Idx)
    (hi0 : (i 0).val = 2048 * (t.val / 8) + r.val) (hi1 : (i 1).val = cc.val) :
    (outAt0 V c t).2 (ix2 r cc) = ZArr V c i := by
  refine (outAt0_snd V c t h7 r cc ⟨(i 0).val, (i 0).isLt⟩ hi0).trans ?_
  show Cert.Spec.Z (Am V c) (Xm V c) (Wem V c) ⟨(i 0).val, (i 0).isLt⟩ cc
      = Cert.Spec.Z (Am V c) (Xm V c) (Wem V c) ⟨(i 0).val, (i 0).isLt⟩ ⟨(i 1).val, (i 1).isLt⟩
  exact congrArg (Cert.Spec.Z (Am V c) (Xm V c) (Wem V c) ⟨(i 0).val, (i 0).isLt⟩) (Fin.ext hi1.symm)

/-- What a point with k = 7 writes back into the assignment array is its block of S. -/
theorem flushed0_4_eq (c : Dev nD) (t : Fin cfg0.N) (hf : (cfg0.win 4).flush t = true) :
    (dat0 (F := Ideal) V c).flushed 4 t = ((cfg0.win 4).blk t).view.read (Elt Ideal) (SArr V c) := by
  have h7 : t.val % 8 = 7 := (flush0_4 t).mp hf
  have hi := (idx_facts0 t).2.2.2.2.1
  show (cfg0.win 4).cut (grid0.coords t) ((dat0 (F := Ideal) V c).after 4 t) = _
  rw [after0_4]
  funext j
  have hj0 : (j 0).val < 2048 := (j 0).isLt
  have hj1 : (j 1).val < 32 := (j 1).isLt
  show (outAt0 V c t).1 (win0_4.xinj (grid0.coords t) j) = SArr V c (((cfg0.win 4).blk t).view.emb j)
  have e : win0_4.xinj (grid0.coords t) j = ix2 (⟨(j 0).val, hj0⟩ : Fin 2048) (⟨(j 1).val, hj1⟩ : Fin 32) :=
    funext fun a => by match a with | ⟨0, _⟩ => rfl | ⟨1, _⟩ => rfl
  rw [e]
  exact outAt0_fst_idx V c t h7 _ _ _
    (by show win0_4.index t 0 * 2048 + 1 * (j 0).val = 2048 * (t.val / 8) + (j 0).val; rw [hi.1]; omega)
    (by show win0_4.index t 1 * 32 + 1 * (j 1).val = (j 1).val; rw [hi.2]; omega)

/-- The same for the embedding array and Z. -/
theorem flushed0_5_eq (c : Dev nD) (t : Fin cfg0.N) (hf : (cfg0.win 5).flush t = true) :
    (dat0 (F := Ideal) V c).flushed 5 t = ((cfg0.win 5).blk t).view.read (Elt Ideal) (ZArr V c) := by
  have h7 : t.val % 8 = 7 := (flush0_5 t).mp hf
  have hi := (idx_facts0 t).2.2.2.2.2
  show (cfg0.win 5).cut (grid0.coords t) ((dat0 (F := Ideal) V c).after 5 t) = _
  rw [after0_5]
  funext j
  have hj0 : (j 0).val < 2048 := (j 0).isLt
  have hj1 : (j 1).val < 64 := (j 1).isLt
  show (outAt0 V c t).2 (win0_5.xinj (grid0.coords t) j) = ZArr V c (((cfg0.win 5).blk t).view.emb j)
  have e : win0_5.xinj (grid0.coords t) j = ix2 (⟨(j 0).val, hj0⟩ : Fin 2048) (⟨(j 1).val, hj1⟩ : Fin 64) :=
    funext fun a => by match a with | ⟨0, _⟩ => rfl | ⟨1, _⟩ => rfl
  rw [e]
  exact outAt0_snd_idx V c t h7 _ _ _
    (by show win0_5.index t 0 * 2048 + 1 * (j 0).val = 2048 * (t.val / 8) + (j 0).val; rw [hi.1]; omega)
    (by show win0_5.index t 1 * 64 + 1 * (j 1).val = (j 1).val; rw [hi.2]; omega)

/-- An index of the assignment array lies in point t's block iff each coordinate is in the block's range. -/
theorem mem_blk0_4 (t : Fin cfg0.N) (i : S8192x32.Idx) :
    i ∈ ((cfg0.win 4).blk t).view.set ↔ ∀ a : Fin 2, win0_4.index t a * S2048x32.size a ≤ (i a).val ∧ (i a).val < win0_4.index t a * S2048x32.size a + S2048x32.size a := by
  show i ∈ ((View.whole main_v0_0).slice (win0_4.rect t)).set ↔ _
  rw [View.set_slice_whole, Rect.mem_set_unit]
  exact Iff.rfl

theorem mem_blk0_5 (t : Fin cfg0.N) (i : S8192x64.Idx) :
    i ∈ ((cfg0.win 5).blk t).view.set ↔ ∀ a : Fin 2, win0_5.index t a * S2048x64.size a ≤ (i a).val ∧ (i a).val < win0_5.index t a * S2048x64.size a + S2048x64.size a := by
  show i ∈ ((View.whole main_v0_1).slice (win0_5.rect t)).set ↔ _
  rw [View.set_slice_whole, Rect.mem_set_unit]
  exact Iff.rfl

/-- Row R of either output array is written back by the last point of its row tile, 8 (R / 2048) + 7. -/
theorem cover0_4 (i : S8192x32.Idx) : ∃ t : Fin cfg0.N, (cfg0.win 4).flush t = true ∧ i ∈ ((cfg0.win 4).blk t).view.set := by
  have hi0 : (i 0).val < 8192 := (i 0).isLt
  have hi1 : (i 1).val < 32 := (i 1).isLt
  have hN : cfg0.N = 32 := N_0
  have ht : 8 * ((i 0).val / 2048) + 7 < cfg0.N := by omega
  have hi := (idx_facts0 ⟨8 * ((i 0).val / 2048) + 7, ht⟩).2.2.2.2.1
  have q0 : win0_4.index ⟨8 * ((i 0).val / 2048) + 7, ht⟩ 0 = (8 * ((i 0).val / 2048) + 7) / 8 := hi.1
  have q1 : win0_4.index ⟨8 * ((i 0).val / 2048) + 7, ht⟩ 1 = 0 := hi.2
  refine ⟨⟨8 * ((i 0).val / 2048) + 7, ht⟩, (flush0_4 _).mpr (by show (8 * ((i 0).val / 2048) + 7) % 8 = 7; omega), ?_⟩
  rw [mem_blk0_4]
  intro a
  match a with
  | ⟨0, _⟩ =>
    show win0_4.index ⟨8 * ((i 0).val / 2048) + 7, ht⟩ 0 * 2048 ≤ (i 0).val ∧ (i 0).val < win0_4.index ⟨8 * ((i 0).val / 2048) + 7, ht⟩ 0 * 2048 + 2048
    rw [q0]; omega
  | ⟨1, _⟩ =>
    show win0_4.index ⟨8 * ((i 0).val / 2048) + 7, ht⟩ 1 * 32 ≤ (i 1).val ∧ (i 1).val < win0_4.index ⟨8 * ((i 0).val / 2048) + 7, ht⟩ 1 * 32 + 32
    rw [q1]; omega

theorem cover0_5 (i : S8192x64.Idx) : ∃ t : Fin cfg0.N, (cfg0.win 5).flush t = true ∧ i ∈ ((cfg0.win 5).blk t).view.set := by
  have hi0 : (i 0).val < 8192 := (i 0).isLt
  have hi1 : (i 1).val < 64 := (i 1).isLt
  have hN : cfg0.N = 32 := N_0
  have ht : 8 * ((i 0).val / 2048) + 7 < cfg0.N := by omega
  have hi := (idx_facts0 ⟨8 * ((i 0).val / 2048) + 7, ht⟩).2.2.2.2.2
  have q0 : win0_5.index ⟨8 * ((i 0).val / 2048) + 7, ht⟩ 0 = (8 * ((i 0).val / 2048) + 7) / 8 := hi.1
  have q1 : win0_5.index ⟨8 * ((i 0).val / 2048) + 7, ht⟩ 1 = 0 := hi.2
  refine ⟨⟨8 * ((i 0).val / 2048) + 7, ht⟩, (flush0_5 _).mpr (by show (8 * ((i 0).val / 2048) + 7) % 8 = 7; omega), ?_⟩
  rw [mem_blk0_5]
  intro a
  match a with
  | ⟨0, _⟩ =>
    show win0_5.index ⟨8 * ((i 0).val / 2048) + 7, ht⟩ 0 * 2048 ≤ (i 0).val ∧ (i 0).val < win0_5.index ⟨8 * ((i 0).val / 2048) + 7, ht⟩ 0 * 2048 + 2048
    rw [q0]; omega
  | ⟨1, _⟩ =>
    show win0_5.index ⟨8 * ((i 0).val / 2048) + 7, ht⟩ 1 * 64 ≤ (i 1).val ∧ (i 1).val < win0_5.index ⟨8 * ((i 0).val / 2048) + 7, ht⟩ 1 * 64 + 64
    rw [q1]; omega

/-- After the first call its first output array holds the cluster assignment S of the argument arrays, -/
theorem final0_4 (c : Dev nD) : (dat0 (F := Ideal) V c).arrAt 4 cfg0.N
    = fun i : S8192x32.Idx => Cert.Spec.S (mat (V c main_arg0)) (mat (V c main_arg1)) (mat (V c main_arg2)) ⟨(i 0).val, (i 0).isLt⟩ ⟨(i 1).val, (i 1).isLt⟩ :=
  (dat0 (F := Ideal) V c).arrAt_eq_of_cover 4 (SArr V c) (fun t hf => flushed0_4_eq V c t hf) cover0_4

/-- and its second the embedding Z. -/
theorem final0_5 (c : Dev nD) : (dat0 (F := Ideal) V c).arrAt 5 cfg0.N
    = fun i : S8192x64.Idx => Cert.Spec.Z (mat (V c main_arg0)) (mat (V c main_arg1)) (mat (V c main_arg3)) ⟨(i 0).val, (i 0).isLt⟩ ⟨(i 1).val, (i 1).isLt⟩ :=
  (dat0 (F := Ideal) V c).arrAt_eq_of_cover 5 (ZArr V c) (fun t hf => flushed0_5_eq V c t hf) cover0_5

end Cert.KernelIdeal.Hand

end
-- ==== Proof.KIVal1.lean ====
/-
  What the second call leaves in its two output arrays, as the specification's functions of the arrays it finds.

  The call visits the 32 graphs in turn. At graph g its three input blocks are rows 256 g … 256 g + 255 of the
  assignment S and of the embedding Z, and the g-th diagonal 256 × 256 block of the propagation matrix A; read at
  (n, k), a block's entry is the whole array's entry at row (g, n) (and, for the diagonal block, column (g, m)).
  The body stores S_gᵀ Z_g and S_gᵀ (A_g S_g), so what the point writes back is block g of two functions of the
  whole arrays: rows 32 g … 32 g + 31 of the coarse features, i ↦ cx S Z (i / 32) (i mod 32), and slab g of the
  coarse adjacency, blkK A S g. The blocks written back tile both output arrays (row i lies in block i / 32, slab g
  is block g), so after the last point each output array is that function everywhere.
-/
import proofs.«121435_j89764816486779_1_alg».proof.Proof.KIReg1
import proofs.«121435_j89764816486779_1_alg».proof.Proof.Pay
import proofs.«121435_j89764816486779_1_alg».proof.Proof.SpecMat
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx

variable (V : (c : Dev nD) → (b : Ref sig .tc) → Buf (Elt Ideal) ((c : Thread nD τ).loc b))

/-! ## The grid point's graph, and where each window's block sits -/

/-- The graph a grid point works on: the point's own number. -/
def graphOf (t : Fin cfg1.N) : Fin 32 := ⟨t.val, Nat.lt_of_lt_of_eq t.isLt N_1⟩

theorem graphOf_val (t : Fin cfg1.N) : (graphOf t).val = t.val := rfl

/-- The block index of every window at every point, decided over the 32 points: the row blocks of S, Z and the
    coarse features and the slab of the coarse adjacency are at (g, 0, …), the propagation matrix's block at (g, g). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = t.val
    ∧ win1_3.index t (0 : Fin 2) = t.val ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The input blocks, read at an entry -/

/-- Entry (n, k) of the assignment's block at graph g is S (g, n) k. -/
theorem sblock_apply (c : Dev nD) (t : Fin cfg1.N) (n : Fin 256) (k : Fin 32) :
    (iblk1 V c 0 t : Vec Ideal S256x32 .f32) (ix2 n k) = mat (V c main_v0_0) (row (graphOf t) n) k := by
  obtain ⟨e0, e1, -⟩ := index_facts1 t
  unfold iblk1
  rw [View.read_apply]
  show V c main_v0_0 _ = V c main_v0_0 (ix2 (row (graphOf t) n) k)
  congr 1
  funext a
  apply Fin.ext
  match a with
  | ⟨0, _⟩ => show win1_0.index t (0 : Fin 2) * 256 + 1 * n.val = 256 * t.val + n.val; rw [e0]; omega
  | ⟨1, _⟩ => show win1_0.index t (1 : Fin 2) * 32 + 1 * k.val = k.val; rw [e1]; omega

/-- Entry (n, f) of the embedding's block at graph g is Z (g, n) f. -/
theorem zblock_apply (c : Dev nD) (t : Fin cfg1.N) (n : Fin 256) (f : Fin 64) :
    (iblk1 V c 1 t : Vec Ideal S256x64 .f32) (ix2 n f) = mat (V c main_v0_1) (row (graphOf t) n) f := by
  obtain ⟨-, -, e0, e1, -⟩ := index_facts1 t
  unfold iblk1
  rw [View.read_apply]
  show V c main_v0_1 _ = V c main_v0_1 (ix2 (row (graphOf t) n) f)
  congr 1
  funext a
  apply Fin.ext
  match a with
  | ⟨0, _⟩ => show win1_1.index t (0 : Fin 2) * 256 + 1 * n.val = 256 * t.val + n.val; rw [e0]; omega
  | ⟨1, _⟩ => show win1_1.index t (1 : Fin 2) * 64 + 1 * f.val = f.val; rw [e1]; omega

/-- Entry (n, m) of the propagation matrix's block at graph g is A (g, n) (g, m): the g-th diagonal block. -/
theorem ablock_apply (c : Dev nD) (t : Fin cfg1.N) (n m : Fin 256) :
    (iblk1 V c 2 t : Vec Ideal S256x256 .f32) (ix2 n m) = mat (V c main_arg0) (row (graphOf t) n) (row (graphOf t) m) := by
  obtain ⟨-, -, -, -, e0, e1, -⟩ := index_facts1 t
  unfold iblk1
  rw [View.read_apply]
  show V c main_arg0 _ = V c main_arg0 (ix2 (row (graphOf t) n) (row (graphOf t) m))
  congr 1
  funext a
  apply Fin.ext
  match a with
  | ⟨0, _⟩ => show win1_2.index t (0 : Fin 2) * 256 + 1 * n.val = 256 * t.val + n.val; rw [e0]; omega
  | ⟨1, _⟩ => show win1_2.index t (1 : Fin 2) * 256 + 1 * m.val = 256 * t.val + m.val; rw [e1]; omega

/-! ## The coarse features -/

/-- The coarse-feature array as the specification's function of the assignment and the embedding: row i holds
    cluster i mod 32 of graph i / 32. -/
abbrev cxArr (c : Dev nD) : S1024x64.Idx → EReal := fun i =>
  cx (mat (V c main_v0_0)) (mat (V c main_v0_1)) ⟨(i 0).val / 32, by have := idx2_lt0 i; omega⟩
    ⟨(i 0).val % 32, Nat.mod_lt _ (by decide)⟩ ⟨(i 1).val, idx2_lt1 i⟩

/-- It is cx g k f at any row 32 g + k and column f. -/
theorem cxArr_apply (c : Dev nD) (i : S1024x64.Idx) (g k : Fin 32) (f : Fin 64)
    (h0 : (i 0).val = 32 * g.val + k.val) (h1 : (i 1).val = f.val) :
    cxArr V c i = cx (mat (V c main_v0_0)) (mat (V c main_v0_1)) g k f := by
  have eg : (⟨(i 0).val / 32, by have := idx2_lt0 i; omega⟩ : Fin 32) = g := Fin.ext (by show (i 0).val / 32 = g.val; omega)
  have ek : (⟨(i 0).val % 32, Nat.mod_lt _ (by decide)⟩ : Fin 32) = k := Fin.ext (by show (i 0).val % 32 = k.val; omega)
  have ef : (⟨(i 1).val, idx2_lt1 i⟩ : Fin 64) = f := Fin.ext h1
  show cx _ _ (⟨(i 0).val / 32, _⟩ : Fin 32) (⟨(i 0).val % 32, _⟩ : Fin 32) (⟨(i 1).val, _⟩ : Fin 64) = _
  rw [eg, ek, ef]

/-- The body's first stored value at graph g, entry (k, f): Σ_n S (g, n) k · Z (g, n) f. -/
theorem features_point (c : Dev nD) (t : Fin cfg1.N) (k : Fin 32) (f : Fin 64) :
    k1_pay2 (F := Ideal) (iblk1 V c 0 t) (iblk1 V c 1 t) (ix2 k f)
      = cx (mat (V c main_v0_0)) (mat (V c main_v0_1)) (graphOf t) k f := by
  refine (Cert.KernelIdeal.Pay.k1_pay2_apply _ _ k f).trans ?_
  unfold cx
  refine Finset.sum_congr rfl fun n _ => ?_
  rw [sblock_apply, zblock_apply]

/-- What point g writes back to the coarse features is block g of `cxArr`. -/
theorem flushed1_3_eq (c : Dev nD) (t : Fin cfg1.N) :
    (dat1 (F := Ideal) V c).flushed 3 t = ((cfg1.win 3).blk t).view.read (Elt Ideal) (cxArr V c) := by
  show (cfg1.win 3).cut (grid1.coords t) ((dat1 V c).after 3 t) = _
  rw [after1_3]
  unfold out1_3
  rw [View.canon_unit_zero zeros2]
  simp only [View.ld_unit_zero (S := S256x32) zeros2, View.ld_unit_zero (S := S256x64) zeros2]
  obtain ⟨-, -, -, -, -, -, e0, e1, -⟩ := index_facts1 t
  funext j
  have hj0 : (j 0).val < 32 := (j 0).isLt
  have hj1 : (j 1).val < 64 := (j 1).isLt
  have hx : (cfg1.win 3).xinj (grid1.coords t) j = ix2 (⟨(j 0).val, hj0⟩ : Fin 32) (⟨(j 1).val, hj1⟩ : Fin 64) := by
    funext a
    match a with
    | ⟨0, _⟩ => rfl
    | ⟨1, _⟩ => rfl
  show k1_pay2 (F := Ideal) (iblk1 V c 0 t) (iblk1 V c 1 t) ((cfg1.win 3).xinj (grid1.coords t) j)
    = cxArr V c (((cfg1.win 3).blk t).view.emb j)
  refine (congrArg (k1_pay2 (F := Ideal) (iblk1 V c 0 t) (iblk1 V c 1 t)) hx).trans ?_
  refine (features_point V c t _ _).trans ?_
  refine (cxArr_apply V c _ (graphOf t) ⟨(j 0).val, hj0⟩ ⟨(j 1).val, hj1⟩ ?_ ?_).symm
  · show win1_3.index t (0 : Fin 2) * 32 + 1 * (j 0).val = 32 * t.val + (j 0).val; rw [e0]; omega
  · show win1_3.index t (1 : Fin 2) * 64 + 1 * (j 1).val = (j 1).val; rw [e1]; omega

/-- Row i of the coarse features lies in the block point i / 32 writes back. -/
theorem cover1_3_arr (i : S1024x64.Idx) :
    ∃ t : Fin cfg1.N, (cfg1.win 3).flush t = true ∧ i ∈ ((cfg1.win 3).blk t).view.set := by
  have h0 : (i 0).val < 1024 := idx2_lt0 i
  have h1 : (i 1).val < 64 := idx2_lt1 i
  have ht : (i 0).val / 32 < cfg1.N := by rw [show cfg1.N = 32 from N_1]; omega
  refine ⟨⟨(i 0).val / 32, ht⟩, flush1_3 _, ?_⟩
  obtain ⟨-, -, -, -, -, -, e0, e1, -⟩ := index_facts1 ⟨(i 0).val / 32, ht⟩
  show i ∈ ((View.whole main_v1_0).slice (win1_3.rect ⟨(i 0).val / 32, ht⟩)).set
  rw [View.set_slice_whole, Rect.mem_set_unit]
  intro a
  match a with
  | ⟨0, _⟩ =>
    show win1_3.index ⟨(i 0).val / 32, ht⟩ (0 : Fin 2) * 32 ≤ (i 0).val
      ∧ (i 0).val < win1_3.index ⟨(i 0).val / 32, ht⟩ (0 : Fin 2) * 32 + 32
    rw [e0]; show (i 0).val / 32 * 32 ≤ (i 0).val ∧ (i 0).val < (i 0).val / 32 * 32 + 32; omega
  | ⟨1, _⟩ =>
    show win1_3.index ⟨(i 0).val / 32, ht⟩ (1 : Fin 2) * 64 ≤ (i 1).val
      ∧ (i 1).val < win1_3.index ⟨(i 0).val / 32, ht⟩ (1 : Fin 2) * 64 + 64
    rw [e1]; omega

/-- After the call the coarse-feature array is `cxArr`: row i, column f holds cx S Z (i / 32) (i mod 32) f. -/
theorem final1_3 (c : Dev nD) : (dat1 (F := Ideal) V c).arrAt 3 cfg1.N
    = fun i : S1024x64.Idx => Cert.Spec.cx (mat (V c main_v0_0)) (mat (V c main_v0_1))
        ⟨(i 0).val / 32, by have := idx2_lt0 i; omega⟩ ⟨(i 0).val % 32, Nat.mod_lt _ (by decide)⟩ ⟨(i 1).val, idx2_lt1 i⟩ :=
  (dat1 (F := Ideal) V c).arrAt_eq_of_cover 3 (cxArr V c) (fun t _ => flushed1_3_eq V c t) cover1_3_arr

/-! ## The coarse adjacency -/

/-- The coarse-adjacency array as the specification's function of the propagation matrix and the assignment:
    slab g is the kernel-order block S_gᵀ (A_g S_g). -/
abbrev adjArr (c : Dev nD) : S32x32x32.Idx → EReal := fun i =>
  blkK (mat (V c main_arg0)) (mat (V c main_v0_0)) ⟨(i 0).val, (i 0).isLt⟩ ⟨(i 1).val, (i 1).isLt⟩ ⟨(i 2).val, (i 2).isLt⟩

theorem adjArr_apply (c : Dev nD) (i : S32x32x32.Idx) (g k d : Fin 32)
    (h0 : (i 0).val = g.val) (h1 : (i 1).val = k.val) (h2 : (i 2).val = d.val) :
    adjArr V c i = blkK (mat (V c main_arg0)) (mat (V c main_v0_0)) g k d := by
  have eg : (⟨(i 0).val, (i 0).isLt⟩ : Fin 32) = g := Fin.ext h0
  have ek : (⟨(i 1).val, (i 1).isLt⟩ : Fin 32) = k := Fin.ext h1
  have ed : (⟨(i 2).val, (i 2).isLt⟩ : Fin 32) = d := Fin.ext h2
  show blkK _ _ (⟨(i 0).val, _⟩ : Fin 32) (⟨(i 1).val, _⟩ : Fin 32) (⟨(i 2).val, _⟩ : Fin 32) = _
  rw [eg, ek, ed]

/-- The body's second stored value at graph g, entry (0, k, d): Σ_n S (g, n) k · Σ_m A (g, n) (g, m) · S (g, m) d. -/
theorem adjacency_point (c : Dev nD) (t : Fin cfg1.N) (k d : Fin 32) :
    k1_pay3 (F := Ideal) (iblk1 V c 0 t) (iblk1 V c 2 t) (ix3 (0 : Fin 1) k d)
      = blkK (mat (V c main_arg0)) (mat (V c main_v0_0)) (graphOf t) k d := by
  refine (Cert.KernelIdeal.Pay.k1_pay3_apply _ _ k d).trans ?_
  unfold blkK
  refine Finset.sum_congr rfl fun n _ => ?_
  rw [sblock_apply]
  refine congrArg (mat (V c main_v0_0) (row (graphOf t) n) k * ·) (Finset.sum_congr rfl fun m _ => ?_)
  rw [ablock_apply, sblock_apply]

/-- What point g writes back to the coarse adjacency is slab g of `adjArr`. -/
theorem flushed1_4_eq (c : Dev nD) (t : Fin cfg1.N) :
    (dat1 (F := Ideal) V c).flushed 4 t = ((cfg1.win 4).blk t).view.read (Elt Ideal) (adjArr V c) := by
  show (cfg1.win 4).cut (grid1.coords t) ((dat1 V c).after 4 t) = _
  rw [after1_4]
  unfold out1_4
  rw [View.canon_unit_zero zeros3]
  simp only [View.ld_unit_zero (S := S256x32) zeros2, View.ld_unit_zero (S := S256x256) zeros2]
  obtain ⟨-, -, -, -, -, -, -, -, e0, e1, e2⟩ := index_facts1 t
  funext j
  have hj0 : (j 0).val < 1 := (j 0).isLt
  have hj1 : (j 1).val < 32 := (j 1).isLt
  have hj2 : (j 2).val < 32 := (j 2).isLt
  have hx : (cfg1.win 4).xinj (grid1.coords t) j = ix3 (0 : Fin 1) (⟨(j 1).val, hj1⟩ : Fin 32) (⟨(j 2).val, hj2⟩ : Fin 32) := by
    funext a
    match a with
    | ⟨0, _⟩ => exact Fin.ext (by show (j 0).val = 0; omega)
    | ⟨1, _⟩ => rfl
    | ⟨2, _⟩ => rfl
  show k1_pay3 (F := Ideal) (iblk1 V c 0 t) (iblk1 V c 2 t) ((cfg1.win 4).xinj (grid1.coords t) j)
    = adjArr V c (((cfg1.win 4).blk t).view.emb j)
  refine (congrArg (k1_pay3 (F := Ideal) (iblk1 V c 0 t) (iblk1 V c 2 t)) hx).trans ?_
  refine (adjacency_point V c t _ _).trans ?_
  refine (adjArr_apply V c _ (graphOf t) ⟨(j 1).val, hj1⟩ ⟨(j 2).val, hj2⟩ ?_ ?_ ?_).symm
  · show win1_4.index t (0 : Fin 3) * 1 + 1 * (j 0).val = t.val; rw [e0]; omega
  · show win1_4.index t (1 : Fin 3) * 32 + 1 * (j 1).val = (j 1).val; rw [e1]; omega
  · show win1_4.index t (2 : Fin 3) * 32 + 1 * (j 2).val = (j 2).val; rw [e2]; omega

/-- Slab g of the coarse adjacency is the block point g writes back. -/
theorem cover1_4_arr (i : S32x32x32.Idx) :
    ∃ t : Fin cfg1.N, (cfg1.win 4).flush t = true ∧ i ∈ ((cfg1.win 4).blk t).view.set := by
  have h0 : (i 0).val < 32 := (i 0).isLt
  have h1 : (i 1).val < 32 := (i 1).isLt
  have h2 : (i 2).val < 32 := (i 2).isLt
  have ht : (i 0).val < cfg1.N := by rw [show cfg1.N = 32 from N_1]; exact h0
  refine ⟨⟨(i 0).val, ht⟩, flush1_4 _, ?_⟩
  obtain ⟨-, -, -, -, -, -, -, -, e0, e1, e2⟩ := index_facts1 ⟨(i 0).val, ht⟩
  show i ∈ ((View.whole main_v1_1).slice (win1_4.rect ⟨(i 0).val, ht⟩)).set
  rw [View.set_slice_whole, Rect.mem_set_unit]
  intro a
  match a with
  | ⟨0, _⟩ =>
    show win1_4.index ⟨(i 0).val, ht⟩ (0 : Fin 3) * 1 ≤ (i 0).val ∧ (i 0).val < win1_4.index ⟨(i 0).val, ht⟩ (0 : Fin 3) * 1 + 1
    rw [e0]; show (i 0).val * 1 ≤ (i 0).val ∧ (i 0).val < (i 0).val * 1 + 1; omega
  | ⟨1, _⟩ =>
    show win1_4.index ⟨(i 0).val, ht⟩ (1 : Fin 3) * 32 ≤ (i 1).val ∧ (i 1).val < win1_4.index ⟨(i 0).val, ht⟩ (1 : Fin 3) * 32 + 32
    rw [e1]; omega
  | ⟨2, _⟩ =>
    show win1_4.index ⟨(i 0).val, ht⟩ (2 : Fin 3) * 32 ≤ (i 2).val ∧ (i 2).val < win1_4.index ⟨(i 0).val, ht⟩ (2 : Fin 3) * 32 + 32
    rw [e2]; omega

/-- After the call the coarse-adjacency array is `adjArr`: entry (g, k, d) holds blkK A S g k d. -/
theorem final1_4 (c : Dev nD) : (dat1 (F := Ideal) V c).arrAt 4 cfg1.N
    = fun i : S32x32x32.Idx => Cert.Spec.blkK (mat (V c main_arg0)) (mat (V c main_v0_0))
        ⟨(i 0).val, (i 0).isLt⟩ ⟨(i 1).val, (i 1).isLt⟩ ⟨(i 2).val, (i 2).isLt⟩ :=
  (dat1 (F := Ideal) V c).arrAt_eq_of_cover 4 (adjArr V c) (fun t _ => flushed1_4_eq V c t) cover1_4_arr

end Cert.KernelIdeal.Hand

end
-- ==== Proof.KIValue.lean ====
/-
  The results of the kernel's program at the ideal instance. After the first call its two output arrays hold the
  cluster assignment S and the embedding Z of the specification; the second call reads them (and the propagation
  matrix, untouched) and leaves the coarse features Σ_n S(g,n) c · Z(g,n) f and the per-graph blocks
  S_gᵀ (A_g S_g); the host stretch scatters the blocks onto the diagonal and writes the coarse node indicator.
-/
import proofs.«121435_j89764816486779_1_alg».proof.Proof.KIFrame
import proofs.«121435_j89764816486779_1_alg».proof.Proof.KITail
import proofs.«121435_j89764816486779_1_alg».proof.Proof.KIVal0
import proofs.«121435_j89764816486779_1_alg».proof.Proof.KIVal1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Idealize.ShloMosaic.ValueIdx

variable (m : (ℓ : Loc nD τ sig) → Buf (Elt Ideal) ℓ) (ρ : Dev nD → PrngReg)

/-! ## The arguments as matrices, and the first call's results as arrays -/

abbrev Aof (c : Dev nD) : Fin 8192 → Fin 8192 → EReal := mat (m ((c : Thread nD τ).loc main_arg0))
abbrev Xof (c : Dev nD) : Fin 8192 → Fin 64 → EReal := mat (m ((c : Thread nD τ).loc main_arg1))
abbrev Wpof (c : Dev nD) : Fin 64 → Fin 32 → EReal := mat (m ((c : Thread nD τ).loc main_arg2))
abbrev Weof (c : Dev nD) : Fin 64 → Fin 64 → EReal := mat (m ((c : Thread nD τ).loc main_arg3))

/-- The cluster assignment as an [8192, 32] array. -/
def assignArr (c : Dev nD) : S8192x32.Idx → EReal :=
  fun i => Cert.Spec.S (Aof m c) (Xof m c) (Wpof m c) ⟨(i 0).val, (i 0).isLt⟩ ⟨(i 1).val, (i 1).isLt⟩
/-- The embedding as an [8192, 64] array. -/
def embedArr (c : Dev nD) : S8192x64.Idx → EReal :=
  fun i => Cert.Spec.Z (Aof m c) (Xof m c) (Weof m c) ⟨(i 0).val, (i 0).isLt⟩ ⟨(i 1).val, (i 1).isLt⟩

theorem mat_assignArr (c : Dev nD) : mat (assignArr m c) = Cert.Spec.S (Aof m c) (Xof m c) (Wpof m c) := by
  funext r j; rfl
theorem mat_embedArr (c : Dev nD) : mat (embedArr m c) = Cert.Spec.Z (Aof m c) (Xof m c) (Weof m c) := by
  funext r j; rfl

/-- What the second call finds in the first call's output arrays, and in the propagation matrix. -/
theorem V1_S (c : Dev nD) : V1 m ρ c main_v0_0 = assignArr m c := (W1_arr m ρ c 4).trans (final0_4 (V0 m ρ) c)
theorem V1_Z (c : Dev nD) : V1 m ρ c main_v0_1 = embedArr m c := (W1_arr m ρ c 5).trans (final0_5 (V0 m ρ) c)
theorem V1_A (c : Dev nD) : V1 m ρ c main_arg0 = m ((c : Thread nD τ).loc main_arg0) :=
  (W1_arr m ρ c 0).trans (((dat0 (V0 m ρ) c).arrAt_in 0 rfl _).trans (A_eq0 (V0 m ρ) c 0))

/-! ## The three results -/

/-- The coarse features. -/
def featuresArr (c : Dev nD) : S1024x64.Idx → EReal :=
  fun i => Cert.Spec.cx (Cert.Spec.S (Aof m c) (Xof m c) (Wpof m c)) (Cert.Spec.Z (Aof m c) (Xof m c) (Weof m c))
    ⟨(i 0).val / 32, by have := idx2_lt0 i; omega⟩ ⟨(i 0).val % 32, Nat.mod_lt _ (by decide)⟩ ⟨(i 1).val, idx2_lt1 i⟩
/-- The per-graph blocks, in the kernel's order of summation. -/
def blocksArr (c : Dev nD) : S32x32x32.Idx → EReal :=
  fun i => Cert.Spec.blkK (Aof m c) (Cert.Spec.S (Aof m c) (Xof m c) (Wpof m c)) ⟨(i 0).val, (i 0).isLt⟩ ⟨(i 1).val, (i 1).isLt⟩ ⟨(i 2).val, (i 2).isLt⟩

theorem W3_v1_0 (c : Dev nD) : W3 m ρ c (Proc.devRef .tc main_v1_0) = featuresArr m c :=
  (W3_of m ρ c main_v1_0 (by decide)).trans <| (W2_arr m ρ c 3).trans <| (final1_3 (V1 m ρ) c).trans <| by
    rw [V1_S m ρ c, V1_Z m ρ c, mat_assignArr, mat_embedArr]; rfl

theorem W3_v18 (c : Dev nD) : W3 m ρ c (Proc.devRef .tc main_v18) = coarseA (F := Ideal) (blocksArr m c) :=
  (after_v18 (W2 m ρ c)).trans <| congrArg (coarseA (F := Ideal)) <| (W2_arr m ρ c 4).trans <| (final1_4 (V1 m ρ) c).trans <| by
    rw [V1_A m ρ c, V1_S m ρ c, mat_assignArr]; rfl

theorem W3_v21 (c : Dev nD) : W3 m ρ c (Proc.devRef .tc main_v21) = coarseIds (F := Ideal) :=
  after_v21 (W2 m ρ c)

/-- THE RUN WITH ITS RESULTS: every weakly fair execution of @main terminates, nothing faulting, with the coarse
    adjacency, the coarse features and the coarse node indicator at the functions above, and the arguments as
    launched. -/
theorem run_value : θ_run defs (onTc (τ := τ) (main (F := Ideal))) ⟨m, fun _ => 0, ρ⟩ (fun r => ∀ c : Dev nD,
      r.2.mem ((c.tc : Thread nD τ).loc main_v18) = coarseA (F := Ideal) (blocksArr m c)
      ∧ r.2.mem ((c.tc : Thread nD τ).loc main_v1_0) = featuresArr m c
      ∧ r.2.mem ((c.tc : Thread nD τ).loc main_v21) = coarseIds (F := Ideal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v18 (by decide))).trans (W3_v18 m ρ c),
     (h c _ (mem_uc main_v1_0 (by decide))).trans (W3_v1_0 m ρ c),
     (h c _ (mem_uc main_v21 (by decide))).trans (W3_v21 m ρ c),
     (h c _ (mem_uc main_arg0 (by decide))).trans (W3_arg0 m ρ c),
     (h c _ (mem_uc main_arg1 (by decide))).trans (W3_arg1 m ρ c),
     (h c _ (mem_uc main_arg2 (by decide))).trans (W3_arg2 m ρ c),
     (h c _ (mem_uc main_arg3 (by decide))).trans (W3_arg3 m ρ c),
     (h c _ (mem_uc main_arg4 (by decide))).trans (W3_arg4 m ρ c)⟩) (run_all m ρ)

end Cert.KernelIdeal.Hand

end
-- ==== Proof.RefValue.lean ====
/-
  The reference program's results as the specification's functions.

  Stage by stage: the two products X · W and A · (X · W) are the sums `xw` and `axw`; the maximum with a
  broadcast zero is `relu`; the row-wise softmax (the row's maximum taken as a fold from −∞, subtracted, exponentiated,
  divided by the row's sum) is `S`; the batched contractions over the 256 nodes of a graph are `cx` and `blkR`.
-/
import proofs.«121435_j89764816486779_1_alg».proof.Defs
import proofs.«121435_j89764816486779_1_alg».proof.Proof.Gen.ReferenceIdeal.Run
import proofs.«121435_j89764816486779_1_alg».proof.Proof.Gen.ReferenceIdeal.Read
import proofs.«121435_j89764816486779_1_alg».proof.Proof.Spec
import proofs.«121435_j89764816486779_1_alg».proof.Proof.SpecMat
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Spec

/-! ## The two graph-convolution products and relu -/

/-- %0 = X · Wp at (j, c): the sum over the 64 features. -/
theorem v0_apply (x1 : (⟨S8192x64, .f32⟩ : BufTy).Contents (Elt Ideal)) (x2 : (⟨S64x32, .f32⟩ : BufTy).Contents (Elt Ideal))
    (j : Fin 8192) (c : Fin 32) :
    val_main_v0 (F := Ideal) x1 x2 (ix2 j c) = xw (mat x1) (mat x2) j c := by
  rw [val_main_v0_apply]
  unfold xw
  refine Finset.sum_congr rfl fun k _ => ?_
  have el : lidx_main_v0 (ix2 j c) k = ix2 j k := funext fun a => by
    match a with
    | ⟨0, _⟩ => rfl
    | ⟨1, _⟩ => rfl
  have er : ridx_main_v0 (ix2 j c) k = ix2 k c := funext fun a => by
    match a with
    | ⟨0, _⟩ => rfl
    | ⟨1, _⟩ => rfl
  rw [el, er]
  rfl

/-- %1 = A · (X · Wp) at (r, c): the sum over the 8192 rows of X · Wp. -/
theorem v1_apply (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (r : Fin 8192) (c : Fin 32) :
    val_main_v1 (F := Ideal) x0 x1 x2 (ix2 r c) = axw (mat x0) (mat x1) (mat x2) r c := by
  rw [val_main_v1_apply]
  unfold axw
  refine Finset.sum_congr rfl fun k _ => ?_
  have el : lidx_main_v1 (ix2 r c) k = ix2 r k := funext fun a => by
    match a with
    | ⟨0, _⟩ => rfl
    | ⟨1, _⟩ => rfl
  have er : ridx_main_v1 (ix2 r c) k = ix2 k c := funext fun a => by
    match a with
    | ⟨0, _⟩ => rfl
    | ⟨1, _⟩ => rfl
  rw [el, er, v0_apply]
  rfl

/-- %2 = relu (A · (X · Wp)) at (r, c): the maximum with the broadcast zero. -/
theorem v2_apply (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (r : Fin 8192) (c : Fin 32) :
    val_main_v2 (F := Ideal) x0 x1 x2 (ix2 r c) = relu (axw (mat x0) (mat x1) (mat x2) r c) := by
  rw [val_main_v2_apply, val_main_call0_v0_apply, val_main_call0_cst_apply, v1_apply, Ideal.maximumf_def, Ideal.ofBits_def,
    Ideal.ofBits_zero_f32]
  rfl

/-- %3 = X · We at (j, f). -/
theorem v3_apply (x1 : (⟨S8192x64, .f32⟩ : BufTy).Contents (Elt Ideal)) (x3 : (⟨S64x64, .f32⟩ : BufTy).Contents (Elt Ideal))
    (j : Fin 8192) (f : Fin 64) :
    val_main_v3 (F := Ideal) x1 x3 (ix2 j f) = xw (mat x1) (mat x3) j f := by
  rw [val_main_v3_apply]
  unfold xw
  refine Finset.sum_congr rfl fun k _ => ?_
  have el : lidx_main_v3 (ix2 j f) k = ix2 j k := funext fun a => by
    match a with
    | ⟨0, _⟩ => rfl
    | ⟨1, _⟩ => rfl
  have er : ridx_main_v3 (ix2 j f) k = ix2 k f := funext fun a => by
    match a with
    | ⟨0, _⟩ => rfl
    | ⟨1, _⟩ => rfl
  rw [el, er]
  rfl

/-- %4 = A · (X · We) at (r, f). -/
theorem v4_apply (x0 : (⟨S8192x8192, .f32⟩ : BufTy).Contents (Elt Ideal)) (x1 : (⟨S8192x64, .f32⟩ : BufTy).Contents (Elt Ideal))
    (x3 : (⟨S64x64, .f32⟩ : BufTy).Contents (Elt Ideal)) (r : Fin 8192) (f : Fin 64) :
    val_main_v4 (F := Ideal) x0 x1 x3 (ix2 r f) = axw (mat x0) (mat x1) (mat x3) r f := by
  rw [val_main_v4_apply]
  unfold axw
  refine Finset.sum_congr rfl fun k _ => ?_
  have el : lidx_main_v4 (ix2 r f) k = ix2 r k := funext fun a => by
    match a with
    | ⟨0, _⟩ => rfl
    | ⟨1, _⟩ => rfl
  have er : ridx_main_v4 (ix2 r f) k = ix2 k f := funext fun a => by
    match a with
    | ⟨0, _⟩ => rfl
    | ⟨1, _⟩ => rfl
  rw [el, er, v3_apply]
  rfl

/-- %5, the embedding: relu (A · (X · We)) at (r, f) is the specification's Z. -/
theorem v5_apply (x0 : (⟨S8192x8192, .f32⟩ : BufTy).Contents (Elt Ideal)) (x1 : (⟨S8192x64, .f32⟩ : BufTy).Contents (Elt Ideal))
    (x3 : (⟨S64x64, .f32⟩ : BufTy).Contents (Elt Ideal)) (r : Fin 8192) (f : Fin 64) :
    val_main_v5 (F := Ideal) x0 x1 x3 (ix2 r f) = Z (mat x0) (mat x1) (mat x3) r f := by
  rw [val_main_v5_apply, val_main_call1_v0_apply, val_main_call1_cst_apply, v4_apply, Ideal.maximumf_def, Ideal.ofBits_def,
    Ideal.ofBits_zero_f32]
  rfl

/-! ## The row-wise softmax -/

/-- Row r of relu (A · (X · Wp)): the 32 logits the softmax of row r is taken over. -/
abbrev logits (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (r : Fin 8192) : Fin 32 → EReal :=
  fun k => relu (axw (mat x0) (mat x1) (mat x2) r k)

/-- The reduced index r with column k put back on the dropped axis is (r, k). -/
theorem lift_row (h : S8192x32.Reduces [1] S8192) (r : Fin 8192) (k : Fin (S8192x32.size 1)) :
    h.lift (ix1 r) k = ix2 r (⟨k.val, k.isLt⟩ : Fin 32) := by
  funext c
  apply Fin.ext
  match c with
  | ⟨0, _⟩ => rfl
  | ⟨1, _⟩ => rfl

/-- A reduce with a maximum body over axis 1 of a [8192, 32] array, from −∞, at row r: the fold of max from −∞ over
    the row's 32 entries (the fold over the indices that drop to r is the fold over the dropped axis's coordinates). -/
theorem rowFold (y : FVec Ideal S8192x32 .f32) (h' : S8192x32.ReducesTo [1] S8192) (hu : 0 < S_.numel) (r : Fin 8192) :
    Host.reduce FloatOps.maximumf y (constant (F := Ideal) S_ .f32 0xFF800000#32) h' hu (ix1 r)
      = (Finset.univ : Finset (Fin 32)).fold max negInf (fun k => y (ix2 r k)) := by
  have h : S8192x32.Reduces [1] S8192 := by decide
  rw [Host.reduce_eq_fold_single FloatOps.maximumf y _ h' h hu]
  have hf : (y ∘ h.lift (ix1 r)) = fun k : Fin 32 => y (ix2 r k) := funext fun k => congrArg y (lift_row h r k)
  exact congrArg (fun f => Finset.fold max negInf f (Finset.univ : Finset (Fin 32))) hf

/-- %6, the reduce with a maximum body over axis 1 from −∞, at row r: the fold of max from −∞ over the row's 32 logits. -/
theorem v6_apply (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (r : Fin 8192) :
    val_main_v6 (F := Ideal) x0 x1 x2 (ix1 r) = (Finset.univ : Finset (Fin 32)).fold max negInf (logits x0 x1 x2 r) := by
  unfold val_main_v6 val_main_cst
  generalize hy : val_main_v2 (F := Ideal) x0 x1 x2 = y
  refine (rowFold y reducesTo_S8192x32_S8192_d1 h_S_ r).trans ?_
  have hf : (fun k : Fin 32 => y (ix2 r k)) = logits x0 x1 x2 r := funext fun k => by
    rw [← hy, v2_apply]
  exact congrArg (fun f => Finset.fold max negInf f (Finset.univ : Finset (Fin 32))) hf

/-- %8 = max (−∞, %6) at row r: the specification's row maximum. -/
theorem v8_apply (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (r : Fin 8192) :
    val_main_v8 (F := Ideal) x0 x1 x2 (ix1 r) = rowMax (logits x0 x1 x2 r) := by
  rw [val_main_v8_apply, val_main_v7_apply, val_main_cst_0_apply, v6_apply, Ideal.maximumf_def, Ideal.ofBits_def]
  rfl

/-- %10, the row maximum broadcast along the row, at (r, c). -/
theorem v10_apply (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (r : Fin 8192) (c : Fin 32) :
    val_main_v10 (F := Ideal) x0 x1 x2 (ix2 r c) = rowMax (logits x0 x1 x2 r) := by
  have e : idx_main_v9 (idx_main_v10 (ix2 r c)) = ix1 r := funext fun a => by
    match a with
    | ⟨0, _⟩ => rfl
  rw [val_main_v10_apply, val_main_v9_apply, e, v8_apply]

/-- %12 = exp (logit − row maximum) at (r, c). -/
theorem v12_apply (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (r : Fin 8192) (c : Fin 32) :
    val_main_v12 (F := Ideal) x0 x1 x2 (ix2 r c) = Ideal.exp (logits x0 x1 x2 r c - rowMax (logits x0 x1 x2 r)) := by
  rw [val_main_v12_apply, val_main_v11_apply, v2_apply, v10_apply, Ideal.subf_def, Ideal.hostUnary_exp_def]

/-- %13, the reduce with an add body over axis 1 from zero, at row r: the sum of the row's 32 exponentials. -/
theorem v13_apply (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (r : Fin 8192) :
    val_main_v13 (F := Ideal) x0 x1 x2 (ix1 r) = ∑ k : Fin 32, Ideal.exp (logits x0 x1 x2 r k - rowMax (logits x0 x1 x2 r)) := by
  rw [val_main_v13_apply, val_main_cst_1_apply, Ideal.ofBits_def, Ideal.ofBits_zero_f32, zero_add]
  refine Finset.sum_congr rfl fun k _ => ?_
  have e : idx_main_v13 (ix1 r) k = ix2 r k := funext fun a => by
    match a with
    | ⟨0, _⟩ => rfl
    | ⟨1, _⟩ => rfl
  rw [e, v12_apply]

/-- %15, the row's sum broadcast along the row, at (r, c). -/
theorem v15_apply (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (r : Fin 8192) (c : Fin 32) :
    val_main_v15 (F := Ideal) x0 x1 x2 (ix2 r c) = ∑ k : Fin 32, Ideal.exp (logits x0 x1 x2 r k - rowMax (logits x0 x1 x2 r)) := by
  have e : idx_main_v14 (idx_main_v15 (ix2 r c)) = ix1 r := funext fun a => by
    match a with
    | ⟨0, _⟩ => rfl
  rw [val_main_v15_apply, val_main_v14_apply, e, v13_apply]

/-- %16, the cluster assignment: the softmax of row r at column c is the specification's S. -/
theorem v16_apply (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (r : Fin 8192) (c : Fin 32) :
    val_main_v16 (F := Ideal) x0 x1 x2 (ix2 r c) = S (mat x0) (mat x1) (mat x2) r c := by
  rw [val_main_v16_apply, v12_apply, v15_apply, Ideal.hostDivf_def]
  rfl

/-! ## The per-graph views and the coarse features

Row (g, n) of the batch is row 256 g + n, so the reshapes [8192, ·] → [32, 256, ·] read (g, n, ·) at (row g n, ·). -/

/-- The reshape %17 reads (g, n, c) at (row g n, c). -/
theorem idx17 (g : Fin 32) (n : Fin 256) (c : Fin 32) : idx_main_v17 (ix3 g n c) = ix2 (row g n) c := by
  have hg := g.isLt; have hn := n.isLt; have hc := c.isLt
  funext a
  apply Fin.ext
  match a with
  | ⟨0, _⟩ => show ((g.val * 256 + n.val) * 32 + c.val) / 32 = 256 * g.val + n.val; omega
  | ⟨1, _⟩ => show ((g.val * 256 + n.val) * 32 + c.val) % 32 = c.val; omega

/-- The reshape %18 reads (g, n, f) at (row g n, f). -/
theorem idx18 (g : Fin 32) (n : Fin 256) (f : Fin 64) : idx_main_v18 (ix3 g n f) = ix2 (row g n) f := by
  have hg := g.isLt; have hn := n.isLt; have hf := f.isLt
  funext a
  apply Fin.ext
  match a with
  | ⟨0, _⟩ => show ((g.val * 256 + n.val) * 64 + f.val) / 64 = 256 * g.val + n.val; omega
  | ⟨1, _⟩ => show ((g.val * 256 + n.val) * 64 + f.val) % 64 = f.val; omega

/-- %17, the assignment per graph: Sg (g, n, c) = S (row g n) c. -/
theorem v17_apply (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (g : Fin 32) (n : Fin 256) (c : Fin 32) :
    val_main_v17 (F := Ideal) x0 x1 x2 (ix3 g n c) = S (mat x0) (mat x1) (mat x2) (row g n) c := by
  rw [val_main_v17_apply, idx17, v16_apply]

/-- %18, the embedding per graph: Zg (g, n, f) = Z (row g n) f. -/
theorem v18_apply (x0 : (⟨S8192x8192, .f32⟩ : BufTy).Contents (Elt Ideal)) (x1 : (⟨S8192x64, .f32⟩ : BufTy).Contents (Elt Ideal))
    (x3 : (⟨S64x64, .f32⟩ : BufTy).Contents (Elt Ideal)) (g : Fin 32) (n : Fin 256) (f : Fin 64) :
    val_main_v18 (F := Ideal) x0 x1 x3 (ix3 g n f) = Z (mat x0) (mat x1) (mat x3) (row g n) f := by
  rw [val_main_v18_apply, idx18, v5_apply]

/-- %35, the contraction over a graph's 256 nodes: Σ_n Sg (g, n, c) · Zg (g, n, f) is the coarse features. -/
theorem v35_apply (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (x3 : (⟨S64x64, .f32⟩ : BufTy).Contents (Elt Ideal))
    (g : Fin 32) (c : Fin 32) (f : Fin 64) :
    val_main_v35 (F := Ideal) x0 x1 x2 x3 (ix3 g c f)
      = cx (S (mat x0) (mat x1) (mat x2)) (Z (mat x0) (mat x1) (mat x3)) g c f := by
  rw [val_main_v35_apply]
  unfold cx
  refine Finset.sum_congr rfl fun k _ => ?_
  have el : lidx_main_v35 (ix3 g c f) k = ix3 g k c := funext fun a => by
    match a with
    | ⟨0, _⟩ => rfl
    | ⟨1, _⟩ => rfl
    | ⟨2, _⟩ => rfl
  have er : ridx_main_v35 (ix3 g c f) k = ix3 g k f := funext fun a => by
    match a with
    | ⟨0, _⟩ => rfl
    | ⟨1, _⟩ => rfl
    | ⟨2, _⟩ => rfl
  rw [el, er, v17_apply, v18_apply]

/-- The reshape %36 reads row 32 g + c of the [1024, 64] result at (g, c, ·). -/
theorem idx36 (i : S1024x64.Idx) :
    idx_main_v36 i = ix3 (⟨(i 0).val / 32, by have := idx2_lt0 i; omega⟩ : Fin 32) (⟨(i 0).val % 32, Nat.mod_lt _ (by decide)⟩ : Fin 32)
      (⟨(i 1).val, idx2_lt1 i⟩ : Fin 64) := by
  have h0 := idx2_lt0 i; have h1 := idx2_lt1 i
  funext a
  apply Fin.ext
  match a with
  | ⟨0, _⟩ => show ((i 0).val * 64 + (i 1).val) / 2048 = (i 0).val / 32; omega
  | ⟨1, _⟩ => show ((i 0).val * 64 + (i 1).val) / 64 % 32 = (i 0).val % 32; omega
  | ⟨2, _⟩ => show ((i 0).val * 64 + (i 1).val) % 64 = (i 1).val; omega

/-- RESULT 1, the coarse features stacked along the nodes: row 32 g + c, column f is cx g c f. -/
theorem v36_eq (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (x3 : (⟨S64x64, .f32⟩ : BufTy).Contents (Elt Ideal)) :
    val_main_v36 (F := Ideal) x0 x1 x2 x3
      = fun i : S1024x64.Idx => cx (S (mat x0) (mat x1) (mat x2)) (Z (mat x0) (mat x1) (mat x3))
          (⟨(i 0).val / 32, by have := idx2_lt0 i; omega⟩ : Fin 32) (⟨(i 0).val % 32, Nat.mod_lt _ (by decide)⟩ : Fin 32)
          (⟨(i 1).val, idx2_lt1 i⟩ : Fin 64) := by
  funext i
  rw [val_main_v36_apply, idx36, v35_apply]

/-! ## The diagonal blocks of A: the start indices and the gather

The start indices are built from an iota g ↦ g over the 32 graphs: "g < 0" is false for every g < 32, so the
wrap-around select keeps g, and the two columns of the [32, 2] start-index array both hold g. -/

/-- A small non-negative word is not below zero, so the select between "g + 32" and g keeps g. -/
theorem sel_iota (g : Fin 32) :
    Scalar.select (IntOp.cmpi .slt (BitVec.ofNat 32 g.val) 0#32) (IntOp.addi (BitVec.ofNat 32 g.val) 32#32) (BitVec.ofNat 32 g.val)
      = BitVec.ofNat 32 g.val := by
  have hg := g.isLt
  have hlt : (BitVec.ofNat 32 g.val).toNat < 2 ^ 31 := by rw [BitVec.toNat_ofNat]; omega
  have hne : ¬ IntOp.cmpi .slt (BitVec.ofNat 32 g.val) 0#32 = 1#1 := fun h =>
    Nat.not_lt_zero _ ((StableHlo.Predicate.slt_iff_toNat hlt (by decide)).mp h)
  exact if_neg hne

/-- %25 at g: the first start-index component is g. -/
theorem v25_apply (g : Fin 32) : val_main_v25 (F := Ideal) (ix1 g) = BitVec.ofNat 32 g.val := by
  rw [val_main_v25_apply, val_main_v22_apply, val_main_v24_apply, val_main_v19_apply, val_main_v21_apply, val_main_c_apply,
    val_main_v23_apply, val_main_c_2_apply]
  exact sel_iota g

/-- %30 at g: the second start-index component is g. -/
theorem v30_apply (g : Fin 32) : val_main_v30 (F := Ideal) (ix1 g) = BitVec.ofNat 32 g.val := by
  rw [val_main_v30_apply, val_main_v27_apply, val_main_v29_apply, val_main_v19_apply, val_main_v26_apply, val_main_c_3_apply,
    val_main_v28_apply, val_main_c_4_apply]
  exact sel_iota g

/-- %33 at (g, 0): the first piece of the concatenation, %31 at (g, 0), which is %25 at g. -/
theorem v33_apply0 (g : Fin 32) : val_main_v33 (F := Ideal) (ix2 g (0 : Fin 2)) = BitVec.ofNat 32 g.val := by
  unfold val_main_v33
  rw [concatenate_pair_apply_left (1 : Fin S32x2.rank) (val_main_v31 (F := Ideal)) (val_main_v32 (F := Ideal))
    concatenates_S32x1_S32x1_S32x2_d1 (ix2 g (0 : Fin 2)) rfl (ix2 g (0 : Fin 1)) (fun b => by
      match b with
      | ⟨0, _⟩ => rfl
      | ⟨1, _⟩ => rfl)]
  have e : idx_main_v31 (ix2 g (0 : Fin 1)) = ix1 g := funext fun a => by
    match a with
    | ⟨0, _⟩ => rfl
  rw [val_main_v31_apply, e, v25_apply]

/-- %33 at (g, 1): the second piece of the concatenation, %32 at (g, 0), which is %30 at g. -/
theorem v33_apply1 (g : Fin 32) : val_main_v33 (F := Ideal) (ix2 g (1 : Fin 2)) = BitVec.ofNat 32 g.val := by
  unfold val_main_v33
  rw [concatenate_pair_apply_right (1 : Fin S32x2.rank) (val_main_v31 (F := Ideal)) (val_main_v32 (F := Ideal))
    concatenates_S32x1_S32x1_S32x2_d1 (ix2 g (1 : Fin 2)) rfl rfl (ix2 g (0 : Fin 1)) (fun b hb => by
      match b with
      | ⟨0, _⟩ => rfl
      | ⟨1, _⟩ => exact absurd rfl hb) rfl]
  have e : idx_main_v32 (ix2 g (0 : Fin 1)) = ix1 g := funext fun a => by
    match a with
    | ⟨0, _⟩ => rfl
  rw [val_main_v32_apply, e, v30_apply]

/-- The gather's dimension numbers: offset axes [1, 2] of the result, collapsed axes [0, 2] of the operand, start-index
    map [0, 2], index-vector axis 1, slices of sizes 1 × 256 × 1 × 256. -/
abbrev gD : GatherDims S32x256x32x256 S32x2 S32x256x256 := gather_S32x256x32x256_S32x2_S32x256x256_12_02_n_n_02_1_12561256

/-- The start-indices index at which result index (g, n, m) reads component 0 of its start index: (g, 0). -/
theorem gather_si0 (g : Fin 32) (n m : Fin 256)
    (hlt : List.idxOf (0 : Fin S32x256x32x256.rank) gD.startIndexMap < gD.startIndexMap.length) :
    gD.siIdx (ix3 g n m) ⟨List.idxOf (0 : Fin S32x256x32x256.rank) gD.startIndexMap, hlt⟩ = ix2 g (0 : Fin 2) := by
  funext b
  refine Fin.ext ?_
  match b with
  | ⟨0, _⟩ => rfl
  | ⟨1, _⟩ => rfl

/-- … and component 1: (g, 1). -/
theorem gather_si2 (g : Fin 32) (n m : Fin 256)
    (hlt : List.idxOf (2 : Fin S32x256x32x256.rank) gD.startIndexMap < gD.startIndexMap.length) :
    gD.siIdx (ix3 g n m) ⟨List.idxOf (2 : Fin S32x256x32x256.rank) gD.startIndexMap, hlt⟩ = ix2 g (1 : Fin 2) := by
  funext b
  refine Fin.ext ?_
  match b with
  | ⟨0, _⟩ => rfl
  | ⟨1, _⟩ => rfl

/-- Operand axis 0 (collapsed, named by the start-index map): the first start-index component, clamped to [0, 31]. -/
theorem gather_axis0 (idx : IVec S32x2 32) (g : Fin 32) (n m : Fin 256) :
    (gD.operandIdx (ix3 g n m) idx 0).val = min (idx (ix2 g (0 : Fin 2))).toInt.toNat 31 := by
  show gD.start (ix3 g n m) idx 0 + gD.batchCoord (ix3 g n m) 0 + gD.offCoord (ix3 g n m) 0 = _
  rw [GatherDims.batchCoord_eq_zero _ _ _ (show (0 : Fin S32x256x32x256.rank) ∉ gD.operandBatchingDims by decide),
    GatherDims.offCoord_eq_zero _ _ _ (show (0 : Fin S32x256x32x256.rank) ∉ gD.sKept by decide)]
  simp only [Nat.add_zero]
  unfold GatherDims.start
  rw [dif_pos (show (0 : Fin S32x256x32x256.rank) ∈ gD.startIndexMap by decide), gather_si0]
  rfl

/-- Operand axis 1 (kept, first offset axis): the result's coordinate n. -/
theorem gather_axis1 (idx : IVec S32x2 32) (g : Fin 32) (n m : Fin 256) :
    (gD.operandIdx (ix3 g n m) idx 1).val = n.val := by
  show gD.start (ix3 g n m) idx 1 + gD.batchCoord (ix3 g n m) 1 + gD.offCoord (ix3 g n m) 1 = _
  rw [GatherDims.batchCoord_eq_zero _ _ _ (show (1 : Fin S32x256x32x256.rank) ∉ gD.operandBatchingDims by decide)]
  unfold GatherDims.start GatherDims.offCoord
  rw [dif_neg (show (1 : Fin S32x256x32x256.rank) ∉ gD.startIndexMap by decide),
    dif_pos (show (1 : Fin S32x256x32x256.rank) ∈ gD.sKept by decide)]
  simp only [Nat.add_zero, Nat.zero_add]
  rfl

/-- Operand axis 2 (collapsed, named by the start-index map): the second start-index component, clamped to [0, 31]. -/
theorem gather_axis2 (idx : IVec S32x2 32) (g : Fin 32) (n m : Fin 256) :
    (gD.operandIdx (ix3 g n m) idx 2).val = min (idx (ix2 g (1 : Fin 2))).toInt.toNat 31 := by
  show gD.start (ix3 g n m) idx 2 + gD.batchCoord (ix3 g n m) 2 + gD.offCoord (ix3 g n m) 2 = _
  rw [GatherDims.batchCoord_eq_zero _ _ _ (show (2 : Fin S32x256x32x256.rank) ∉ gD.operandBatchingDims by decide),
    GatherDims.offCoord_eq_zero _ _ _ (show (2 : Fin S32x256x32x256.rank) ∉ gD.sKept by decide)]
  simp only [Nat.add_zero]
  unfold GatherDims.start
  rw [dif_pos (show (2 : Fin S32x256x32x256.rank) ∈ gD.startIndexMap by decide), gather_si2]
  rfl

/-- Operand axis 3 (kept, second offset axis): the result's coordinate m. -/
theorem gather_axis3 (idx : IVec S32x2 32) (g : Fin 32) (n m : Fin 256) :
    (gD.operandIdx (ix3 g n m) idx 3).val = m.val := by
  show gD.start (ix3 g n m) idx 3 + gD.batchCoord (ix3 g n m) 3 + gD.offCoord (ix3 g n m) 3 = _
  rw [GatherDims.batchCoord_eq_zero _ _ _ (show (3 : Fin S32x256x32x256.rank) ∉ gD.operandBatchingDims by decide)]
  unfold GatherDims.start GatherDims.offCoord
  rw [dif_neg (show (3 : Fin S32x256x32x256.rank) ∉ gD.startIndexMap by decide),
    dif_pos (show (3 : Fin S32x256x32x256.rank) ∈ gD.sKept by decide)]
  simp only [Nat.add_zero, Nat.zero_add]
  rfl

/-- THE GATHER READ AT (g, n, m): the operand at (p, n, q, m), where p and q are the two start-index components of
    row g of the start indices, read signed and clamped into [0, 31]. -/
theorem gather_apply {α : Type} (x : S32x256x32x256.Idx → α) (idx : IVec S32x2 32) (g : Fin 32) (n m : Fin 256) (p q : Fin 32)
    (hp : min (idx (ix2 g (0 : Fin 2))).toInt.toNat 31 = p.val) (hq : min (idx (ix2 g (1 : Fin 2))).toInt.toNat 31 = q.val) :
    Host.gather gather_S32x256x32x256_S32x2_S32x256x256_12_02_n_n_02_1_12561256 x idx (ix3 g n m) = x (ix4 p n q m) := by
  unfold Host.gather
  refine congrArg x (funext fun a => Fin.ext ?_)
  match a with
  | ⟨0, _⟩ => exact (gather_axis0 idx g n m).trans hp
  | ⟨1, _⟩ => exact gather_axis1 idx g n m
  | ⟨2, _⟩ => exact (gather_axis2 idx g n m).trans hq
  | ⟨3, _⟩ => exact gather_axis3 idx g n m

/-- The reshape %20 reads (g, n, g', m) at (row g n, row g' m); on the diagonal g' = g. -/
theorem idx20 (g : Fin 32) (n m : Fin 256) : idx_main_v20 (ix4 g n g m) = ix2 (row g n) (row g m) := by
  have hg := g.isLt; have hn := n.isLt; have hm := m.isLt
  funext a
  apply Fin.ext
  match a with
  | ⟨0, _⟩ => show (((g.val * 256 + n.val) * 32 + g.val) * 256 + m.val) / 8192 = 256 * g.val + n.val; omega
  | ⟨1, _⟩ => show (((g.val * 256 + n.val) * 32 + g.val) * 256 + m.val) % 8192 = 256 * g.val + m.val; omega

/-- A graph number read back as a signed word and clamped into [0, 31] is itself. -/
theorem clamp_graph (g : Fin 32) : min (BitVec.ofNat 32 g.val).toInt.toNat 31 = g.val := by
  have hg := g.isLt
  rw [StableHlo.Predicate.toInt_ofNat_small g.val (by omega), Int.toNat_natCast]
  exact Nat.min_eq_left (by omega)

/-- %34, the diagonal blocks: Ag (g, n, m) = A (row g n) (row g m). -/
theorem v34_apply (x0 : (⟨S8192x8192, .f32⟩ : BufTy).Contents (Elt Ideal)) (g : Fin 32) (n m : Fin 256) :
    val_main_v34 (F := Ideal) x0 (ix3 g n m) = mat x0 (row g n) (row g m) := by
  unfold val_main_v34
  rw [gather_apply (val_main_v20 (F := Ideal) x0) (val_main_v33 (F := Ideal)) g n m g g
    (by rw [v33_apply0]; exact clamp_graph g) (by rw [v33_apply1]; exact clamp_graph g),
    val_main_v20_apply, idx20]
  rfl

/-! ## The coarse adjacency blocks, in the reference's order -/

/-- %37 at (g, m, c): Σ_n Ag (g, n, m) · Sg (g, n, c), the block's transpose applied to the assignment. -/
theorem v37_apply (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (g : Fin 32) (m : Fin 256) (c : Fin 32) :
    val_main_v37 (F := Ideal) x0 x1 x2 (ix3 g m c)
      = ∑ n : Fin 256, mat x0 (row g n) (row g m) * S (mat x0) (mat x1) (mat x2) (row g n) c := by
  rw [val_main_v37_apply]
  refine Finset.sum_congr rfl fun k _ => ?_
  have el : lidx_main_v37 (ix3 g m c) k = ix3 g k m := funext fun a => by
    match a with
    | ⟨0, _⟩ => rfl
    | ⟨1, _⟩ => rfl
    | ⟨2, _⟩ => rfl
  have er : ridx_main_v37 (ix3 g m c) k = ix3 g k c := funext fun a => by
    match a with
    | ⟨0, _⟩ => rfl
    | ⟨1, _⟩ => rfl
    | ⟨2, _⟩ => rfl
  rw [el, er, v34_apply, v17_apply]

/-- %38 at (g, c, d): Σ_m %37 (g, m, c) · Sg (g, m, d), the block in the reference's order. -/
theorem v38_apply (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (g c d : Fin 32) :
    val_main_v38 (F := Ideal) x0 x1 x2 (ix3 g c d) = blkR (mat x0) (S (mat x0) (mat x1) (mat x2)) g c d := by
  rw [val_main_v38_apply]
  unfold blkR
  refine Finset.sum_congr rfl fun k _ => ?_
  have el : lidx_main_v38 (ix3 g c d) k = ix3 g k c := funext fun a => by
    match a with
    | ⟨0, _⟩ => rfl
    | ⟨1, _⟩ => rfl
    | ⟨2, _⟩ => rfl
  have er : ridx_main_v38 (ix3 g c d) k = ix3 g k d := funext fun a => by
    match a with
    | ⟨0, _⟩ => rfl
    | ⟨1, _⟩ => rfl
    | ⟨2, _⟩ => rfl
  rw [el, er, v37_apply, v17_apply]

/-- The 32 coarse adjacency blocks, as an array: entry (g, c, d) is blkR g c d. -/
theorem v38_eq (x0 : (⟨S8192x8192, .f32⟩ : BufTy).Contents (Elt Ideal)) (x1 : (⟨S8192x64, .f32⟩ : BufTy).Contents (Elt Ideal))
    (x2 : (⟨S64x32, .f32⟩ : BufTy).Contents (Elt Ideal)) :
    val_main_v38 (F := Ideal) x0 x1 x2
      = fun i : S32x32x32.Idx => blkR (mat x0) (S (mat x0) (mat x1) (mat x2))
          (⟨(i 0).val, (i 0).isLt⟩ : Fin 32) (⟨(i 1).val, (i 1).isLt⟩ : Fin 32) (⟨(i 2).val, (i 2).isLt⟩ : Fin 32) := by
  funext i
  obtain ⟨g, c, d, rfl⟩ : ∃ (g : Fin 32) (c : Fin 32) (d : Fin 32), i = ix3 g c d := ⟨i 0, i 1, i 2, eq_ix3 i⟩
  exact v38_apply x0 x1 x2 g c d

/-! ## The block-diagonal assembly, the graph ids, and the three results -/

/-- The operations %39 … %54 on the array of blocks: the zero array [32, 32, 32, 32]; the start indices (g, g) (an iota
    over the 32 graphs, the wrap-around select, two columns joined); the scatter that writes block g at (g, ·, g, ·);
    the reshape to [1024, 1024]. It depends on the arguments only through the blocks. -/
def tail (blocks : (⟨S32x32x32, .f32⟩ : BufTy).Contents (Elt Ideal)) : (⟨S1024x1024, .f32⟩ : BufTy).Contents (Elt Ideal) :=
  shapeCast _ (Host.scatter scatter_S32x32x32x32_S32x2_S32x32x32_12_02_02_1 (fun _ b => b)
    (broadcastInDim S32x32x32x32 ![] bcast_S_S32x32x32x32 (constant (F := Ideal) S_ .f32 0x00000000#32))
    (concatenate S32x2 1
      [⟨S32x1, (broadcastInDim S32x1 ![0] bcast_S32_S32x1_0 (select (cmpi .slt (iotaInDim S32 32 0) (broadcastInDim S32 ![] bcast_S_S32 (constantI S_ 32 0#32))) (addi (iotaInDim S32 32 0) (broadcastInDim S32 ![] bcast_S_S32 (constantI S_ 32 32#32))) (iotaInDim S32 32 0)))⟩,
       ⟨S32x1, (broadcastInDim S32x1 ![0] bcast_S32_S32x1_0 (select (cmpi .slt (iotaInDim S32 32 0) (broadcastInDim S32 ![] bcast_S_S32 (constantI S_ 32 0#32))) (addi (iotaInDim S32 32 0) (broadcastInDim S32 ![] bcast_S_S32 (constantI S_ 32 32#32))) (iotaInDim S32 32 0)))⟩]
      concatenates_S32x1_S32x1_S32x2_d1)
    blocks) shapeCasts_S32x32x32x32_S1024x1024

/-- %54 is the assembly of %38: the index chain %40 … %52 and the zero array do not depend on the arguments. -/
theorem v54_eq (x0 : (⟨S8192x8192, .f32⟩ : BufTy).Contents (Elt Ideal)) (x1 : (⟨S8192x64, .f32⟩ : BufTy).Contents (Elt Ideal))
    (x2 : (⟨S64x32, .f32⟩ : BufTy).Contents (Elt Ideal)) :
    val_main_v54 (F := Ideal) x0 x1 x2 = tail (val_main_v38 (F := Ideal) x0 x1 x2) := by
  unfold val_main_v54 val_main_v53
  generalize val_main_v38 (F := Ideal) x0 x1 x2 = b
  rfl

/-- RESULT 2, the coarse node indicator: the stage %57 (an iota over the 32 graphs, repeated along a new axis of 32
    clusters, flattened). It depends on no argument. -/
def ids : (⟨S1024, .i32⟩ : BufTy).Contents (Elt Ideal) := val_main_v57 (F := Ideal)

/-- Entry i of the coarse node indicator is the graph number i / 32 (so entry 32 g + c is g). -/
theorem ids_apply (i : S1024.Idx) : ids i = BitVec.ofNat 32 ((i 0).val / 32) := by
  unfold ids
  rw [val_main_v57_apply, val_main_v56_apply, val_main_v55_apply]

/-- RESULT 0 as a function of the arguments: the assembly of the blocks blkR g c d. -/
def res0 (x0 : (⟨S8192x8192, .f32⟩ : BufTy).Contents (Elt Ideal)) (x1 : (⟨S8192x64, .f32⟩ : BufTy).Contents (Elt Ideal))
    (x2 : (⟨S64x32, .f32⟩ : BufTy).Contents (Elt Ideal)) : (⟨S1024x1024, .f32⟩ : BufTy).Contents (Elt Ideal) :=
  tail fun i : S32x32x32.Idx => blkR (mat x0) (S (mat x0) (mat x1) (mat x2))
    (⟨(i 0).val, (i 0).isLt⟩ : Fin 32) (⟨(i 1).val, (i 1).isLt⟩ : Fin 32) (⟨(i 2).val, (i 2).isLt⟩ : Fin 32)

/-- RESULT 1 as a function of the arguments: row 32 g + c, column f is cx g c f. -/
def res1 (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (x3 : (⟨S64x64, .f32⟩ : BufTy).Contents (Elt Ideal)) :
    (⟨S1024x64, .f32⟩ : BufTy).Contents (Elt Ideal) :=
  fun i : S1024x64.Idx => cx (S (mat x0) (mat x1) (mat x2)) (Z (mat x0) (mat x1) (mat x3))
    (⟨(i 0).val / 32, by have := idx2_lt0 i; omega⟩ : Fin 32) (⟨(i 0).val % 32, Nat.mod_lt _ (by decide)⟩ : Fin 32)
    (⟨(i 1).val, idx2_lt1 i⟩ : Fin 64)

theorem v54_res0 (x0 : (⟨S8192x8192, .f32⟩ : BufTy).Contents (Elt Ideal)) (x1 : (⟨S8192x64, .f32⟩ : BufTy).Contents (Elt Ideal))
    (x2 : (⟨S64x32, .f32⟩ : BufTy).Contents (Elt Ideal)) : val_main_v54 (F := Ideal) x0 x1 x2 = res0 x0 x1 x2 := by
  rw [v54_eq, v38_eq]
  rfl

theorem v36_res1 (x0 : (⟨S8192x8192, .f32⟩ : BufTy).Contents (Elt Ideal)) (x1 : (⟨S8192x64, .f32⟩ : BufTy).Contents (Elt Ideal))
    (x2 : (⟨S64x32, .f32⟩ : BufTy).Contents (Elt Ideal)) (x3 : (⟨S64x64, .f32⟩ : BufTy).Contents (Elt Ideal)) :
    val_main_v36 (F := Ideal) x0 x1 x2 x3 = res1 x0 x1 x2 x3 := by
  rw [v36_eq]
  rfl

open Idealize.ShloMosaic.TcCoe Idealize.SL.Sem Idealize.ShloMosaic.StableHlo in
/-- The reference's run, read: every weakly fair execution of @main terminates with the three results at the
    specification's functions of the arguments' launch contents, the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54)
          = res0 (m ((c.tc : Thread nD τ).loc main_arg0)) (m ((c.tc : Thread nD τ).loc main_arg1)) (m ((c.tc : Thread nD τ).loc main_arg2))
      ∧ r.2.mem ((c.tc : Thread nD τ).loc main_v36)
          = res1 (m ((c.tc : Thread nD τ).loc main_arg0)) (m ((c.tc : Thread nD τ).loc main_arg1)) (m ((c.tc : Thread nD τ).loc main_arg2))
              (m ((c.tc : Thread nD τ).loc main_arg3))
      ∧ r.2.mem ((c.tc : Thread nD τ).loc main_v57) = ids
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c).1.trans ((val_main_v54_eq m c).trans (v54_res0 _ _ _)),
      (h c).2.1.trans ((val_main_v36_eq _ _ _ _).trans (v36_res1 _ _ _ _)),
      (h c).2.2.1.trans val_main_v57_eq,
      (h c).2.2.2⟩)
    (Cert.ReferenceIdeal.Value.run (F := Ideal) m ρ)

end Cert.ReferenceIdeal.RefValue

end
-- ==== Proof.Finite.lean ====
/-
  From "every float input is finite" to "every entry is a real number".

  The precondition compares |x| with +∞ at every entry of each of the four float arrays, takes the conjunction over
  each array, and then the conjunction of the four. Read backwards: the whole is 1, so each array's conjunction is 1,
  so each comparison is 1, so |x| < +∞ at each entry; and an extended real whose absolute value is below +∞ is
  neither +∞ nor −∞, hence a real number.
-/
import proofs.«121435_j89764816486779_1_alg».proof.Defs
import proofs.«121435_j89764816486779_1_alg».proof.Proof.Gen.Pre_finite_inputs
import Idealize.ShloMosaic.Lib.ReduceAll
import Idealize.ShloMosaic.Lib.ValueIdx
import proofs.«121435_j89764816486779_1_alg».proof.Proof.SpecMat

noncomputable section

namespace Cert.Finite

open Idealize.ShloMosaic Idealize.ShloMosaic.ValueIdx Idealize.SL.Sem

/-- The rank-0 shape has exactly one index. -/
instance : Subsingleton Cert.Pre_finite_inputs.S_.Idx := ⟨fun a b => funext fun d => d.elim0⟩

/-- The f32 pattern 0x7F800000 is +∞. -/
theorem posInf_eq_top : Ideal.ofBits .f32 0x7F800000#32 = (⊤ : EReal) := by
  simp [Ideal.ofBits, Ideal.ieee]

/-- An extended real whose absolute value max x (−x) lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element test of the precondition, read back: the i1 word of |x| < +∞ being 1 makes x real. -/
theorem real_of_test (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  apply real_of_abs_lt_top
  rw [← posInf_eq_top]
  have h' : BitVec.ofBool (decide (max x (-x) < Ideal.ofBits .f32 0x7F800000#32)) = 1#1 := h
  by_contra hn
  rw [decide_eq_false hn] at h'
  exact absurd h' (by decide)

/-- One array's conjunction, read back: if the and-reduction over all axes of the tests |x i| < +∞ is 1,
    every entry of x is a real number. -/
theorem real_of_all {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x)
            (broadcastInDim s ![] bc (constant (F := Ideal) Cert.Pre_finite_inputs.S_ .f32 0x7F800000#32)))
          init hr hu ix0 = 1#1)
    (i : s.Idx) : ∃ r : ℝ, x i = (r : EReal) :=
  real_of_test (x i) (Host.reduce_andi_all _ init hr hu ix0 e i)

/-- The printed precondition at the ideal instance, all ones: each of the four float arguments is real-valued. -/
theorem reals [hP : Cert.Pre_finite_inputs.Facts]
    (x0 : FVec Ideal Cert.Pre_finite_inputs.S8192x8192 .f32) (x1 : FVec Ideal Cert.Pre_finite_inputs.S8192x64 .f32)
    (x2 : FVec Ideal Cert.Pre_finite_inputs.S64x32 .f32) (x3 : FVec Ideal Cert.Pre_finite_inputs.S64x64 .f32)
    (x4 : IVec Cert.Pre_finite_inputs.S8192 32)
    (h : Cert.Pre_finite_inputs.fn (F := Ideal) x0 x1 x2 x3 x4 = fun _ => 1#1) :
    Cert.Spec.IsReal (Cert.Spec.mat x0) ∧ Cert.Spec.IsReal (Cert.Spec.mat x1)
      ∧ Cert.Spec.IsReal (Cert.Spec.mat x2) ∧ Cert.Spec.IsReal (Cert.Spec.mat x3) := by
  have h0 := congrFun h ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i j => real_of_all x0 _ _ _ _ e0 (ix2 i j), fun i j => real_of_all x1 _ _ _ _ e1 (ix2 i j),
    fun i j => real_of_all x2 _ _ _ _ e2 (ix2 i j), fun i j => real_of_all x3 _ _ _ _ e3 (ix2 i j)⟩

/-- The same four facts in the form the claims use: from the precondition on the kernel's initial memory,
    on every core each of the four float argument arrays is real-valued. -/
theorem reals_of_pre [hP : Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD) :
    Cert.Spec.IsReal (Cert.Spec.mat (m ((c.tc : Thread Cert.KernelIdeal.nD Cert.KernelIdeal.τ).loc Cert.KernelIdeal.main_arg0)))
      ∧ Cert.Spec.IsReal (Cert.Spec.mat (m ((c.tc : Thread Cert.KernelIdeal.nD Cert.KernelIdeal.τ).loc Cert.KernelIdeal.main_arg1)))
      ∧ Cert.Spec.IsReal (Cert.Spec.mat (m ((c.tc : Thread Cert.KernelIdeal.nD Cert.KernelIdeal.τ).loc Cert.KernelIdeal.main_arg2)))
      ∧ Cert.Spec.IsReal (Cert.Spec.mat (m ((c.tc : Thread Cert.KernelIdeal.nD Cert.KernelIdeal.τ).loc Cert.KernelIdeal.main_arg3))) :=
  reals _ _ _ _ _ (hm c)

end Cert.Finite

end
-- ==== Proof.TailEq.lean ====
/-
  The host operations after the calls are the same function in the kernel's program and in the reference.

  Both programs assemble the coarse adjacency the same way: a zero [32, 32, 32, 32] array, the index pairs (g, g)
  (an iota over the 32 graphs, the wrap-around select, a column, two columns joined), the scatter that writes graph
  g's block at (g, ·, g, ·), the reshape to [1024, 1024]; and both spell the coarse node indicator as an iota over the
  graphs repeated along 32 clusters and flattened. The two spellings differ only in which program's shape names and
  dimension records they cite; those have the same literal contents, so the two terms are the same term.
-/
import proofs.«121435_j89764816486779_1_alg».proof.Proof.KITail
import proofs.«121435_j89764816486779_1_alg».proof.Proof.RefValue

noncomputable section

namespace Cert.TailEq

open Idealize.ShloMosaic

/-- The block-diagonal assembly of the per-graph blocks is the same function of the blocks in both programs. -/
theorem coarseA_eq (b : (⟨Cert.KernelIdeal.S32x32x32, .f32⟩ : BufTy).Contents (Elt Ideal)) :
    Cert.KernelIdeal.Hand.coarseA (F := Ideal) b = Cert.ReferenceIdeal.RefValue.tail b := by
  unfold Cert.KernelIdeal.Hand.coarseA Cert.KernelIdeal.Hand.diagCol Cert.ReferenceIdeal.RefValue.tail
  rfl

/-- The coarse node indicator is the same array in both programs. -/
theorem coarseIds_eq : Cert.KernelIdeal.Hand.coarseIds (F := Ideal) = Cert.ReferenceIdeal.RefValue.ids := by
  unfold Cert.KernelIdeal.Hand.coarseIds Cert.ReferenceIdeal.RefValue.ids Cert.ReferenceIdeal.Read.val_main_v57
    Cert.ReferenceIdeal.Read.val_main_v56 Cert.ReferenceIdeal.Read.val_main_v55
  rfl

end Cert.TailEq

end
-- ==== Proof.lean ====
/-
  The kernel computes a DiffPool coarsening in two tiled passes: one fused pass over the propagation matrix A that
  accumulates A · (X · Wp) and A · (X · We) tile by tile and closes with relu and a row softmax (the cluster
  assignment S and the embedding Z), and one pass per graph g that forms S_gᵀ Z_g and S_gᵀ (A_g S_g) from the
  graph's rows and its diagonal block of A; plain host operations then scatter the blocks onto a block diagonal.
  The reference computes the same quantities with whole-array products.

  The three frames: each program terminates from any memory, faults nowhere, and never writes an argument array.
  The idealization rewrote no operation, so there is nothing to preserve.
  The equivalence over the extended reals: the tiled accumulation is a regrouping of one finite sum (no finiteness
  needed); relu, the softmax and the coarse features are spelled alike on both sides; the coarse adjacency blocks
  are summed in two different orders, S_gᵀ (A_g S_g) against (A_gᵀ S_g)ᵀ S_g, equal because A is finite by the
  precondition and S, a softmax of finite numbers, is finite — on the extended reals distributivity needs that.
-/
import proofs.«121435_j89764816486779_1_alg».proof.Defs
import proofs.«121435_j89764816486779_1_alg».proof.Proof.Gen.Kernel
import proofs.«121435_j89764816486779_1_alg».proof.Proof.Gen.KernelIdeal
import proofs.«121435_j89764816486779_1_alg».proof.Proof.Gen.ReferenceIdeal
import proofs.«121435_j89764816486779_1_alg».proof.Proof.Gen.Pre_finite_inputs
import proofs.«121435_j89764816486779_1_alg».proof.Proof.KFrame
import proofs.«121435_j89764816486779_1_alg».proof.Proof.KIFrame
import proofs.«121435_j89764816486779_1_alg».proof.Proof.KIValue
import proofs.«121435_j89764816486779_1_alg».proof.Proof.RefValue
import proofs.«121435_j89764816486779_1_alg».proof.Proof.Algebra
import proofs.«121435_j89764816486779_1_alg».proof.Proof.Finite
import proofs.«121435_j89764816486779_1_alg».proof.Proof.TailEq

noncomputable section

namespace Cert.Proof

open Idealize.ShloMosaic Idealize.ShloMosaic.TcCoe Idealize.SL.Sem

/-- The word-level kernel's frame. -/
theorem frame_kernel : Cert.frame_Kernel := fun m ρ _ => Cert.Kernel.Hand.frame m ρ

/-- The idealized kernel's frame. -/
theorem frame_kernelIdeal : Cert.frame_KernelIdeal := fun m ρ _ => Cert.KernelIdeal.Hand.frame m ρ

/-- The reference's frame: its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- No operation was rewritten. -/
theorem preserves : Cert.preserves_Kernel_KernelIdeal := trivial

/-- Both idealized programs, from memories agreeing on the arguments, end with the reference's three results: the
    kernel's coarse adjacency is the same scatter of blocks that agree entry by entry once A and S are real. -/
theorem algebraic : Cert.algebraic_KernelIdeal_ReferenceIdeal := by
  intro m ρ m' ρ' hpre hagree
  refine ⟨fun c => Cert.ReferenceIdeal.RefValue.res0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.RefValue.res1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun _ => Cert.ReferenceIdeal.RefValue.ids, ?_, ?_⟩
  · refine (θ_run Cert.KernelIdeal.defs _ _).mono (fun r h c => ?_) (Cert.KernelIdeal.Hand.run_value m ρ)
    obtain ⟨h0, h1, h2, hargs⟩ := h c
    obtain ⟨hA, hX, hWp, hWe⟩ := Cert.Finite.reals_of_pre m hpre c
    refine ⟨h0.trans ?_, h1.trans ?_, h2.trans Cert.TailEq.coarseIds_eq, hargs⟩
    · refine (Cert.TailEq.coarseA_eq _).trans ?_
      unfold Cert.ReferenceIdeal.RefValue.res0
      refine congrArg Cert.ReferenceIdeal.RefValue.tail (funext fun i => ?_)
      exact Cert.Algebra.blk_eq hA (Cert.Algebra.S_real hA hX hWp) _ _ _
    · rfl
  · refine (θ_run Cert.ReferenceIdeal.defs _ _).mono (fun r h c => ?_) (Cert.ReferenceIdeal.RefValue.run_spec m' ρ')
    obtain ⟨h0, h1, h2, hargs⟩ := h c
    refine ⟨h0.trans ?_, h1.trans ?_, h2, hargs⟩
    · rw [(hagree c).1, (hagree c).2.1, (hagree c).2.2.1]
    · rw [(hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
